-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x512 : Shape := ⟨3, ![16, 8192, 512]⟩
abbrev S16 : Shape := ⟨1, ![16]⟩
abbrev S512x128 : Shape := ⟨2, ![512, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S16x8192x512 : S_.BroadcastsInDim S16x8192x512 (![] : Fin 0 → Fin S16x8192x512.rank)
  reducesTo_S16x8192x512_S_d0_1_2 : S16x8192x512.ReducesTo [0, 1, 2] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S16 : S_.BroadcastsInDim S16 (![] : Fin 0 → Fin S16.rank)
  reducesTo_S16_S_d0 : S16.ReducesTo [0] S_

variable [Facts]

def fn_part2 {F : FTy → Type} [FloatOps F] (main_arg1 : IVec S16 32) (main_v33 : IVec S_ 1) : IVec S_ 1 :=
  let main_c_12 : IVec S_ 32 := constantI S_ 32 1#32
  let main_v34 : IVec S16 32 := broadcastInDim S16 ![] bcast_S_S16 main_c_12
  let main_v35 : IVec S16 1 := cmpi .sge main_arg1 main_v34
  let main_c_13 : IVec S_ 1 := constantI S_ 1 1#1
  let main_v36 : IVec S_ 1 := (fun x v => Host.reduce IntOp.andi x v reducesTo_S16_S_d0 h_S_) main_v35 main_c_13
  let main_v37 : IVec S_ 1 := andi main_v33 main_v36
  main_v37

def fn_part1 {F : FTy → Type} [FloatOps F] (main_arg1 : IVec S16 32) (main_arg5 : FVec F S128 .f32) (main_arg6 : FVec F S128x1 .f32) (main_arg7 : FVec F S1 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_v33

def fn {F : FTy → Type} [FloatOps F] (main_arg0 : FVec F S16x8192x512 .f32) (main_arg1 : IVec S16 32) (main_arg2 : FVec F S512x128 .f32) (main_arg3 : FVec F S128 .f32) (main_arg4 : FVec F S512x128 .f32) (main_arg5 : FVec F S128 .f32) (main_arg6 : FVec F S128x1 .f32) (main_arg7 : FVec F S1 .f32) : IVec S_ 1 :=
  let main_v0 : FVec F S16x8192x512 .f32 := Host.absf main_arg0
  let main_cst : FVec F S_ .f32 := constant S_ .f32 0x7F800000#32
  let main_v1 : FVec F S16x8192x512 .f32 := broadcastInDim S16x8192x512 ![] bcast_S_S16x8192x512 main_cst
  let main_v2 : IVec S16x8192x512 1 := cmpf .olt main_v0 main_v1
  let main_c : IVec S_ 1 := constantI S_ 1 1#1
  let main_v3 : IVec S_ 1 := (fun x v => Host.reduce IntOp.andi x v reducesTo_S16x8192x512_S_d0_1_2 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S512x128 .f32 := Host.absf main_arg4
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg1 main_arg5 main_arg6 main_arg7 main_v13 main_v16
-- ==== Kernel.lean ====
abbrev S16x8192x512 : Shape := ⟨3, ![16, 8192, 512]⟩
abbrev S16 : Shape := ⟨1, ![16]⟩
abbrev S512x128 : Shape := ⟨2, ![512, 128]⟩
abbrev S128 : Shape := ⟨1, ![128]⟩
abbrev S128x1 : Shape := ⟨2, ![128, 1]⟩
abbrev S1 : Shape := ⟨1, ![1]⟩
abbrev S_ : Shape := ⟨0, ![]⟩
abbrev S512x256 : Shape := ⟨2, ![512, 256]⟩
abbrev S256 : Shape := ⟨1, ![256]⟩
abbrev S16x1x8192 : Shape := ⟨3, ![16, 1, 8192]⟩
abbrev S16x1x512 : Shape := ⟨3, ![16, 1, 512]⟩
abbrev S1x8192x512 : Shape := ⟨3, ![1, 8192, 512]⟩
abbrev S1x1x8192 : Shape := ⟨3, ![1, 1, 8192]⟩
abbrev S1x1x512 : Shape := ⟨3, ![1, 1, 512]⟩
abbrev S1x1 : Shape := ⟨2, ![1, 1]⟩
abbrev S1x512 : Shape := ⟨2, ![1, 512]⟩
abbrev S1x1024x512 : Shape := ⟨3, ![1, 1024, 512]⟩
abbrev S1024x512 : Shape := ⟨2, ![1024, 512]⟩
abbrev S1024x256 : Shape := ⟨2, ![1024, 256]⟩
abbrev S1x256 : Shape := ⟨2, ![1, 256]⟩
abbrev S1024x128 : Shape := ⟨2, ![1024, 128]⟩
abbrev S1024x1 : Shape := ⟨2, ![1024, 1]⟩
abbrev S1x1024 : Shape := ⟨2, ![1, 1024]⟩
abbrev S1x1x1024 : Shape := ⟨3, ![1, 1, 1024]⟩
abbrev S1x8192 : Shape := ⟨2, ![1, 8192]⟩
abbrev S16x8192x1 : Shape := ⟨3, ![16, 8192, 1]⟩

abbrev nBuf : Space → Nat
  | .hbm => 22
  | .vmem => 10
  | .smem => 1
  | _ => 0

abbrev bufTy : (tb : Table) → Fin (tcTables nBuf tb) → BufTy
  | .hbm, ⟨0, _⟩ => ⟨S16x8192x512, .f32⟩
  | .hbm, ⟨1, _⟩ => ⟨S16, .i32⟩
  | .hbm, ⟨2, _⟩ => ⟨S512x128, .f32⟩
  | .hbm, ⟨3, _⟩ => ⟨S128, .f32⟩
  | .hbm, ⟨4, _⟩ => ⟨S512x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S16, .i32⟩
  | .hbm, ⟨12, _⟩ => ⟨S16, .i32⟩
  | .hbm, ⟨13, _⟩ => ⟨S_, .i32⟩
  | .hbm, ⟨14, _⟩ => ⟨S16, .i32⟩
  | .hbm, ⟨15, _⟩ => ⟨S512x256, .f32⟩
  | .hbm, ⟨16, _⟩ => ⟨S512x256, .bf16⟩
  | .hbm, ⟨17, _⟩ => ⟨S256, .f32⟩
  | .hbm, ⟨18, _⟩ => ⟨S128x1, .bf16⟩
  | .hbm, ⟨19, _⟩ => ⟨S16x1x8192, .f32⟩
  | .hbm, ⟨20, _⟩ => ⟨S16x1x512, .f32⟩
  | .hbm, ⟨21, _⟩ => ⟨S16x8192x1, .f32⟩
  | .local _ .vmem, ⟨0, _⟩ => ⟨S1x8192x512, .f32⟩
  | .local _ .vmem, ⟨1, _⟩ => ⟨S1x8192x512, .f32⟩
  | .local _ .vmem, ⟨2, _⟩ => ⟨S512x256, .bf16⟩
  | .local _ .vmem, ⟨3, _⟩ => ⟨S256, .f32⟩
  | .local _ .vmem, ⟨4, _⟩ => ⟨S128x1, .bf16⟩
  | .local _ .vmem, ⟨5, _⟩ => ⟨S1, .f32⟩
  | .local _ .vmem, ⟨6, _⟩ => ⟨S1x1x8192, .f32⟩
  | .local _ .vmem, ⟨7, _⟩ => ⟨S1x1x8192, .f32⟩
  | .local _ .vmem, ⟨8, _⟩ => ⟨S1x1x512, .f32⟩
  | .local _ .vmem, ⟨9, _⟩ => ⟨S1x1x512, .f32⟩
  | .local _ .smem, ⟨0, _⟩ => ⟨S16, .i32⟩
  | _, _ => ⟨S16x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev main_v6 : Ref sig .tc := ⟨.hbm, 21, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32 : BitVec 32 := 0#32
  let c8_i32 : BitVec 32 := 8#32
  let v12 : BitVec 32 := Scalar.addi c0_i32 c8_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c1024_i32 : BitVec 32 := 1024#32
  let v34 : BitVec 32 := Scalar.muli arg9 c1024_i32
  v34
def k0_off2 (k0_t1 : Fin k0_t1_loop.trips) : Fin 3 → Nat :=
  let c0_18 : Index := 0#32
  let c0_i32 : BitVec 32 := 0#32
  let c1_i32 : BitVec 32 := 1#32
  let arg9 : BitVec 32 := Scf.iv c0_i32 c1_i32 k0_t1
  let c1024_i32 : BitVec 32 := 1024#32
  let v34 : BitVec 32 := Scalar.muli arg9 c1024_i32
  let v35 : BitVec 32 := v34
  let v36 : Index := Scalar.indexCast v35
  let c0_19 : Index := 0#32
  ![0, v36.toNat, 0]
def k0_off3 (k0_t1 : Fin k0_t1_loop.trips) : Fin 3 → Nat :=
  let c0_23 : Index := 0#32
  let c0_24 : Index := 0#32
  let c0_i32 : BitVec 32 := 0#32
  let c1_i32 : BitVec 32 := 1#32
  let arg9 : BitVec 32 := Scf.iv c0_i32 c1_i32 k0_t1
  let c1024_i32 : BitVec 32 := 1024#32
  let v34 : BitVec 32 := Scalar.muli arg9 c1024_i32
  let v35 : BitVec 32 := v34
  let v62 : Index := Scalar.indexCast v35
  ![0, 0, v62.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S16 : S_.BroadcastsInDim S16 (![] : Fin 0 → Fin S16.rank)
  concatenates_S512x128_S512x128_S512x256_d1 : Shape.Concatenates [S512x128, S512x128] S512x256 1
  bitsLt_bf16_f32 : FTy.bits .bf16 < FTy.bits .f32
  concatenates_S128_S128_S256_d0 : Shape.Concatenates [S128, S128] S256 0
  numel1_S1 : S1.numel = 1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S256_S256_0 : ∀ a, (![0] : Fin 1 → Nat) a + S256.size a ≤ S256.size a
  h_S256 : 0 < S256.numel
  shapeCasts_S256_S256 : S256.ShapeCasts S256
  inb_S1_S1_0 : ∀ a, (![0] : Fin 1 → Nat) a + S1.size a ≤ S1.size a
  h_S1 : 0 < S1.numel
  h_S1x1024x512 : 0 < S1x1024x512.numel
  shapeCasts_S1x1024x512_S1024x512 : S1x1024x512.ShapeCasts S1024x512
  shapeCasts_S256_S1x256 : S256.ShapeCasts S1x256
  broadcasts_S1x256_S1024x256 : S1x256.Broadcasts S1024x256
  slices_S1024x256_o0_0_S1024x128 : S1024x256.Slices ![0, 0] S1024x128
  slices_S1024x256_o0_128_S1024x128 : S1024x256.Slices ![0, 128] S1024x128
  shapeCasts_S1_S1x1 : S1.ShapeCasts S1x1
  broadcasts_S1x1_S1024x1 : S1x1.Broadcasts S1024x1
  transposes_S1024x1_p1_0_S1x1024 : S1024x1.Transposes [1, 0] S1x1024
  iota_S1x1024_d1_w32 : S1x1024.Iotas .tc 32 [1]
  h_S1x1x1024 : 0 < S1x1x1024.numel
  shapeCasts_S1x1x1024_S1x1024 : S1x1x1024.ShapeCasts S1x1024
  shapeCasts_S1x1024_S1x1x1024 : S1x1024.ShapeCasts S1x1x1024
  reduces_S1x1024_S1 : S1x1024.Reduces [1] S1
  broadcasts_S1x1_S1x1024 : S1x1.Broadcasts S1x1024
  broadcasts_S1x1_S1x512 : S1x1.Broadcasts S1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  broadcasts_S1x1_S1x8192 : S1x1.Broadcasts S1x8192
  iota_S1x8192_d1_w32 : S1x8192.Iotas .tc 32 [1]
  shapeCasts_S1x8192_S1x1x8192 : S1x8192.ShapeCasts S1x1x8192
  shapeCasts_S16x1x8192_S16x8192x1 : S16x1x8192.ShapeCasts S16x8192x1
  dot_S1024x512_S512x256_S1024x256_1_0_0_1_n_n_wf : DotDims.WF S1024x512 S512x256 S1024x256 [1] [0] [0] [1] [] []
  dot_S1024x128_S128x1_S1024x1_1_0_0_1_n_n_wf : DotDims.WF S1024x128 S128x1 S1024x1 [1] [0] [0] [1] [] []
  dot_S1x1024_S1024x512_S1x512_1_0_0_1_n_n_wf : DotDims.WF S1x1024 S1024x512 S1x512 [1] [0] [0] [1] [] []
  hrank0 : 0 < grid0.rank
  k0_off1_inb : ∀ i : grid0.Coords, ∀ a, (k0_off1 i) a + S1.size a ≤ S16.size a
  k0_t1_ok : k0_t1_loop.OK
  k0_mult1_dvd : ∀ k0_t1 : Fin k0_t1_loop.trips, 1024 ∣ (k0_mult1 k0_t1).toNat
  k0_off2_inb : ∀ k0_t1 : Fin k0_t1_loop.trips, ∀ a, (k0_off2 k0_t1) a + S1x1024x512.size a ≤ S1x8192x512.size a
  k0_off3_inb : ∀ k0_t1 : Fin k0_t1_loop.trips, ∀ a, (k0_off3 k0_t1) a + S1x1x1024.size a ≤ S1x1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x512.size a ≤ S16x8192x512.size a
  hwx0_0 : ∀ i : grid0.Coords, EltTy.bits .f32 = 32 ∨ (Rect.block (s := S16x8192x512) S1x8192x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .bf16 = 32 ∨ (Rect.block (s := S128x1) S128x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x8192.size a ≤ S16x1x8192.size a
  hwx0_5 : ∀ i : grid0.Coords, EltTy.bits .f32 = 32 ∨ (Rect.block (s := S16x1x8192) S1x1x8192.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512.size a ≤ S16x1x512.size a
  hwx0_6 : ∀ i : grid0.Coords, EltTy.bits .f32 = 32 ∨ (Rect.block (s := S16x1x512) S1x1x512.size (cc0_transform_6 i) (hinb0_6 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf
def dot_S1x1024_S1024x512_S1x512_1_0_0_1_n_n : DotDims S1x1024 S1024x512 S1x512 where
  lhsContracting := [1]
  rhsContracting := [0]
  lhsNonContracting := [0]
  rhsNonContracting := [1]
  lhsBatch := []
  rhsBatch := []
  wf := dot_S1x1024_S1024x512_S1x512_1_0_0_1_n_n_wf

abbrev spec0_0 : Pipeline.WinSpec sig grid0.rank :=
  Pipeline.WinSpec.ofSpec (Memref.whole main_arg0) S1x8192x512.size reads0_0 false false 2 stage0_0 sem0_0 nbuf0_0 hstage0_0

abbrev spec0_1 : Pipeline.WinSpec sig grid0.rank :=
  Pipeline.WinSpec.ofSpec (Memref.whole main_v2) S512x256.size reads0_1 false true 1 stage0_1 sem0_1 nbuf0_1 hstage0_1

abbrev spec0_2 : Pipeline.WinSpec sig grid0.rank :=
  Pipeline.WinSpec.ofSpec (Memref.whole main_v3) S256.size reads0_2 false true 1 stage0_2 sem0_2 nbuf0_2 hstage0_2

abbrev spec0_3 : Pipeline.WinSpec sig grid0.rank :=
  Pipeline.WinSpec.ofSpec (Memref.whole main_v4) S128x1.size reads0_3 false true 1 stage0_3 sem0_3 nbuf0_3 hstage0_3

abbrev spec0_4 : Pipeline.WinSpec sig grid0.rank :=
  Pipeline.WinSpec.ofSpec (Memref.whole main_arg7) S1.size reads0_4 false true 1 stage0_4 sem0_4 nbuf0_4 hstage0_4

abbrev spec0_5 : Pipeline.WinSpec sig grid0.rank :=
  Pipeline.WinSpec.ofSpec (Memref.whole main_v5_0) S1x1x8192.size reads0_5 true false 2 stage0_5 sem0_5 nbuf0_5 hstage0_5

abbrev spec0_6 : Pipeline.WinSpec sig grid0.rank :=
  Pipeline.WinSpec.ofSpec (Memref.whole main_v5_1) S1x1x512.size reads0_6 true false 2 stage0_6 sem0_6 nbuf0_6 hstage0_6

abbrev spec0 : Fin 7 → Pipeline.WinSpec sig grid0.rank := fun | 0 => spec0_0 | 1 => spec0_1 | 2 => spec0_2 | 3 => spec0_3 | 4 => spec0_4 | 5 => spec0_5 | 6 => spec0_6 | ⟨_ + 7, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | ⟨_ + 7, h⟩ => absurd h (Nat.not_lt.2 (Nat.le_add_left _ _))
abbrev ix0 (pf : pre0.Contents (Elt F)) : (w : Fin 7) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | ⟨_ + 7, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | ⟨_ + 7, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | ⟨_ + 7, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | ⟨_ + 7, h⟩ => absurd h (Nat.not_lt.2 (Nat.le_add_left _ _))

class Facts : Prop extends Facts₀ where
  harr0 : ∀ w, (spec0 w).arr.IsWhole

variable [Facts]
-- ==== ReferenceIdeal.lean ====
abbrev S16x8192x512 : Shape := ⟨3, ![16, 8192, 512]⟩
abbrev S16 : Shape := ⟨1, ![16]⟩
abbrev S512x128 : Shape := ⟨2, ![512, 128]⟩
abbrev S128 : Shape := ⟨1, ![128]⟩
abbrev S128x1 : Shape := ⟨2, ![128, 1]⟩
abbrev S1 : Shape := ⟨1, ![1]⟩
abbrev S16x8192x128 : Shape := ⟨3, ![16, 8192, 128]⟩
abbrev S1x1x128 : Shape := ⟨3, ![1, 1, 128]⟩
abbrev S_ : Shape := ⟨0, ![]⟩
abbrev S16x8192x1 : Shape := ⟨3, ![16, 8192, 1]⟩
abbrev S1x1x1 : Shape := ⟨3, ![1, 1, 1]⟩
abbrev S8192 : Shape := ⟨1, ![8192]⟩
abbrev S1x8192x1 : Shape := ⟨3, ![1, 8192, 1]⟩
abbrev S16x1x1 : Shape := ⟨3, ![16, 1, 1]⟩
abbrev S16x1 : Shape := ⟨2, ![16, 1]⟩
abbrev S16x1x512 : Shape := ⟨3, ![16, 1, 512]⟩

abbrev nBuf : Space → Nat
  | .hbm => 55
  | .vmem => 0
  | .smem => 0
  | _ => 0

abbrev bufTy : (tb : Table) → Fin (tcTables nBuf tb) → BufTy
  | .hbm, ⟨0, _⟩ => ⟨S16x8192x512, .f32⟩
  | .hbm, ⟨1, _⟩ => ⟨S16, .i32⟩
  | .hbm, ⟨2, _⟩ => ⟨S512x128, .f32⟩
  | .hbm, ⟨3, _⟩ => ⟨S128, .f32⟩
  | .hbm, ⟨4, _⟩ => ⟨S512x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S16x8192x128, .f32⟩
  | .hbm, ⟨9, _⟩ => ⟨S1x1x128, .f32⟩
  | .hbm, ⟨10, _⟩ => ⟨S16x8192x128, .f32⟩
  | .hbm, ⟨11, _⟩ => ⟨S16x8192x128, .f32⟩
  | .hbm, ⟨12, _⟩ => ⟨S16x8192x128, .f32⟩
  | .hbm, ⟨13, _⟩ => ⟨S16x8192x128, .f32⟩
  | .hbm, ⟨14, _⟩ => ⟨S1x1x128, .f32⟩
  | .hbm, ⟨15, _⟩ => ⟨S16x8192x128, .f32⟩
  | .hbm, ⟨16, _⟩ => ⟨S16x8192x128, .f32⟩
  | .hbm, ⟨17, _⟩ => ⟨S16x8192x128, .f32⟩
  | .hbm, ⟨18, _⟩ => ⟨S16x8192x128, .f32⟩
  | .hbm, ⟨19, _⟩ => ⟨S_, .f32⟩
  | .hbm, ⟨20, _⟩ => ⟨S16x8192x128, .f32⟩
  | .hbm, ⟨21, _⟩ => ⟨S16x8192x128, .f32⟩
  | .hbm, ⟨22, _⟩ => ⟨S_, .f32⟩
  | .hbm, ⟨23, _⟩ => ⟨S16x8192x128, .f32⟩
  | .hbm, ⟨24, _⟩ => ⟨S16x8192x128, .f32⟩
  | .hbm, ⟨25, _⟩ => ⟨S16x8192x128, .f32⟩
  | .hbm, ⟨26, _⟩ => ⟨S16x8192x1, .f32⟩
  | .hbm, ⟨27, _⟩ => ⟨S1x1x1, .f32⟩
  | .hbm, ⟨28, _⟩ => ⟨S16x8192x1, .f32⟩
  | .hbm, ⟨29, _⟩ => ⟨S16x8192x1, .f32⟩
  | .hbm, ⟨30, _⟩ => ⟨S8192, .i32⟩
  | .hbm, ⟨31, _⟩ => ⟨S1x8192x1, .i32⟩
  | .hbm, ⟨32, _⟩ => ⟨S16x1x1, .i32⟩
  | .hbm, ⟨33, _⟩ => ⟨S16x8192x1, .i32⟩
  | .hbm, ⟨34, _⟩ => ⟨S16x8192x1, .i32⟩
  | .hbm, ⟨35, _⟩ => ⟨S16x8192x1, .i1⟩
  | .hbm, ⟨36, _⟩ => ⟨S_, .f32⟩
  | .hbm, ⟨37, _⟩ => ⟨S_, .f32⟩
  | .hbm, ⟨38, _⟩ => ⟨S16x8192x1, .f32⟩
  | .hbm, ⟨39, _⟩ => ⟨S16x8192x1, .f32⟩
  | .hbm, ⟨40, _⟩ => ⟨S_, .f32⟩
  | .hbm, ⟨41, _⟩ => ⟨S16x1, .f32⟩
  | .hbm, ⟨42, _⟩ => ⟨S_, .f32⟩
  | .hbm, ⟨43, _⟩ => ⟨S16x1, .f32⟩
  | .hbm, ⟨44, _⟩ => ⟨S16x1, .f32⟩
  | .hbm, ⟨45, _⟩ => ⟨S16x1x1, .f32⟩
  | .hbm, ⟨46, _⟩ => ⟨S16x8192x1, .f32⟩
  | .hbm, ⟨47, _⟩ => ⟨S16x8192x1, .f32⟩
  | .hbm, ⟨48, _⟩ => ⟨S16x8192x1, .f32⟩
  | .hbm, ⟨49, _⟩ => ⟨S_, .f32⟩
  | .hbm, ⟨50, _⟩ => ⟨S16x1, .f32⟩
  | .hbm, ⟨51, _⟩ => ⟨S16x1x1, .f32⟩
  | .hbm, ⟨52, _⟩ => ⟨S16x8192x1, .f32⟩
  | .hbm, ⟨53, _⟩ => ⟨S16x8192x1, .f32⟩
  | .hbm, ⟨54, _⟩ => ⟨S16x1x512, .f32⟩
  | _, _ => ⟨S16x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_call0_v0 : Ref sig .tc := ⟨.hbm, 37, rfl⟩
abbrev main_call0_v1 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S16x8192x128_0_1_2 : S1x1x128.BroadcastsInDim S16x8192x128 (![0, 1, 2] : Fin 3 → Fin S16x8192x128.rank)
  bcast_S_S16x8192x128 : S_.BroadcastsInDim S16x8192x128 (![] : Fin 0 → Fin S16x8192x128.rank)
  bcast_S1_S1x1x1_2 : S1.BroadcastsInDim S1x1x1 (![2] : Fin 1 → Fin S1x1x1.rank)
  bcast_S1x1x1_S16x8192x1_0_1_2 : S1x1x1.BroadcastsInDim S16x8192x1 (![0, 1, 2] : Fin 3 → Fin S16x8192x1.rank)
  bcast_S8192_S1x8192x1_1 : S8192.BroadcastsInDim S1x8192x1 (![1] : Fin 1 → Fin S1x8192x1.rank)
  bcast_S16_S16x1x1_0 : S16.BroadcastsInDim S16x1x1 (![0] : Fin 1 → Fin S16x1x1.rank)
  bcast_S1x8192x1_S16x8192x1_0_1_2 : S1x8192x1.BroadcastsInDim S16x8192x1 (![0, 1, 2] : Fin 3 → Fin S16x8192x1.rank)
  bcast_S16x1x1_S16x8192x1_0_1_2 : S16x1x1.BroadcastsInDim S16x8192x1 (![0, 1, 2] : Fin 3 → Fin S16x8192x1.rank)
  bcast_S_S16x8192x1 : S_.BroadcastsInDim S16x8192x1 (![] : Fin 0 → Fin S16x8192x1.rank)
  reducesTo_S16x8192x1_S16x1_d1 : S16x8192x1.ReducesTo [1] S16x1
  h_S_ : 0 < S_.numel
  bcast_S_S16x1 : S_.BroadcastsInDim S16x1 (![] : Fin 0 → Fin S16x1.rank)
  bcast_S16x1_S16x1x1_0_2 : S16x1.BroadcastsInDim S16x1x1 (![0, 2] : Fin 2 → Fin S16x1x1.rank)
  dot_S16x8192x512_S512x128_S16x8192x128_2_0_01_1_n_n_wf : DotDims.WF S16x8192x512 S512x128 S16x8192x128 [2] [0] [0, 1] [1] [] []
  dot_S16x8192x128_S128x1_S16x8192x1_2_0_01_1_n_n_wf : DotDims.WF S16x8192x128 S128x1 S16x8192x1 [2] [0] [0, 1] [1] [] []
  dot_S16x8192x1_S16x8192x512_S16x1x512_1_1_2_2_0_0_wf : DotDims.WF S16x8192x1 S16x8192x512 S16x1x512 [1] [1] [2] [2] [0] [0]

variable [Facts₀]

def dot_S16x8192x512_S512x128_S16x8192x128_2_0_01_1_n_n : DotDims S16x8192x512 S512x128 S16x8192x128 where
  lhsContracting := [2]
  rhsContracting := [0]
  lhsNonContracting := [0, 1]
  rhsNonContracting := [1]
  lhsBatch := []
  rhsBatch := []
  wf := dot_S16x8192x512_S512x128_S16x8192x128_2_0_01_1_n_n_wf
def dot_S16x8192x128_S128x1_S16x8192x1_2_0_01_1_n_n : DotDims S16x8192x128 S128x1 S16x8192x1 where
  lhsContracting := [2]
  rhsContracting := [0]
  lhsNonContracting := [0, 1]
  rhsNonContracting := [1]
  lhsBatch := []
  rhsBatch := []
  wf := dot_S16x8192x128_S128x1_S16x8192x1_2_0_01_1_n_n_wf
def dot_S16x8192x1_S16x8192x512_S16x1x512_1_1_2_2_0_0 : DotDims S16x8192x1 S16x8192x512 S16x1x512 where
  lhsContracting := [1]
  rhsContracting := [1]
  lhsNonContracting := [2]
  rhsNonContracting := [2]
  lhsBatch := [0]
  rhsBatch := [0]
  wf := dot_S16x8192x1_S16x8192x512_S16x1x512_1_1_2_2_0_0_wf

class Facts : Prop extends Facts₀ where

variable [Facts]
-- ==== Proof.KernelLoopFacts.lean ====
/-
  The sweep's carried state does not depend on what the attention staging buffer held before the sweep.

  One trip of the counted loop loads a chunk of the attention buffer back before it overwrites that chunk, but uses the
  loaded value for nothing: the trip's result and the piece it stores are functions of the carried value and of the
  chunk of `x` alone. By induction over the trips, the state before trip `n` — the carried maximum, denominator and
  weighted sum, and the pieces stored so far — is the same from any two initial contents of the buffer.
-/
import proofs.«408275_j80401787781685_3_alg».proof.Proof.Gen.Kernel.Loops
import Idealize.ShloMosaic.Lib.Pipeline.FrameBody
import Idealize.ShloMosaic.Lib.Ring

set_option maxRecDepth 16384

noncomputable section

namespace Cert.Kernel.LoopFacts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

/-- A trip's yield is the same whatever the attention buffer held. -/
theorem tripR_indep (𝒱 : Variants) (c : Dev nD) (bd : Option 𝒱.V) (i : grid0.Coords) (arg1 : Memref sig .tc .smem S16 .i32) (harg1 : arg1.IsWhole) (arg2 : Memref sig .tc .vmem S1x8192x512 .f32) (harg2 : arg2.IsWhole) (arg3 : Memref sig .tc .vmem S512x256 .bf16) (harg3 : arg3.IsWhole) (arg4 : Memref sig .tc .vmem S256 .f32) (harg4 : arg4.IsWhole) (arg5 : Memref sig .tc .vmem S128x1 .bf16) (harg5 : arg5.IsWhole) (arg6 : Memref sig .tc .vmem S1 .f32) (harg6 : arg6.IsWhole) (arg7 : Memref sig .tc .vmem S1x1x8192 .f32) (harg7 : arg7.IsWhole) (arg8 : Memref sig .tc .vmem S1x1x512 .f32) (harg8 : arg8.IsWhole) (v1 : Elt F .i32) (v2 : Vec F S512x256 .bf16) (v4 : Vec F S128x1 .bf16) (v6 : Vec F S256 .f32) (v8 : Vec F S1 .f32) (X_arg2 : BufTy.Contents (Elt F) arg2.view.ty) (k : Fin k0_t1_loop.trips) (acc : (FVec F S1x1 .f32 × FVec F S1x1 .f32 × FVec F S1x512 .f32)) (f f' : BufTy.Contents (Elt F) arg7.view.ty) :
    tripR_k0_t1 (F := F) 𝒱 c bd i arg1 harg1 arg2 harg2 arg3 harg3 arg4 harg4 arg5 harg5 arg6 harg6 arg7 harg7 arg8 harg8 v1 v2 v4 v6 v8 X_arg2 k acc f = tripR_k0_t1 (F := F) 𝒱 c bd i arg1 harg1 arg2 harg2 arg3 harg3 arg4 harg4 arg5 harg5 arg6 harg6 arg7 harg7 arg8 harg8 v1 v2 v4 v6 v8 X_arg2 k acc f' := by
  unfold tripR_k0_t1 trip_k0_t1
  rfl

/-- A trip's stored piece is the same whatever the attention buffer held. -/
theorem tripL_indep (𝒱 : Variants) (c : Dev nD) (bd : Option 𝒱.V) (i : grid0.Coords) (arg1 : Memref sig .tc .smem S16 .i32) (harg1 : arg1.IsWhole) (arg2 : Memref sig .tc .vmem S1x8192x512 .f32) (harg2 : arg2.IsWhole) (arg3 : Memref sig .tc .vmem S512x256 .bf16) (harg3 : arg3.IsWhole) (arg4 : Memref sig .tc .vmem S256 .f32) (harg4 : arg4.IsWhole) (arg5 : Memref sig .tc .vmem S128x1 .bf16) (harg5 : arg5.IsWhole) (arg6 : Memref sig .tc .vmem S1 .f32) (harg6 : arg6.IsWhole) (arg7 : Memref sig .tc .vmem S1x1x8192 .f32) (harg7 : arg7.IsWhole) (arg8 : Memref sig .tc .vmem S1x1x512 .f32) (harg8 : arg8.IsWhole) (v1 : Elt F .i32) (v2 : Vec F S512x256 .bf16) (v4 : Vec F S128x1 .bf16) (v6 : Vec F S256 .f32) (v8 : Vec F S1 .f32) (X_arg2 : BufTy.Contents (Elt F) arg2.view.ty) (k : Fin k0_t1_loop.trips) (acc : (FVec F S1x1 .f32 × FVec F S1x1 .f32 × FVec F S1x512 .f32)) (f f' : BufTy.Contents (Elt F) arg7.view.ty) :
    tripL_k0_t1 (F := F) 𝒱 c bd i arg1 harg1 arg2 harg2 arg3 harg3 arg4 harg4 arg5 harg5 arg6 harg6 arg7 harg7 arg8 harg8 v1 v2 v4 v6 v8 X_arg2 k acc f = tripL_k0_t1 (F := F) 𝒱 c bd i arg1 harg1 arg2 harg2 arg3 harg3 arg4 harg4 arg5 harg5 arg6 harg6 arg7 harg7 arg8 harg8 v1 v2 v4 v6 v8 X_arg2 k acc f' := by
  unfold tripL_k0_t1 trip_k0_t1
  rfl

/-- The state before trip `n` is the same from any two initial contents of the attention buffer. -/
theorem st_indep (𝒱 : Variants) (c : Dev nD) (bd : Option 𝒱.V) (i : grid0.Coords) (arg1 : Memref sig .tc .smem S16 .i32) (harg1 : arg1.IsWhole) (arg2 : Memref sig .tc .vmem S1x8192x512 .f32) (harg2 : arg2.IsWhole) (arg3 : Memref sig .tc .vmem S512x256 .bf16) (harg3 : arg3.IsWhole) (arg4 : Memref sig .tc .vmem S256 .f32) (harg4 : arg4.IsWhole) (arg5 : Memref sig .tc .vmem S128x1 .bf16) (harg5 : arg5.IsWhole) (arg6 : Memref sig .tc .vmem S1 .f32) (harg6 : arg6.IsWhole) (arg7 : Memref sig .tc .vmem S1x1x8192 .f32) (harg7 : arg7.IsWhole) (arg8 : Memref sig .tc .vmem S1x1x512 .f32) (harg8 : arg8.IsWhole) (v1 : Elt F .i32) (v2 : Vec F S512x256 .bf16) (v4 : Vec F S128x1 .bf16) (v6 : Vec F S256 .f32) (v8 : Vec F S1 .f32) (X_arg2 : BufTy.Contents (Elt F) arg2.view.ty) (G G' : BufTy.Contents (Elt F) arg7.view.ty) (init : (FVec F S1x1 .f32 × FVec F S1x1 .f32 × FVec F S1x512 .f32)) (n : ℕ) :
    st_k0_t1 (F := F) 𝒱 c bd i arg1 harg1 arg2 harg2 arg3 harg3 arg4 harg4 arg5 harg5 arg6 harg6 arg7 harg7 arg8 harg8 v1 v2 v4 v6 v8 X_arg2 G init n = st_k0_t1 (F := F) 𝒱 c bd i arg1 harg1 arg2 harg2 arg3 harg3 arg4 harg4 arg5 harg5 arg6 harg6 arg7 harg7 arg8 harg8 v1 v2 v4 v6 v8 X_arg2 G' init n := by
  induction n with
  | zero => rfl
  | succ n ih =>
    rw [st_k0_t1.eq_2, st_k0_t1.eq_2, ih]
    unfold st_k0_t1Step
    by_cases h : n < k0_t1_loop.trips
    · rw [dif_pos h, dif_pos h]
      rw [tripR_indep (F := F) 𝒱 c bd i arg1 harg1 arg2 harg2 arg3 harg3 arg4 harg4 arg5 harg5 arg6 harg6 arg7 harg7 arg8 harg8 v1 v2 v4 v6 v8 X_arg2 ⟨n, h⟩ _ _ (arg7.view.writes (Elt F) G' _),
        tripL_indep (F := F) 𝒱 c bd i arg1 harg1 arg2 harg2 arg3 harg3 arg4 harg4 arg5 harg5 arg6 harg6 arg7 harg7 arg8 harg8 v1 v2 v4 v6 v8 X_arg2 ⟨n, h⟩ _ _ (arg7.view.writes (Elt F) G' _)]
    · rw [dif_neg h, dif_neg h]

/-- The eight chunk stores of the sweep tile the attention block. -/
theorem st_cover (𝒱 : Variants) (c : Dev nD) (bd : Option 𝒱.V) (i : grid0.Coords) (arg1 : Memref sig .tc .smem S16 .i32) (harg1 : arg1.IsWhole) (arg2 : Memref sig .tc .vmem S1x8192x512 .f32) (harg2 : arg2.IsWhole) (arg3 : Memref sig .tc .vmem S512x256 .bf16) (harg3 : arg3.IsWhole) (arg4 : Memref sig .tc .vmem S256 .f32) (harg4 : arg4.IsWhole) (arg5 : Memref sig .tc .vmem S128x1 .bf16) (harg5 : arg5.IsWhole) (arg6 : Memref sig .tc .vmem S1 .f32) (harg6 : arg6.IsWhole) (arg7 : Memref sig .tc .vmem S1x1x8192 .f32) (harg7 : arg7.IsWhole) (arg8 : Memref sig .tc .vmem S1x1x512 .f32) (harg8 : arg8.IsWhole) (v1 : Elt F .i32) (v2 : Vec F S512x256 .bf16) (v4 : Vec F S128x1 .bf16) (v6 : Vec F S256 .f32) (v8 : Vec F S1 .f32) (X_arg2 : BufTy.Contents (Elt F) arg2.view.ty) (G : BufTy.Contents (Elt F) arg7.view.ty) (init : (FVec F S1x1 .f32 × FVec F S1x1 .f32 × FVec F S1x512 .f32)) (y : S1x1x8192.Idx) :
    ∃ pc ∈ (st_k0_t1 (F := F) 𝒱 c bd i arg1 harg1 arg2 harg2 arg3 harg3 arg4 harg4 arg5 harg5 arg6 harg6 arg7 harg7 arg8 harg8 v1 v2 v4 v6 v8 X_arg2 G init (Scf.trips k0_t1_loop.lb k0_t1_loop.ub k0_t1_loop.st)).2, y ∈ pc.1.set :=
  View.cover_of_tiledBy _ ![1, 1, 1024] (by sl_kernel_rfl) y

/-- So a load of the block after the sweep reads the same whatever the buffer held before it. -/
theorem readAt_after_sweep (𝒱 : Variants) (c : Dev nD) (bd : Option 𝒱.V) (i : grid0.Coords) (arg1 : Memref sig .tc .smem S16 .i32) (harg1 : arg1.IsWhole) (arg2 : Memref sig .tc .vmem S1x8192x512 .f32) (harg2 : arg2.IsWhole) (arg3 : Memref sig .tc .vmem S512x256 .bf16) (harg3 : arg3.IsWhole) (arg4 : Memref sig .tc .vmem S256 .f32) (harg4 : arg4.IsWhole) (arg5 : Memref sig .tc .vmem S128x1 .bf16) (harg5 : arg5.IsWhole) (arg6 : Memref sig .tc .vmem S1 .f32) (harg6 : arg6.IsWhole) (arg7 : Memref sig .tc .vmem S1x1x8192 .f32) (harg7 : arg7.IsWhole) (arg8 : Memref sig .tc .vmem S1x1x512 .f32) (harg8 : arg8.IsWhole) (v1 : Elt F .i32) (v2 : Vec F S512x256 .bf16) (v4 : Vec F S128x1 .bf16) (v6 : Vec F S256 .f32) (v8 : Vec F S1 .f32) (X_arg2 : BufTy.Contents (Elt F) arg2.view.ty) (G G' : BufTy.Contents (Elt F) arg7.view.ty) (init : (FVec F S1x1 .f32 × FVec F S1x1 .f32 × FVec F S1x512 .f32)) (r : Rect S1x1x8192) :
    View.readAt (Elt F) arg7.view r.toLoadRect (arg7.view.writes (Elt F) G (st_k0_t1 (F := F) 𝒱 c bd i arg1 harg1 arg2 harg2 arg3 harg3 arg4 harg4 arg5 harg5 arg6 harg6 arg7 harg7 arg8 harg8 v1 v2 v4 v6 v8 X_arg2 G init (Scf.trips k0_t1_loop.lb k0_t1_loop.ub k0_t1_loop.st)).2)
      = View.readAt (Elt F) arg7.view r.toLoadRect (arg7.view.writes (Elt F) G' (st_k0_t1 (F := F) 𝒱 c bd i arg1 harg1 arg2 harg2 arg3 harg3 arg4 harg4 arg5 harg5 arg6 harg6 arg7 harg7 arg8 harg8 v1 v2 v4 v6 v8 X_arg2 G' init (Scf.trips k0_t1_loop.lb k0_t1_loop.ub k0_t1_loop.st)).2) := by
  rw [st_indep (F := F) 𝒱 c bd i arg1 harg1 arg2 harg2 arg3 harg3 arg4 harg4 arg5 harg5 arg6 harg6 arg7 harg7 arg8 harg8 v1 v2 v4 v6 v8 X_arg2 G G' init]
  rw [View.readAt_eq_ld, View.readAt_eq_ld,
    View.read_writes_of_cover arg7.view G arg7.view G' _ (st_cover (F := F) 𝒱 c bd i arg1 harg1 arg2 harg2 arg3 harg3 arg4 harg4 arg5 harg5 arg6 harg6 arg7 harg7 arg8 harg8 v1 v2 v4 v6 v8 X_arg2 G' init)]

end Cert.Kernel.LoopFacts

end
-- ==== Proof.KernelIdealLoopFacts.lean ====
/-
  The sweep's carried state does not depend on what the attention staging buffer held before the sweep.

  One trip of the counted loop loads a chunk of the attention buffer back before it overwrites that chunk, but uses the
  loaded value for nothing: the trip's result and the piece it stores are functions of the carried value and of the
  chunk of `x` alone. By induction over the trips, the state before trip `n` — the carried maximum, denominator and
  weighted sum, and the pieces stored so far — is the same from any two initial contents of the buffer.
-/
import proofs.«408275_j80401787781685_3_alg».proof.Proof.Gen.KernelIdeal.Loops
import Idealize.ShloMosaic.Lib.Pipeline.FrameBody
import Idealize.ShloMosaic.Lib.Ring

set_option maxRecDepth 16384

noncomputable section

namespace Cert.KernelIdeal.LoopFacts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- A trip's yield is the same whatever the attention buffer held. -/
theorem tripR_indep (𝒱 : Variants) (c : Dev nD) (bd : Option 𝒱.V) (i : grid0.Coords) (arg1 : Memref sig .tc .smem S16 .i32) (harg1 : arg1.IsWhole) (arg2 : Memref sig .tc .vmem S1x8192x512 .f32) (harg2 : arg2.IsWhole) (arg3 : Memref sig .tc .vmem S512x256 .bf16) (harg3 : arg3.IsWhole) (arg4 : Memref sig .tc .vmem S256 .f32) (harg4 : arg4.IsWhole) (arg5 : Memref sig .tc .vmem S128x1 .bf16) (harg5 : arg5.IsWhole) (arg6 : Memref sig .tc .vmem S1 .f32) (harg6 : arg6.IsWhole) (arg7 : Memref sig .tc .vmem S1x1x8192 .f32) (harg7 : arg7.IsWhole) (arg8 : Memref sig .tc .vmem S1x1x512 .f32) (harg8 : arg8.IsWhole) (v1 : Elt F .i32) (v2 : Vec F S512x256 .bf16) (v4 : Vec F S128x1 .bf16) (v6 : Vec F S256 .f32) (v8 : Vec F S1 .f32) (X_arg2 : BufTy.Contents (Elt F) arg2.view.ty) (k : Fin k0_t1_loop.trips) (acc : (FVec F S1x1 .f32 × FVec F S1x1 .f32 × FVec F S1x512 .f32)) (f f' : BufTy.Contents (Elt F) arg7.view.ty) :
    tripR_k0_t1 (F := F) 𝒱 c bd i arg1 harg1 arg2 harg2 arg3 harg3 arg4 harg4 arg5 harg5 arg6 harg6 arg7 harg7 arg8 harg8 v1 v2 v4 v6 v8 X_arg2 k acc f = tripR_k0_t1 (F := F) 𝒱 c bd i arg1 harg1 arg2 harg2 arg3 harg3 arg4 harg4 arg5 harg5 arg6 harg6 arg7 harg7 arg8 harg8 v1 v2 v4 v6 v8 X_arg2 k acc f' := by
  unfold tripR_k0_t1 trip_k0_t1
  rfl

/-- A trip's stored piece is the same whatever the attention buffer held. -/
theorem tripL_indep (𝒱 : Variants) (c : Dev nD) (bd : Option 𝒱.V) (i : grid0.Coords) (arg1 : Memref sig .tc .smem S16 .i32) (harg1 : arg1.IsWhole) (arg2 : Memref sig .tc .vmem S1x8192x512 .f32) (harg2 : arg2.IsWhole) (arg3 : Memref sig .tc .vmem S512x256 .bf16) (harg3 : arg3.IsWhole) (arg4 : Memref sig .tc .vmem S256 .f32) (harg4 : arg4.IsWhole) (arg5 : Memref sig .tc .vmem S128x1 .bf16) (harg5 : arg5.IsWhole) (arg6 : Memref sig .tc .vmem S1 .f32) (harg6 : arg6.IsWhole) (arg7 : Memref sig .tc .vmem S1x1x8192 .f32) (harg7 : arg7.IsWhole) (arg8 : Memref sig .tc .vmem S1x1x512 .f32) (harg8 : arg8.IsWhole) (v1 : Elt F .i32) (v2 : Vec F S512x256 .bf16) (v4 : Vec F S128x1 .bf16) (v6 : Vec F S256 .f32) (v8 : Vec F S1 .f32) (X_arg2 : BufTy.Contents (Elt F) arg2.view.ty) (k : Fin k0_t1_loop.trips) (acc : (FVec F S1x1 .f32 × FVec F S1x1 .f32 × FVec F S1x512 .f32)) (f f' : BufTy.Contents (Elt F) arg7.view.ty) :
    tripL_k0_t1 (F := F) 𝒱 c bd i arg1 harg1 arg2 harg2 arg3 harg3 arg4 harg4 arg5 harg5 arg6 harg6 arg7 harg7 arg8 harg8 v1 v2 v4 v6 v8 X_arg2 k acc f = tripL_k0_t1 (F := F) 𝒱 c bd i arg1 harg1 arg2 harg2 arg3 harg3 arg4 harg4 arg5 harg5 arg6 harg6 arg7 harg7 arg8 harg8 v1 v2 v4 v6 v8 X_arg2 k acc f' := by
  unfold tripL_k0_t1 trip_k0_t1
  rfl

/-- The state before trip `n` is the same from any two initial contents of the attention buffer. -/
theorem st_indep (𝒱 : Variants) (c : Dev nD) (bd : Option 𝒱.V) (i : grid0.Coords) (arg1 : Memref sig .tc .smem S16 .i32) (harg1 : arg1.IsWhole) (arg2 : Memref sig .tc .vmem S1x8192x512 .f32) (harg2 : arg2.IsWhole) (arg3 : Memref sig .tc .vmem S512x256 .bf16) (harg3 : arg3.IsWhole) (arg4 : Memref sig .tc .vmem S256 .f32) (harg4 : arg4.IsWhole) (arg5 : Memref sig .tc .vmem S128x1 .bf16) (harg5 : arg5.IsWhole) (arg6 : Memref sig .tc .vmem S1 .f32) (harg6 : arg6.IsWhole) (arg7 : Memref sig .tc .vmem S1x1x8192 .f32) (harg7 : arg7.IsWhole) (arg8 : Memref sig .tc .vmem S1x1x512 .f32) (harg8 : arg8.IsWhole) (v1 : Elt F .i32) (v2 : Vec F S512x256 .bf16) (v4 : Vec F S128x1 .bf16) (v6 : Vec F S256 .f32) (v8 : Vec F S1 .f32) (X_arg2 : BufTy.Contents (Elt F) arg2.view.ty) (G G' : BufTy.Contents (Elt F) arg7.view.ty) (init : (FVec F S1x1 .f32 × FVec F S1x1 .f32 × FVec F S1x512 .f32)) (n : ℕ) :
    st_k0_t1 (F := F) 𝒱 c bd i arg1 harg1 arg2 harg2 arg3 harg3 arg4 harg4 arg5 harg5 arg6 harg6 arg7 harg7 arg8 harg8 v1 v2 v4 v6 v8 X_arg2 G init n = st_k0_t1 (F := F) 𝒱 c bd i arg1 harg1 arg2 harg2 arg3 harg3 arg4 harg4 arg5 harg5 arg6 harg6 arg7 harg7 arg8 harg8 v1 v2 v4 v6 v8 X_arg2 G' init n := by
  induction n with
  | zero => rfl
  | succ n ih =>
    rw [st_k0_t1.eq_2, st_k0_t1.eq_2, ih]
    unfold st_k0_t1Step
    by_cases h : n < k0_t1_loop.trips
    · rw [dif_pos h, dif_pos h]
      rw [tripR_indep (F := F) 𝒱 c bd i arg1 harg1 arg2 harg2 arg3 harg3 arg4 harg4 arg5 harg5 arg6 harg6 arg7 harg7 arg8 harg8 v1 v2 v4 v6 v8 X_arg2 ⟨n, h⟩ _ _ (arg7.view.writes (Elt F) G' _),
        tripL_indep (F := F) 𝒱 c bd i arg1 harg1 arg2 harg2 arg3 harg3 arg4 harg4 arg5 harg5 arg6 harg6 arg7 harg7 arg8 harg8 v1 v2 v4 v6 v8 X_arg2 ⟨n, h⟩ _ _ (arg7.view.writes (Elt F) G' _)]
    · rw [dif_neg h, dif_neg h]

/-- The eight chunk stores of the sweep tile the attention block. -/
theorem st_cover (𝒱 : Variants) (c : Dev nD) (bd : Option 𝒱.V) (i : grid0.Coords) (arg1 : Memref sig .tc .smem S16 .i32) (harg1 : arg1.IsWhole) (arg2 : Memref sig .tc .vmem S1x8192x512 .f32) (harg2 : arg2.IsWhole) (arg3 : Memref sig .tc .vmem S512x256 .bf16) (harg3 : arg3.IsWhole) (arg4 : Memref sig .tc .vmem S256 .f32) (harg4 : arg4.IsWhole) (arg5 : Memref sig .tc .vmem S128x1 .bf16) (harg5 : arg5.IsWhole) (arg6 : Memref sig .tc .vmem S1 .f32) (harg6 : arg6.IsWhole) (arg7 : Memref sig .tc .vmem S1x1x8192 .f32) (harg7 : arg7.IsWhole) (arg8 : Memref sig .tc .vmem S1x1x512 .f32) (harg8 : arg8.IsWhole) (v1 : Elt F .i32) (v2 : Vec F S512x256 .bf16) (v4 : Vec F S128x1 .bf16) (v6 : Vec F S256 .f32) (v8 : Vec F S1 .f32) (X_arg2 : BufTy.Contents (Elt F) arg2.view.ty) (G : BufTy.Contents (Elt F) arg7.view.ty) (init : (FVec F S1x1 .f32 × FVec F S1x1 .f32 × FVec F S1x512 .f32)) (y : S1x1x8192.Idx) :
    ∃ pc ∈ (st_k0_t1 (F := F) 𝒱 c bd i arg1 harg1 arg2 harg2 arg3 harg3 arg4 harg4 arg5 harg5 arg6 harg6 arg7 harg7 arg8 harg8 v1 v2 v4 v6 v8 X_arg2 G init (Scf.trips k0_t1_loop.lb k0_t1_loop.ub k0_t1_loop.st)).2, y ∈ pc.1.set :=
  View.cover_of_tiledBy _ ![1, 1, 1024] (by sl_kernel_rfl) y

/-- So a load of the block after the sweep reads the same whatever the buffer held before it. -/
theorem readAt_after_sweep (𝒱 : Variants) (c : Dev nD) (bd : Option 𝒱.V) (i : grid0.Coords) (arg1 : Memref sig .tc .smem S16 .i32) (harg1 : arg1.IsWhole) (arg2 : Memref sig .tc .vmem S1x8192x512 .f32) (harg2 : arg2.IsWhole) (arg3 : Memref sig .tc .vmem S512x256 .bf16) (harg3 : arg3.IsWhole) (arg4 : Memref sig .tc .vmem S256 .f32) (harg4 : arg4.IsWhole) (arg5 : Memref sig .tc .vmem S128x1 .bf16) (harg5 : arg5.IsWhole) (arg6 : Memref sig .tc .vmem S1 .f32) (harg6 : arg6.IsWhole) (arg7 : Memref sig .tc .vmem S1x1x8192 .f32) (harg7 : arg7.IsWhole) (arg8 : Memref sig .tc .vmem S1x1x512 .f32) (harg8 : arg8.IsWhole) (v1 : Elt F .i32) (v2 : Vec F S512x256 .bf16) (v4 : Vec F S128x1 .bf16) (v6 : Vec F S256 .f32) (v8 : Vec F S1 .f32) (X_arg2 : BufTy.Contents (Elt F) arg2.view.ty) (G G' : BufTy.Contents (Elt F) arg7.view.ty) (init : (FVec F S1x1 .f32 × FVec F S1x1 .f32 × FVec F S1x512 .f32)) (r : Rect S1x1x8192) :
    View.readAt (Elt F) arg7.view r.toLoadRect (arg7.view.writes (Elt F) G (st_k0_t1 (F := F) 𝒱 c bd i arg1 harg1 arg2 harg2 arg3 harg3 arg4 harg4 arg5 harg5 arg6 harg6 arg7 harg7 arg8 harg8 v1 v2 v4 v6 v8 X_arg2 G init (Scf.trips k0_t1_loop.lb k0_t1_loop.ub k0_t1_loop.st)).2)
      = View.readAt (Elt F) arg7.view r.toLoadRect (arg7.view.writes (Elt F) G' (st_k0_t1 (F := F) 𝒱 c bd i arg1 harg1 arg2 harg2 arg3 harg3 arg4 harg4 arg5 harg5 arg6 harg6 arg7 harg7 arg8 harg8 v1 v2 v4 v6 v8 X_arg2 G' init (Scf.trips k0_t1_loop.lb k0_t1_loop.ub k0_t1_loop.st)).2) := by
  rw [st_indep (F := F) 𝒱 c bd i arg1 harg1 arg2 harg2 arg3 harg3 arg4 harg4 arg5 harg5 arg6 harg6 arg7 harg7 arg8 harg8 v1 v2 v4 v6 v8 X_arg2 G G' init]
  rw [View.readAt_eq_ld, View.readAt_eq_ld,
    View.read_writes_of_cover arg7.view G arg7.view G' _ (st_cover (F := F) 𝒱 c bd i arg1 harg1 arg2 harg2 arg3 harg3 arg4 harg4 arg5 harg5 arg6 harg6 arg7 harg7 arg8 harg8 v1 v2 v4 v6 v8 X_arg2 G' init)]

end Cert.KernelIdeal.LoopFacts

end
-- ==== Proof.Payloads.lean ====
/-
  The kernel body's arithmetic read at an index, on the extended reals.

  One chunk of 1024 rows of a bag: the fused hidden layer (a 512-deep contraction against the concatenated weights, bias,
  `tanh` of the first 128 columns times `logistic` of the last 128), the projection to one score per row, the mask by the
  bag's length, and the rescaling updates of the running maximum, denominator and weighted sum; after the sweep the
  quotient of the weighted sum by the denominator and the normalised, masked weights.
-/
import proofs.«408275_j80401787781685_3_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Pay

open Idealize.ShloMosaic Idealize.ShloMosaic.ValueIdx Cert.KernelIdeal Cert.KernelIdeal.Gen

/-- The score of row `r` of a chunk `v37` against the fused weights `v3` (columns 0–127 the `tanh` branch, 128–255 the
    `logistic` branch), fused bias `v7`, projection `v5` and its bias `v8`. -/
def rowScore (v3 : FVec Ideal S512x256 .bf16) (v5 : FVec Ideal S128x1 .bf16) (v7 : FVec Ideal S256 .f32) (v8 : Vec Ideal S1 .f32)
    (v37 : Vec Ideal S1x1024x512 .f32) (r : Fin 1024) : EReal :=
  (∑ p : Fin 128, (Ideal.tanh ((∑ e : Fin 512, v37 (ix3 0 r e) * v3 (ix2 e ⟨p.val, by omega⟩)) + v7 (ix1 ⟨p.val, by omega⟩))
      * Ideal.logistic ((∑ e : Fin 512, v37 (ix3 0 r e) * v3 (ix2 e ⟨128 + p.val, by omega⟩)) + v7 (ix1 ⟨128 + p.val, by omega⟩)))
    * v5 (ix2 p 0)) + v8 (ix1 0)

variable (v1 : BitVec 32) (v3 : FVec Ideal S512x256 .bf16) (v5 : FVec Ideal S128x1 .bf16) (v7 : FVec Ideal S256 .f32)
  (v8 : Vec Ideal S1 .f32) (k : Fin k0_t1_loop.trips) (v37 : Vec Ideal S1x1024x512 .f32)
  (arg10 arg11 : FVec Ideal S1x1 .f32) (arg12 : FVec Ideal S1x512 .f32)

/-! ### A rows-by-columns product into a zero accumulator, read at an index -/

theorem matmul_zero_apply {m q n : ℕ} {φ₁ φ₂ : FTy}
    (w : DotDims.WF ⟨2, ![m, q]⟩ ⟨2, ![q, n]⟩ ⟨2, ![m, n]⟩ [1] [0] [0] [1] [] [])
    (A : FVec Ideal ⟨2, ![m, q]⟩ φ₁) (B : FVec Ideal ⟨2, ![q, n]⟩ φ₂) (a : Fin m) (b : Fin n) :
    FloatOps.matmul (⟨[1], [0], [0], [1], [], [], w⟩ : DotDims ⟨2, ![m, q]⟩ ⟨2, ![q, n]⟩ ⟨2, ![m, n]⟩) none A B
        (constant ⟨2, ![m, n]⟩ .f32 0x00000000#32) (ix2 a b)
      = ∑ c : Fin q, A (ix2 a c) * B (ix2 c b) := by
  rw [Ideal.matmul_constant_zero_apply,
    ← Equiv.sum_comp (contrEquiv1 (⟨[1], [0], [0], [1], [], [], w⟩ : DotDims ⟨2, ![m, q]⟩ ⟨2, ![q, n]⟩ ⟨2, ![m, n]⟩) q rfl rfl).symm]
  refine Finset.sum_congr rfl fun c _ => ?_
  have hc := contrEquiv1_symm_val (⟨[1], [0], [0], [1], [], [], w⟩ : DotDims ⟨2, ![m, q]⟩ ⟨2, ![q, n]⟩ ⟨2, ![m, n]⟩) q rfl rfl c
  have hl : (⟨[1], [0], [0], [1], [], [], w⟩ : DotDims ⟨2, ![m, q]⟩ ⟨2, ![q, n]⟩ ⟨2, ![m, n]⟩).lhsIdx (ix2 a b)
      ((contrEquiv1 _ q rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, q]⟩ ⟨2, ![q, n]⟩ ⟨2, ![m, n]⟩).rhsIdx (ix2 a b)
      ((contrEquiv1 _ q rfl rfl).symm c) = ix2 c b := by
    funext ax; apply Fin.ext
    match ax with
    | ⟨0, _⟩ => simp [DotDims.rhsIdx]; exact hc
    | ⟨1, _⟩ => simp [DotDims.rhsIdx]; rfl
  rw [hl, hr]

/-! ### The chunk, the hidden layer and the gate, read at an index -/

/-- The chunk as a 1024 × 512 matrix. -/
theorem pay1_apply (r : Fin 1024) (e : Fin 512) : k0_pay1 (F := Ideal) v37 (ix2 r e) = v37 (ix3 0 r e) := by
  unfold k0_pay1
  refine shapeCast_apply v37 _ (ix2 r e) (ix3 0 r e) ?_
  rw [Shape.rowMajor_val_three, Shape.rowMajor_val_two]
  show (0 * 1024 + r.val) * 512 + e.val = r.val * 512 + e.val
  omega

/-- The hidden layer before its activations: the chunk against the fused weights, plus the fused bias. -/
def hidden : FVec Ideal S1024x256 .f32 :=
  addf (matmul dot_S1024x512_S512x256_S1024x256_1_0_0_1_n_n none (k0_pay1 (F := Ideal) v37) v3 (constant S1024x256 .f32 0x00000000#32))
    (broadcastTo S1024x256 (shapeCast S1x256 v7 shapeCasts_S256_S1x256) broadcasts_S1x256_S1024x256)

theorem bias_apply (r : Fin 1024) (c : Fin 256) :
    broadcastTo S1024x256 (shapeCast S1x256 v7 shapeCasts_S256_S1x256) broadcasts_S1x256_S1024x256 (ix2 r c) = v7 (ix1 c) := by
  refine (broadcastTo_apply _ _ (ix2 r c) (ix2 0 c) ?_).trans ?_
  · intro a
    match a with
    | ⟨0, _⟩ => rfl
    | ⟨1, _⟩ => rfl
  · refine shapeCast_apply v7 _ (ix2 0 c) (ix1 c) ?_
    rw [Shape.rowMajor_val_one, Shape.rowMajor_val_two]
    show c.val = 0 * 256 + c.val
    omega

theorem hidden_apply (r : Fin 1024) (c : Fin 256) :
    hidden v3 v7 v37 (ix2 r c) = (∑ e : Fin 512, v37 (ix3 0 r e) * v3 (ix2 e c)) + v7 (ix1 c) := by
  unfold hidden
  rw [addf_apply, bias_apply]
  refine congrArg (· + v7 (ix1 c)) ?_
  refine (matmul_zero_apply _ (k0_pay1 (F := Ideal) v37) v3 r c).trans ?_
  exact Finset.sum_congr rfl fun e _ => by rw [pay1_apply]

/-- The gated hidden layer: `tanh` of the first 128 columns times `logistic` of the last 128. -/
def gate : FVec Ideal S1024x128 .bf16 :=
  truncf .bf16 (mulf (tanh (extractStridedSlice S1024x128 ![0, 0] (hidden v3 v7 v37) slices_S1024x256_o0_0_S1024x128))
    (logistic (extractStridedSlice S1024x128 ![0, 128] (hidden v3 v7 v37) slices_S1024x256_o0_128_S1024x128))) bitsLt_bf16_f32

theorem gate_apply (r : Fin 1024) (p : Fin 128) :
    gate v3 v7 v37 (ix2 r p)
      = Ideal.tanh (hidden v3 v7 v37 (ix2 r ⟨p.val, by omega⟩)) * Ideal.logistic (hidden v3 v7 v37 (ix2 r ⟨128 + p.val, by omega⟩)) := by
  unfold gate
  show Ideal.tanh (extractStridedSlice S1024x128 ![0, 0] (hidden v3 v7 v37) slices_S1024x256_o0_0_S1024x128 (ix2 r p))
      * Ideal.logistic (extractStridedSlice S1024x128 ![0, 128] (hidden v3 v7 v37) slices_S1024x256_o0_128_S1024x128 (ix2 r p)) = _
  have e1 := extractStridedSlice_apply ![0, 0] (hidden v3 v7 v37) slices_S1024x256_o0_0_S1024x128 (ix2 r p)
    (ix2 r ⟨p.val, by omega⟩) (fun a => by
      match a with
      | ⟨0, _⟩ => show r.val = 0 + r.val; omega
      | ⟨1, _⟩ => show p.val = 0 + p.val; omega)
  have e2 := extractStridedSlice_apply ![0, 128] (hidden v3 v7 v37) slices_S1024x256_o0_128_S1024x128 (ix2 r p)
    (ix2 r ⟨128 + p.val, by omega⟩) (fun a => by
      match a with
      | ⟨0, _⟩ => show r.val = 0 + r.val; omega
      | ⟨1, _⟩ => show 128 + p.val = 128 + p.val; rfl)
  rw [e1, e2]

/-- The projection to one score per row. -/
def proj : FVec Ideal S1024x1 .f32 :=
  addf (matmul dot_S1024x128_S128x1_S1024x1_1_0_0_1_n_n none (gate v3 v7 v37) v5 (constant S1024x1 .f32 0x00000000#32))
    (broadcastTo S1024x1 (shapeCast S1x1 v8 shapeCasts_S1_S1x1) broadcasts_S1x1_S1024x1)

theorem bias2_apply (r : Fin 1024) :
    broadcastTo S1024x1 (shapeCast S1x1 v8 shapeCasts_S1_S1x1) broadcasts_S1x1_S1024x1 (ix2 r 0) = v8 (ix1 0) := by
  refine (broadcastTo_apply _ _ (ix2 r 0) (ix2 0 0) ?_).trans ?_
  · intro a
    match a with
    | ⟨0, _⟩ => rfl
    | ⟨1, _⟩ => rfl
  · refine shapeCast_apply v8 _ (ix2 0 0) (ix1 0) ?_
    rw [Shape.rowMajor_val_one, Shape.rowMajor_val_two]
    rfl

theorem proj_apply (r : Fin 1024) :
    proj v3 v5 v7 v8 v37 (ix2 r 0) = (∑ p : Fin 128, gate v3 v7 v37 (ix2 r p) * v5 (ix2 p 0)) + v8 (ix1 0) := by
  unfold proj
  rw [addf_apply, bias2_apply]
  exact congrArg (· + v8 (ix1 0)) (matmul_zero_apply _ (gate v3 v7 v37) v5 r 0)

/-- The scores as a row. -/
def scoreRow : FVec Ideal S1x1024 .f32 :=
  transpose S1x1024 [1, 0] (proj v3 v5 v7 v8 v37) transposes_S1024x1_p1_0_S1x1024

theorem scoreRow_apply (r : Fin 1024) : scoreRow v3 v5 v7 v8 v37 (ix2 0 r) = rowScore v3 v5 v7 v8 v37 r := by
  unfold scoreRow
  refine (transpose_apply [1, 0] (proj v3 v5 v7 v8 v37) _ (ix2 0 r) (ix2 r 0) ?_).trans ?_
  · intro b
    match b with
    | ⟨0, _⟩ => rfl
    | ⟨1, _⟩ => rfl
  · rw [proj_apply]
    unfold rowScore
    refine congrArg (· + v8 (ix1 0)) (Finset.sum_congr rfl fun p _ => ?_)
    rw [gate_apply, hidden_apply, hidden_apply]

/-! ### The mask -/

theorem trips_lt (k : Fin k0_t1_loop.trips) : k.val < 8 := by
  have h1 := k.isLt
  have h2 := (k0_t1_abs).2.1
  omega

/-- The position `1024·k + r` of row `r` of chunk `k`, as the kernel computes it in 32 bits. -/
theorem pos_eq (r : Fin 1024) :
    IntOp.addi (Scalar.muli (Scf.iv 0#32 1#32 k.val) 1024#32) (BitVec.ofNat 32 (0 * 1024 + r.val))
      = BitVec.ofNat 32 (1024 * k.val + r.val) := by
  have hk := trips_lt k
  have hr := r.isLt
  apply BitVec.eq_of_toNat_eq
  simp only [IntOp.addi, Scalar.muli, IntOp.muli, Scf.iv, BitVec.toNat_add, BitVec.toNat_mul, BitVec.toNat_ofNat]
  omega

theorem toInt_pos (r : Fin 1024) : (BitVec.ofNat 32 (1024 * k.val + r.val)).toInt = ((1024 * k.val + r.val : ℕ) : ℤ) := by
  have hk := trips_lt k
  have hr := r.isLt
  have e : (BitVec.ofNat 32 (1024 * k.val + r.val)).toNat = 1024 * k.val + r.val := by
    rw [BitVec.toNat_ofNat]; omega
  rw [BitVec.toInt_eq_toNat_of_lt (by rw [e]; omega), e]

theorem mask_apply (r : Fin 1024) :
    cmpi .slt (addi (broadcast S1x1024 (Scalar.muli (Scf.iv 0#32 1#32 k.val) 1024#32)) (iota .tc S1x1024 32 [1] iota_S1x1024_d1_w32))
        (broadcast S1x1024 v1) (ix2 0 r)
      = if ((1024 * k.val + r.val : ℕ) : ℤ) < v1.toInt then 1#1 else 0#1 := by
  show IntOp.cmpi .slt (IntOp.addi (Scalar.muli (Scf.iv 0#32 1#32 k.val) 1024#32) (BitVec.ofNat 32 (0 * 1024 + r.val))) v1 = _
  rw [pos_eq]
  show BitVec.ofBool (BitVec.slt (BitVec.ofNat 32 (1024 * k.val + r.val)) v1) = _
  rw [BitVec.slt, toInt_pos]
  by_cases h : ((1024 * k.val + r.val : ℕ) : ℤ) < v1.toInt
  · rw [if_pos h, decide_eq_true h]; rfl
  · rw [if_neg h, decide_eq_false h]; rfl

theorem negBig_eq : Named.named (F := Ideal) κ "neg_big" (φ := .f32) 0xFF333332#32 = ⊥ :=
  IdealRules.named_const.ideal_named_scalar _ _ _ _ rfl

/-- The masked score of row `r` of chunk `k`: the row's score where the row's position `1024·k + r` is below
    the bag's length (signed), `-∞` (the named constant) elsewhere. -/
theorem pay2_apply (r : Fin 1024) :
    k0_pay2 (F := Ideal) v1 v3 v5 v7 v8 0#32 1#32 k v37 (ix2 0 r)
      = if ((1024 * k.val + r.val : ℕ) : ℤ) < v1.toInt then rowScore v3 v5 v7 v8 v37 r else ⊥ := by
  show Scalar.select
      (cmpi .slt (addi (broadcast S1x1024 (Scalar.muli (Scf.iv 0#32 1#32 k.val) 1024#32)) (iota .tc S1x1024 32 [1] iota_S1x1024_d1_w32))
        (broadcast S1x1024 v1) (ix2 0 r))
      (scoreRow v3 v5 v7 v8 v37 (ix2 0 r)) (Named.named (F := Ideal) κ "neg_big" (φ := .f32) 0xFF333332#32) = _
  rw [mask_apply, scoreRow_apply, negBig_eq]
  by_cases h : ((1024 * k.val + r.val : ℕ) : ℤ) < v1.toInt
  · rw [if_pos h, if_pos h, select_one]
  · rw [if_neg h, if_neg h, select_zero]

/-- What is stored is the masked scores under a cast of shape. -/
theorem pay3_apply (r : Fin 1024) :
    k0_pay3 (F := Ideal) v1 v3 v5 v7 v8 0#32 1#32 k v37 (ix3 0 0 r) = k0_pay2 (F := Ideal) v1 v3 v5 v7 v8 0#32 1#32 k v37 (ix2 0 r) := by
  unfold k0_pay3
  refine shapeCast_apply _ _ (ix3 0 0 r) (ix2 0 r) ?_
  rw [Shape.rowMajor_val_three, Shape.rowMajor_val_two]
  show 0 * 1024 + r.val = (0 * 1 + 0) * 1024 + r.val
  omega

end Cert.KernelIdeal.Pay

end
-- ==== Proof.Payloads2.lean ====
/-
  The kernel body's arithmetic read at an index, on the extended reals: the sweep's updates and the final normalisation.

  One chunk of 1024 rows of a bag: the fused hidden layer (a 512-deep contraction against the concatenated weights, bias,
  `tanh` of the first 128 columns times `logistic` of the last 128), the projection to one score per row, the mask by the
  bag's length, and the rescaling updates of the running maximum, denominator and weighted sum; after the sweep the
  quotient of the weighted sum by the denominator and the normalised, masked weights.
-/
import proofs.«408275_j80401787781685_3_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Pay

open Idealize.ShloMosaic Idealize.ShloMosaic.ValueIdx Cert.KernelIdeal Cert.KernelIdeal.Gen

variable (v1 : BitVec 32) (v3 : FVec Ideal S512x256 .bf16) (v5 : FVec Ideal S128x1 .bf16) (v7 : FVec Ideal S256 .f32)
  (v8 : Vec Ideal S1 .f32) (k : Fin k0_t1_loop.trips) (v37 : Vec Ideal S1x1024x512 .f32)
  (arg10 arg11 : FVec Ideal S1x1 .f32) (arg12 : FVec Ideal S1x512 .f32)

namespace Aux2

/-! ## Small readings: a unit vector broadcast along a row, the row reduction's inserted index, two bit patterns -/

/-- A `[1, 1]` vector broadcast to `[1, n]` reads its one element everywhere. -/
theorem bcast11 {n : ℕ} (x : FVec Ideal S1x1 .f32) (h : S1x1.Broadcasts ⟨2, ![1, n]⟩) (r : Fin n) :
    broadcastTo ⟨2, ![1, n]⟩ x h (ix2 0 r) = x (ix2 0 0) :=
  broadcastTo_apply x h (ix2 0 r) (ix2 0 0) (fun a => match a with | ⟨0, _⟩ => rfl | ⟨1, _⟩ => rfl)

/-- The index of a `[1, 1024]` vector over the one index of its row reduction, at lane `r`. -/
theorem lift_row (j : S1.Idx) (r : Fin 1024) :
    (reduces_S1x1024_S1).lift j r = ix2 0 r := by
  funext c
  match c with
  | ⟨0, _⟩ => exact Fin.ext (by have h : (j 0).val < 1 := (j 0).isLt; show (j 0).val = 0; omega)
  | ⟨1, _⟩ => exact Fin.ext rfl

/-- The pattern of `-∞` denotes `⊥`. -/
theorem ofBits_neg_inf : Ideal.ofBits .f32 0xFF800000#32 = ⊥ := by simp [Ideal.ofBits, Ideal.ieee]

/-- The running maximum against the maximum of a row, for any row. -/
theorem rowmax_apply (P : FVec Ideal S1x1024 .f32) (a : FVec Ideal S1x1 .f32) :
    maximumf a (shapeCast S1x1 (multiReduction (F := Ideal) .maximumf [1] S1 P 0xFF800000#32 reduces_S1x1024_S1 (.inl rfl) rfl)
        shapeCasts_S1_S1x1) (ix2 0 0)
      = max (a (ix2 0 0)) (Finset.univ.fold max ⊥ fun r : Fin 1024 => P (ix2 0 r)) := by
  refine (maximumf_apply _ _ _).trans ?_
  refine congrArg (max _) ?_
  refine (shapeCast_a_1a_apply _ _ 0 0).trans ?_
  refine (Ideal.multiReduction_maximumf_single P _ reduces_S1x1024_S1 _ _ _).trans ?_
  show Finset.univ.fold max (Ideal.ofBits .f32 0xFF800000#32) _ = _
  rw [ofBits_neg_inf]
  refine congrArg (Finset.univ.fold max ⊥) ?_
  funext r
  exact congrArg P (lift_row _ r)

/-- The sum of a row, for any row. -/
theorem rowsum_apply (Q : FVec Ideal S1x1024 .f32) :
    shapeCast S1x1 (multiReduction (F := Ideal) .add [1] S1 Q 0x00000000#32 reduces_S1x1024_S1 (.inl rfl) rfl)
        shapeCasts_S1_S1x1 (ix2 0 0)
      = ∑ r : Fin 1024, Q (ix2 0 r) := by
  refine (shapeCast_a_1a_apply _ _ 0 0).trans ?_
  refine (Ideal.multiReduction_add_single Q _ reduces_S1x1024_S1 _ _ _).trans ?_
  refine Finset.sum_congr rfl fun r _ => ?_
  exact congrArg Q (lift_row _ r)

/-! ## The weights-against-rows product's operand indices, coordinate by coordinate -/

theorem lhs_w_0 (i : S1x512.Idx) (q : dot_S1x1024_S1024x512_S1x512_1_0_0_1_n_n.contr.Idx) :
    (dot_S1x1024_S1024x512_S1x512_1_0_0_1_n_n.lhsIdx i q 0).val = (i 0).val := by
  unfold DotDims.lhsIdx
  rw [dif_neg (show ¬(0 : Fin S1x1024.rank) ∈ dot_S1x1024_S1024x512_S1x512_1_0_0_1_n_n.lhsBatch by decide),
    dif_pos (show (0 : Fin S1x1024.rank) ∈ dot_S1x1024_S1024x512_S1x512_1_0_0_1_n_n.lhsNonContracting by decide)]
  rfl
theorem lhs_w_1 (i : S1x512.Idx) (q : dot_S1x1024_S1024x512_S1x512_1_0_0_1_n_n.contr.Idx) :
    (dot_S1x1024_S1024x512_S1x512_1_0_0_1_n_n.lhsIdx i q 1).val = (q ⟨0, by decide⟩).val :=
  dot_S1x1024_S1024x512_S1x512_1_0_0_1_n_n.lhsIdx_val_of_single rfl i q
theorem rhs_w_0 (i : S1x512.Idx) (q : dot_S1x1024_S1024x512_S1x512_1_0_0_1_n_n.contr.Idx) :
    (dot_S1x1024_S1024x512_S1x512_1_0_0_1_n_n.rhsIdx i q 0).val = (q ⟨0, by decide⟩).val :=
  dot_S1x1024_S1024x512_S1x512_1_0_0_1_n_n.rhsIdx_val_of_single rfl i q
theorem rhs_w_1 (i : S1x512.Idx) (q : dot_S1x1024_S1024x512_S1x512_1_0_0_1_n_n.contr.Idx) :
    (dot_S1x1024_S1024x512_S1x512_1_0_0_1_n_n.rhsIdx i q 1).val = (i 1).val := by
  unfold DotDims.rhsIdx
  rw [dif_neg (show ¬(1 : Fin S1024x512.rank) ∈ dot_S1x1024_S1024x512_S1x512_1_0_0_1_n_n.rhsBatch by decide),
    dif_pos (show (1 : Fin S1024x512.rank) ∈ dot_S1x1024_S1024x512_S1x512_1_0_0_1_n_n.rhsNonContracting by decide)]
  rfl

/-- A `[1, 1024]` row against a `[1024, 512]` matrix into a zero accumulator, read at a column: the sum over the rows. -/
theorem rowmat_apply (W : FVec Ideal S1x1024 .bf16) (X : FVec Ideal S1024x512 .bf16) (e : Fin 512) :
    matmul dot_S1x1024_S1024x512_S1x512_1_0_0_1_n_n none W X (constant S1x512 .f32 0x00000000#32) (ix2 0 e)
      = ∑ r : Fin 1024, W (ix2 0 r) * X (ix2 r e) := by
  refine (Ideal.matmul_constant_zero_apply dot_S1x1024_S1024x512_S1x512_1_0_0_1_n_n none W X (ix2 0 e)).trans ?_
  rw [← Equiv.sum_comp (contrEquiv1 dot_S1x1024_S1024x512_S1x512_1_0_0_1_n_n 1024 rfl rfl).symm]
  refine Finset.sum_congr rfl fun r _ => ?_
  have hk := contrEquiv1_symm_val dot_S1x1024_S1024x512_S1x512_1_0_0_1_n_n 1024 rfl rfl r
  have el : dot_S1x1024_S1024x512_S1x512_1_0_0_1_n_n.lhsIdx (ix2 0 e)
      ((contrEquiv1 dot_S1x1024_S1024x512_S1x512_1_0_0_1_n_n 1024 rfl rfl).symm r) = ix2 0 r := funext fun a => Fin.ext (by
    match a with
    | ⟨0, _⟩ => exact lhs_w_0 _ _
    | ⟨1, _⟩ => exact (lhs_w_1 _ _).trans hk)
  have er : dot_S1x1024_S1024x512_S1x512_1_0_0_1_n_n.rhsIdx (ix2 0 e)
      ((contrEquiv1 dot_S1x1024_S1024x512_S1x512_1_0_0_1_n_n 1024 rfl rfl).symm r) = ix2 r e := funext fun a => Fin.ext (by
    match a with
    | ⟨0, _⟩ => exact (rhs_w_0 _ _).trans hk
    | ⟨1, _⟩ => exact rhs_w_1 _ _)
  rw [el, er]

/-- The chunk's rows under the cast that drops the unit axis (the change of format is the identity on the extended reals). -/
theorem pay1_apply (r : Fin 1024) (e : Fin 512) : k0_pay1 (F := Ideal) v37 (ix2 r e) = v37 (ix3 0 r e) := by
  unfold k0_pay1
  exact shapeCast_1ab_ab_apply _ _ r e

/-- A signed comparison of a small natural against a word, as a select: the `if` on the integers. -/
theorem select_slt_ofNat {α : Type} (n : ℕ) (hn : n < 2 ^ 31) (v : BitVec 32) (A B : α) :
    Scalar.select (IntOp.cmpi .slt (BitVec.ofNat 32 n) v) A B = if (n : ℤ) < v.toInt then A else B := by
  have h : (BitVec.ofNat 32 n).toInt = (n : ℤ) := by
    have hnat : (BitVec.ofNat 32 n).toNat = n := by
      rw [BitVec.toNat_ofNat]; exact Nat.mod_eq_of_lt (by omega)
    rw [BitVec.toInt_eq_toNat_of_lt (by rw [hnat]; omega), hnat]
  by_cases hlt : (n : ℤ) < v.toInt
  · rw [if_pos hlt]
    have hs : (BitVec.ofNat 32 n).slt v = true := by
      rw [BitVec.slt_iff_toInt_lt, h]; exact hlt
    show Scalar.select (BitVec.ofBool ((BitVec.ofNat 32 n).slt v)) A B = A
    rw [hs]; rfl
  · rw [if_neg hlt]
    have hs : (BitVec.ofNat 32 n).slt v = false := by
      rw [Bool.eq_false_iff]; intro hc
      rw [BitVec.slt_iff_toInt_lt, h] at hc; exact hlt hc
    show Scalar.select (BitVec.ofBool ((BitVec.ofNat 32 n).slt v)) A B = B
    rw [hs]; rfl

end Aux2

open Aux2

/-! ## The payloads read at an index -/

/-- The new running maximum. -/
theorem pay4_apply :
    k0_pay4 (F := Ideal) v1 v3 v5 v7 v8 0#32 1#32 k arg10 v37 (ix2 0 0)
      = max (arg10 (ix2 0 0)) (Finset.univ.fold max ⊥ fun r : Fin 1024 => k0_pay2 (F := Ideal) v1 v3 v5 v7 v8 0#32 1#32 k v37 (ix2 0 r)) := by
  unfold k0_pay4
  exact rowmax_apply _ _

/-- The rescaling factor of what was accumulated. -/
theorem pay5_apply :
    k0_pay5 (F := Ideal) v1 v3 v5 v7 v8 0#32 1#32 k arg10 v37 (ix2 0 0)
      = Ideal.exp (arg10 (ix2 0 0) - k0_pay4 (F := Ideal) v1 v3 v5 v7 v8 0#32 1#32 k arg10 v37 (ix2 0 0)) := by
  unfold k0_pay5
  rfl

/-- A row's unnormalised weight at the new maximum. -/
theorem pay6_apply (r : Fin 1024) :
    k0_pay6 (F := Ideal) v1 v3 v5 v7 v8 0#32 1#32 k arg10 v37 (ix2 0 r)
      = Ideal.exp (k0_pay2 (F := Ideal) v1 v3 v5 v7 v8 0#32 1#32 k v37 (ix2 0 r)
          - k0_pay4 (F := Ideal) v1 v3 v5 v7 v8 0#32 1#32 k arg10 v37 (ix2 0 0)) := by
  unfold k0_pay6
  exact congrArg (fun t => Ideal.exp (k0_pay2 (F := Ideal) v1 v3 v5 v7 v8 0#32 1#32 k v37 (ix2 0 r) - t)) (bcast11 _ _ r)

/-- The new running denominator. -/
theorem pay7_apply :
    k0_pay7 (F := Ideal) v1 v3 v5 v7 v8 0#32 1#32 k arg10 arg11 v37 (ix2 0 0)
      = arg11 (ix2 0 0) * k0_pay5 (F := Ideal) v1 v3 v5 v7 v8 0#32 1#32 k arg10 v37 (ix2 0 0)
        + ∑ r : Fin 1024, k0_pay6 (F := Ideal) v1 v3 v5 v7 v8 0#32 1#32 k arg10 v37 (ix2 0 r) := by
  unfold k0_pay7
  exact congrArg (arg11 (ix2 0 0) * k0_pay5 (F := Ideal) v1 v3 v5 v7 v8 0#32 1#32 k arg10 v37 (ix2 0 0) + ·) (rowsum_apply _)

/-- The rescaled weighted sum. -/
theorem pay8_apply (e : Fin 512) :
    k0_pay8 (F := Ideal) v1 v3 v5 v7 v8 0#32 1#32 k arg10 arg12 v37 (ix2 0 e)
      = arg12 (ix2 0 e) * k0_pay5 (F := Ideal) v1 v3 v5 v7 v8 0#32 1#32 k arg10 v37 (ix2 0 0) := by
  unfold k0_pay8
  exact congrArg (arg12 (ix2 0 e) * ·) (bcast11 _ _ e)

/-- The new weighted sum: the rescaled one plus the chunk's weights against the chunk's rows. -/
theorem pay16_apply (v79 : FVec Ideal S1x512 .f32) (e : Fin 512) :
    k0_pay16 (F := Ideal) (k0_pay1 v37) v79 (k0_pay9 (F := Ideal) v1 v3 v5 v7 v8 0#32 1#32 k arg10 v37) (constant S1x512 .f32 0x00000000#32) (ix2 0 e)
      = v79 (ix2 0 e) + ∑ r : Fin 1024, k0_pay6 (F := Ideal) v1 v3 v5 v7 v8 0#32 1#32 k arg10 v37 (ix2 0 r) * v37 (ix3 0 r e) := by
  unfold k0_pay16
  refine (addf_apply _ _ _).trans ?_
  refine congrArg (v79 (ix2 0 e) + ·) ?_
  refine (rowmat_apply _ _ e).trans ?_
  refine Finset.sum_congr rfl fun r _ => ?_
  rw [pay1_apply]
  rfl

/-- The pooled block: the weighted sum over the denominator. -/
theorem pay17_apply (v13_1 : FVec Ideal S1x1 .f32) (v13_2 : FVec Ideal S1x512 .f32) (e : Fin 512) :
    k0_pay17 (F := Ideal) v13_1 v13_2 (ix3 0 0 e) = Ideal.div (v13_2 (ix2 0 e)) (v13_1 (ix2 0 0)) := by
  unfold k0_pay17
  refine (shapeCast_ab_1ab_apply _ _ 0 0 e).trans ?_
  refine (divf_apply _ _ _).trans ?_
  exact congrArg (Ideal.div _) (bcast11 _ _ e)

/-- The attention block: inside the bag the stored score's weight, outside it zero. -/
theorem pay18_apply (v13_0 v13_1 : FVec Ideal S1x1 .f32) (v19 : Vec Ideal S1x1x8192 .f32) (n : Fin 8192) :
    k0_pay18 (F := Ideal) v1 v13_0 v13_1 v19 (ix3 0 0 n)
      = if (n.val : ℤ) < v1.toInt then Ideal.div (Ideal.exp (v19 (ix3 0 0 n) - v13_0 (ix2 0 0))) (v13_1 (ix2 0 0)) else 0 := by
  unfold k0_pay18
  refine (shapeCast_ab_1ab_apply _ _ 0 0 n).trans ?_
  refine (select_apply _ _ _ _).trans ?_
  have hc : (iota .tc S1x8192 32 [1] iota_S1x8192_d1_w32 (ix2 0 n)) = BitVec.ofNat 32 n.val :=
    iota_single_apply _ _ _ _ _ _
  show Scalar.select (IntOp.cmpi .slt (iota .tc S1x8192 32 [1] iota_S1x8192_d1_w32 (ix2 0 n)) v1) _ _ = _
  rw [hc, select_slt_ofNat n.val (by have := n.isLt; omega)]
  have e1 : shapeCast S1x8192 v19 shapeCasts_S1x1x8192_S1x8192 (ix2 0 n) = v19 (ix3 0 0 n) :=
    shapeCast_1ab_ab_apply _ _ 0 n
  have e2 : broadcastTo S1x8192 v13_0 broadcasts_S1x1_S1x8192 (ix2 0 n) = v13_0 (ix2 0 0) := bcast11 _ _ n
  have e3 : broadcastTo S1x8192 v13_1 broadcasts_S1x1_S1x8192 (ix2 0 n) = v13_1 (ix2 0 0) := bcast11 _ _ n
  refine if_congr Iff.rfl ?_ ?_
  · show Ideal.div (Ideal.exp (shapeCast S1x8192 v19 shapeCasts_S1x1x8192_S1x8192 (ix2 0 n)
        - broadcastTo S1x8192 v13_0 broadcasts_S1x1_S1x8192 (ix2 0 n)))
        (broadcastTo S1x8192 v13_1 broadcasts_S1x1_S1x8192 (ix2 0 n)) = _
    rw [e1, e2, e3]
  · exact Ideal.ofBits_zero_f32

/-- The sweep's initial values, and the casts of the weights to their own shapes. -/
theorem pay13_apply : k0_pay13 (F := Ideal) (ix2 0 0) = ⊥ := by
  show Ideal.ofBits .f32 0xFF800000#32 = ⊥
  exact ofBits_neg_inf
theorem pay14_apply : k0_pay14 (F := Ideal) (ix2 0 0) = 0 := by
  show Ideal.ofBits .f32 0x00000000#32 = 0
  exact Ideal.ofBits_zero_f32
theorem pay15_apply (e : Fin 512) : k0_pay15 (F := Ideal) (ix2 0 e) = 0 := by
  show Ideal.ofBits .f32 0x00000000#32 = 0
  exact Ideal.ofBits_zero_f32
theorem pay10_eq (v2 : Vec Ideal S512x256 .bf16) : k0_pay10 (F := Ideal) v2 = v2 := shapeCast_self _ _
theorem pay11_eq (v4 : Vec Ideal S128x1 .bf16) : k0_pay11 (F := Ideal) v4 = v4 := shapeCast_self _ _
theorem pay12_eq (v6 : Vec Ideal S256 .f32) : k0_pay12 (F := Ideal) v6 = v6 := shapeCast_self _ _

end Cert.KernelIdeal.Pay

end
-- ==== Proof.OnlineSoftmax.lean ====
/-
  The online (one-sweep) softmax as pure algebra on the extended reals.

  A row of masked scores `sc : Fin N → EReal` (each a real number or `⊥ = -∞`, the first one real) is swept in
  `C` chunks of `R` entries (`N = C * R`). The sweep carries a running maximum `m`, a running denominator `l` and a
  running weighted sum `acc`; entering a chunk it rescales `l` and `acc` by `exp (m - m')` where `m'` is the new
  maximum. After the last chunk the three are the row's maximum `M`, `∑ exp (sc n - M)` and
  `∑ exp (sc n - M) · x n e`: the rescalings telescope because `exp (a - b) · exp (b - c) = exp (a - c)` on the reals
  and `exp ⊥ = 0` annihilates what was accumulated before the first real maximum.
-/
import Idealize.ShloMosaic.PureOps.Ideal
import Idealize.ShloMosaic.PureOps.Ideal.Laws

noncomputable section

namespace Cert.OnlineSoftmax

open Idealize.ShloMosaic

variable {C R N E : ℕ}

/-- Entry `r` of chunk `k` in the flat row. -/
def chunk (hN : C * R = N) (k : Fin C) (r : Fin R) : Fin N :=
  ⟨R * k.val + r.val, by
    have hk := k.isLt; have hr := r.isLt
    calc R * k.val + r.val < R * k.val + R := by omega
      _ = R * (k.val + 1) := by ring
      _ ≤ R * C := Nat.mul_le_mul_left R hk
      _ = N := by rw [Nat.mul_comm]; exact hN⟩

/-- One chunk of the sweep: the carried `(m, l, acc)` after a chunk with scores `s` and rows `x`. -/
def step (s : Fin R → EReal) (x : Fin R → Fin E → EReal) (st : EReal × EReal × (Fin E → EReal)) :
    EReal × EReal × (Fin E → EReal) :=
  (max st.1 (Finset.univ.fold max ⊥ s),
   st.2.1 * Ideal.exp (st.1 - max st.1 (Finset.univ.fold max ⊥ s))
     + ∑ r, Ideal.exp (s r - max st.1 (Finset.univ.fold max ⊥ s)),
   fun e => st.2.2 e * Ideal.exp (st.1 - max st.1 (Finset.univ.fold max ⊥ s))
     + ∑ r, Ideal.exp (s r - max st.1 (Finset.univ.fold max ⊥ s)) * x r e)

/-- The carried value before chunk `k` (chunks past the last leave it alone). -/
def sweep (hN : C * R = N) (sc : Fin N → EReal) (x : Fin N → Fin E → EReal) : ℕ → EReal × EReal × (Fin E → EReal)
  | 0 => (⊥, 0, fun _ => 0)
  | k + 1 => if h : k < C then
      step (fun r => sc (chunk hN ⟨k, h⟩ r)) (fun r => x (chunk hN ⟨k, h⟩ r)) (sweep hN sc x k)
    else sweep hN sc x k

/-- The row's maximum. -/
def rowMax (sc : Fin N → EReal) : EReal := Finset.univ.fold max ⊥ sc

/-- The softmax denominator. -/
def denom (sc : Fin N → EReal) : EReal := ∑ n, Ideal.exp (sc n - rowMax sc)

/-! ### Real weights -/

/-- The weight of an entry `a` at level `m`, as a real number. -/
def wt (a m : EReal) : ℝ := (Ideal.exp (a - m)).toReal

theorem exp_eq_coe_wt {a m : EReal} (ham : a ≤ m) (hm : m ≠ ⊤) : Ideal.exp (a - m) = (wt a m : EReal) := by
  unfold wt
  induction m using EReal.rec with
  | bot =>
    have : a = ⊥ := le_bot_iff.mp ham
    subst this
    simp
  | top => exact absurd rfl hm
  | coe μ =>
    induction a using EReal.rec with
    | bot => simp
    | top => exact absurd ham (by simp)
    | coe r => rw [← EReal.coe_sub]; simp only [Ideal.exp_coe, EReal.toReal_coe]

theorem wt_mul {a m : EReal} {μ : ℝ} (ham : a ≤ m) (hm : m ≤ (μ : EReal)) : wt a m * wt m (μ : EReal) = wt a (μ : EReal) := by
  unfold wt
  induction m using EReal.rec with
  | bot =>
    have : a = ⊥ := le_bot_iff.mp ham
    subst this
    simp
  | top => exact absurd hm (by simp)
  | coe ν =>
    induction a using EReal.rec with
    | bot => simp
    | top => exact absurd ham (by simp)
    | coe r =>
      rw [← EReal.coe_sub, ← EReal.coe_sub, ← EReal.coe_sub]
      simp only [Ideal.exp_coe, EReal.toReal_coe]
      rw [← Real.exp_add]; congr 1; ring

theorem wt_nonneg (a m : EReal) : 0 ≤ wt a m := by
  unfold wt
  apply EReal.toReal_nonneg
  induction h : (a - m) using EReal.rec with
  | bot => simp
  | top => simp
  | coe r => simp only [Ideal.exp_coe]; exact_mod_cast (Real.exp_pos r).le

theorem wt_self_coe (μ : ℝ) : wt (μ : EReal) (μ : EReal) = 1 := by
  unfold wt
  rw [← EReal.coe_sub, sub_self, Ideal.exp_coe, EReal.toReal_coe, Real.exp_zero]

/-- Coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fold_eq_sup {ι : Type*} (s : Finset ι) (f : ι → EReal) : s.fold max ⊥ f = s.sup f := rfl

/-! ### Sums of weights at a level -/

theorem sum_exp_eq {ι : Type*} (T : Finset ι) (s : ι → EReal) {m : EReal} (hle : ∀ n ∈ T, s n ≤ m) (hm : m ≠ ⊤) :
    ∑ n ∈ T, Ideal.exp (s n - m) = ((∑ n ∈ T, wt (s n) m : ℝ) : EReal) := by
  rw [coe_sum]; exact Finset.sum_congr rfl (fun n hn => exp_eq_coe_wt (hle n hn) hm)

theorem sum_exp_mul_eq {ι : Type*} (T : Finset ι) (s : ι → EReal) (y : ι → EReal) (hy : ∀ n, ∃ v : ℝ, y n = (v : EReal))
    {m : EReal} (hle : ∀ n ∈ T, s n ≤ m) (hm : m ≠ ⊤) :
    ∑ n ∈ T, Ideal.exp (s n - m) * y n = ((∑ n ∈ T, wt (s n) m * (y n).toReal : ℝ) : EReal) := by
  rw [coe_sum]; refine Finset.sum_congr rfl (fun n hn => ?_)
  obtain ⟨v, hv⟩ := hy n
  rw [exp_eq_coe_wt (hle n hn) hm, hv, EReal.toReal_coe, EReal.coe_mul]

theorem sum_wt_rescale {ι : Type*} (T : Finset ι) (s : ι → EReal) (c : ι → ℝ) {m : EReal} {μ : ℝ}
    (hle : ∀ n ∈ T, s n ≤ m) (hm : m ≤ (μ : EReal)) :
    (∑ n ∈ T, wt (s n) m * c n) * wt m (μ : EReal) = ∑ n ∈ T, wt (s n) (μ : EReal) * c n := by
  rw [Finset.sum_mul]; refine Finset.sum_congr rfl (fun n hn => ?_)
  rw [← wt_mul (hle n hn) hm]; ring

theorem sum_wt_rescale_one {ι : Type*} (T : Finset ι) (s : ι → EReal) {m : EReal} {μ : ℝ}
    (hle : ∀ n ∈ T, s n ≤ m) (hm : m ≤ (μ : EReal)) :
    (∑ n ∈ T, wt (s n) m) * wt m (μ : EReal) = ∑ n ∈ T, wt (s n) (μ : EReal) := by
  simpa using sum_wt_rescale T s (fun _ => 1) hle hm

/-! ### The invariant of the sweep -/

/-- The carried value `st` summarises the entries indexed by `T`. -/
def Holds (sc : Fin N → EReal) (x : Fin N → Fin E → EReal) (T : Finset (Fin N))
    (st : EReal × EReal × (Fin E → EReal)) : Prop :=
  st.1 = T.fold max ⊥ sc ∧ st.2.1 = ∑ n ∈ T, Ideal.exp (sc n - st.1)
    ∧ ∀ e, st.2.2 e = ∑ n ∈ T, Ideal.exp (sc n - st.1) * x n e

theorem fold_real (sc : Fin N → EReal) (hsc : ∀ n, sc n ≠ ⊤) (T : Finset (Fin N)) (hreal : ∃ n ∈ T, sc n ≠ ⊥) :
    ∃ μ : ℝ, T.fold max ⊥ sc = (μ : EReal) := by
  obtain ⟨n, hn, hne⟩ := hreal
  have h1 : T.fold max ⊥ sc ≠ ⊤ := by
    apply ne_of_lt
    rw [Finset.fold_max_lt]
    exact ⟨bot_lt_top, fun n _ => lt_top_iff_ne_top.mpr (hsc n)⟩
  have h2 : T.fold max ⊥ sc ≠ ⊥ := by
    apply ne_of_gt
    rw [Finset.lt_fold_max]
    exact Or.inr ⟨n, hn, bot_lt_iff_ne_bot.mpr hne⟩
  exact ⟨(T.fold max ⊥ sc).toReal, (EReal.coe_toReal h1 h2).symm⟩

theorem step_holds (sc : Fin N → EReal) (x : Fin N → Fin E → EReal) (hsc : ∀ n, sc n ≠ ⊤)
    (hx : ∀ n e, ∃ v : ℝ, x n e = (v : EReal)) (T : Finset (Fin N)) (g : Fin R ↪ Fin N)
    (hd : Disjoint T (Finset.univ.map g)) (st : EReal × EReal × (Fin E → EReal)) (h : Holds sc x T st)
    (hreal : ∃ n ∈ T ∪ Finset.univ.map g, sc n ≠ ⊥) :
    Holds sc x (T ∪ Finset.univ.map g) (step (fun r => sc (g r)) (fun r => x (g r)) st) := by
  classical
  obtain ⟨h1, h2, h3⟩ := h
  obtain ⟨μ', hμ'⟩ := fold_real sc hsc _ hreal
  have key : max st.1 (Finset.univ.fold max ⊥ (fun r => sc (g r))) = (μ' : EReal) := by
    rw [← hμ', h1, fold_eq_sup, fold_eq_sup, fold_eq_sup, Finset.sup_union, Finset.sup_map]
    rfl
  have hm_le : st.1 ≤ (μ' : EReal) := by rw [← key]; exact le_max_left _ _
  have hm_top : st.1 ≠ ⊤ := ne_top_of_le_ne_top (EReal.coe_ne_top μ') hm_le
  have hT : ∀ n ∈ T, sc n ≤ st.1 := by
    intro n hn; rw [h1, fold_eq_sup]; exact Finset.le_sup hn
  have hT' : ∀ n ∈ T, sc n ≤ (μ' : EReal) := fun n hn => (hT n hn).trans hm_le
  have hB' : ∀ n ∈ Finset.univ.map g, sc n ≤ (μ' : EReal) := by
    intro n hn; rw [← hμ', fold_eq_sup]; exact Finset.le_sup (Finset.mem_union_right _ hn)
  have hscale : Ideal.exp (st.1 - (μ' : EReal)) = (wt st.1 (μ' : EReal) : EReal) :=
    exp_eq_coe_wt hm_le (EReal.coe_ne_top μ')
  refine ⟨?_, ?_, ?_⟩
  · show max st.1 (Finset.univ.fold max ⊥ (fun r => sc (g r))) = _
    rw [key, hμ']
  · show st.2.1 * Ideal.exp (st.1 - max st.1 (Finset.univ.fold max ⊥ (fun r => sc (g r))))
        + ∑ r, Ideal.exp (sc (g r) - max st.1 (Finset.univ.fold max ⊥ (fun r => sc (g r))))
      = ∑ n ∈ T ∪ Finset.univ.map g, Ideal.exp (sc n - max st.1 (Finset.univ.fold max ⊥ (fun r => sc (g r))))
    rw [key, Finset.sum_union hd, Finset.sum_map, h2, hscale, sum_exp_eq T sc hT hm_top,
      sum_exp_eq T sc hT' (EReal.coe_ne_top μ'), ← EReal.coe_mul, sum_wt_rescale_one T sc hT hm_le]
  · intro e
    show st.2.2 e * Ideal.exp (st.1 - max st.1 (Finset.univ.fold max ⊥ (fun r => sc (g r))))
        + ∑ r, Ideal.exp (sc (g r) - max st.1 (Finset.univ.fold max ⊥ (fun r => sc (g r)))) * x (g r) e
      = ∑ n ∈ T ∪ Finset.univ.map g,
          Ideal.exp (sc n - max st.1 (Finset.univ.fold max ⊥ (fun r => sc (g r)))) * x n e
    rw [key, Finset.sum_union hd, Finset.sum_map, h3 e, hscale,
      sum_exp_mul_eq T sc (fun n => x n e) (fun n => hx n e) hT hm_top,
      sum_exp_mul_eq T sc (fun n => x n e) (fun n => hx n e) hT' (EReal.coe_ne_top μ'), ← EReal.coe_mul,
      sum_wt_rescale T sc (fun n => (x n e).toReal) hT hm_le]

/-! ### The entries swept before chunk `k` -/

/-- The indices of the entries of chunks `< k`. -/
def pre (R N : ℕ) (k : ℕ) : Finset (Fin N) := Finset.univ.filter (fun n => n.val < R * k)

theorem chunk_injective (hN : C * R = N) (k : Fin C) : Function.Injective (chunk hN k) := by
  intro r₁ r₂ h
  have := congrArg Fin.val h
  simp only [chunk] at this
  exact Fin.ext (by omega)

/-- Chunk `k` as an embedding of its positions into the row. -/
def chunkEmb (hN : C * R = N) (k : Fin C) : Fin R ↪ Fin N := ⟨chunk hN k, chunk_injective hN k⟩

theorem pre_zero : pre R N 0 = ∅ := by
  ext n; simp [pre]

theorem pre_succ (hN : C * R = N) (k : ℕ) (h : k < C) :
    pre R N (k + 1) = pre R N k ∪ Finset.univ.map (chunkEmb hN ⟨k, h⟩) := by
  ext n
  simp only [pre, Finset.mem_filter, Finset.mem_univ, true_and, Finset.mem_union, Finset.mem_map, chunkEmb,
    Function.Embedding.coeFn_mk]
  have e : R * (k + 1) = R * k + R := by ring
  constructor
  · intro hn
    by_cases hlt : n.val < R * k
    · exact Or.inl hlt
    · refine Or.inr ⟨⟨n.val - R * k, by omega⟩, Fin.ext ?_⟩
      simp only [chunk]; omega
  · rintro (hlt | ⟨r, hr⟩)
    · omega
    · have := congrArg Fin.val hr
      simp only [chunk] at this
      have := r.isLt
      omega

theorem pre_disjoint (hN : C * R = N) (k : ℕ) (h : k < C) :
    Disjoint (pre R N k) (Finset.univ.map (chunkEmb hN ⟨k, h⟩)) := by
  rw [Finset.disjoint_left]
  intro n hn hn'
  simp only [pre, Finset.mem_filter, Finset.mem_univ, true_and] at hn
  simp only [Finset.mem_map, Finset.mem_univ, true_and, chunkEmb, Function.Embedding.coeFn_mk] at hn'
  obtain ⟨r, hr⟩ := hn'
  have := congrArg Fin.val hr
  simp only [chunk] at this
  omega

theorem pre_last (hN : C * R = N) : pre R N C = Finset.univ := by
  ext n
  simp only [pre, Finset.mem_filter, Finset.mem_univ, true_and, iff_true]
  have := n.isLt
  rw [Nat.mul_comm]; omega

theorem first_mem_pre (hN : C * R = N) (hC : 0 < C) (hR : 0 < R) (k : ℕ) :
    chunk hN ⟨0, hC⟩ ⟨0, hR⟩ ∈ pre R N (k + 1) := by
  simp only [pre, Finset.mem_filter, Finset.mem_univ, true_and, chunk]
  have e : R * (k + 1) = R * k + R := by ring
  omega

theorem sweep_holds (hN : C * R = N) (sc : Fin N → EReal) (x : Fin N → Fin E → EReal)
    (hC : 0 < C) (hR : 0 < R)
    (hsc : ∀ n, sc n ≠ ⊤) (h0 : sc (chunk hN ⟨0, hC⟩ ⟨0, hR⟩) ≠ ⊥)
    (hx : ∀ n e, ∃ v : ℝ, x n e = (v : EReal)) :
    ∀ k, k ≤ C → Holds sc x (pre R N k) (sweep hN sc x k) := by
  intro k
  induction k with
  | zero =>
    intro _
    rw [pre_zero]
    refine ⟨?_, ?_, ?_⟩ <;> simp [sweep]
  | succ k ih =>
    intro hk
    have h : k < C := hk
    have hs : sweep hN sc x (k + 1)
        = step (fun r => sc (chunkEmb hN ⟨k, h⟩ r)) (fun r => x (chunkEmb hN ⟨k, h⟩ r)) (sweep hN sc x k) := by
      simp only [sweep, dif_pos h]; rfl
    rw [hs, pre_succ hN k h]
    refine step_holds sc x hsc hx _ _ (pre_disjoint hN k h) _ (ih (Nat.le_of_lt h)) ?_
    rw [← pre_succ hN k h]
    exact ⟨_, first_mem_pre hN hC hR k, h0⟩

/-! ### The maximum and the denominator are real -/

theorem wt_pos {a : EReal} (ha : a ≠ ⊥) (ha' : a ≠ ⊤) (μ : ℝ) : 0 < wt a (μ : EReal) := by
  unfold wt
  induction a using EReal.rec with
  | bot => exact absurd rfl ha
  | top => exact absurd rfl ha'
  | coe r =>
    rw [← EReal.coe_sub, Ideal.exp_coe, EReal.toReal_coe]
    exact Real.exp_pos _

theorem rowMax_real (hN : C * R = N) (sc : Fin N → EReal) (hC : 0 < C) (hR : 0 < R)
    (hsc : ∀ n, sc n ≠ ⊤) (h0 : sc (chunk hN ⟨0, hC⟩ ⟨0, hR⟩) ≠ ⊥) :
    ∃ μ : ℝ, rowMax sc = (μ : EReal) :=
  fold_real sc hsc Finset.univ ⟨_, Finset.mem_univ _, h0⟩

theorem le_rowMax (sc : Fin N → EReal) (n : Fin N) : sc n ≤ rowMax sc := by
  unfold rowMax; rw [fold_eq_sup]; exact Finset.le_sup (Finset.mem_univ n)

theorem denom_eq (sc : Fin N → EReal) {μ : ℝ} (hμ : rowMax sc = (μ : EReal)) :
    denom sc = ((∑ n, wt (sc n) (μ : EReal) : ℝ) : EReal) := by
  unfold denom
  rw [hμ]
  exact sum_exp_eq Finset.univ sc (fun n _ => hμ ▸ le_rowMax sc n) (EReal.coe_ne_top μ)

theorem denom_pos (hN : C * R = N) (sc : Fin N → EReal) (hC : 0 < C) (hR : 0 < R)
    (hsc : ∀ n, sc n ≠ ⊤) (h0 : sc (chunk hN ⟨0, hC⟩ ⟨0, hR⟩) ≠ ⊥) (μ : ℝ) :
    0 < ∑ n, wt (sc n) (μ : EReal) :=
  Finset.sum_pos' (fun n _ => wt_nonneg _ _) ⟨_, Finset.mem_univ _, wt_pos h0 (hsc _) μ⟩

/-- After all chunks the sweep holds the row's maximum, denominator and weighted sums. -/
theorem sweep_final (hN : C * R = N) (sc : Fin N → EReal) (x : Fin N → Fin E → EReal)
    (hC : 0 < C) (hR : 0 < R)
    (hsc : ∀ n, sc n ≠ ⊤) (h0 : sc (chunk hN ⟨0, hC⟩ ⟨0, hR⟩) ≠ ⊥)
    (hx : ∀ n e, ∃ v : ℝ, x n e = (v : EReal)) :
    (sweep hN sc x C).1 = rowMax sc
    ∧ (sweep hN sc x C).2.1 = denom sc
    ∧ ∀ e, (sweep hN sc x C).2.2 e = ∑ n, Ideal.exp (sc n - rowMax sc) * x n e := by
  have h := sweep_holds hN sc x hC hR hsc h0 hx C le_rfl
  rw [pre_last hN] at h
  obtain ⟨h1, h2, h3⟩ := h
  have h1' : (sweep hN sc x C).1 = rowMax sc := h1
  refine ⟨h1', ?_, ?_⟩
  · rw [h2, h1']; rfl
  · intro e; rw [h3 e, h1']

/-- The maximum is a real number and the denominator a positive real one. -/
theorem rowMax_denom_real (hN : C * R = N) (sc : Fin N → EReal)
    (hC : 0 < C) (hR : 0 < R)
    (hsc : ∀ n, sc n ≠ ⊤) (h0 : sc (chunk hN ⟨0, hC⟩ ⟨0, hR⟩) ≠ ⊥) :
    (∃ μ : ℝ, rowMax sc = (μ : EReal)) ∧ ∃ d : ℝ, 0 < d ∧ denom sc = (d : EReal) := by
  obtain ⟨μ, hμ⟩ := rowMax_real hN sc hC hR hsc h0
  exact ⟨⟨μ, hμ⟩, _, denom_pos hN sc hC hR hsc h0 μ, denom_eq sc hμ⟩

/-- Dividing the weighted sum by the denominator is weighting by the normalised entries. -/
theorem div_weighted_sum (hN : C * R = N) (sc : Fin N → EReal) (x : Fin N → Fin E → EReal)
    (hC : 0 < C) (hR : 0 < R)
    (hsc : ∀ n, sc n ≠ ⊤) (h0 : sc (chunk hN ⟨0, hC⟩ ⟨0, hR⟩) ≠ ⊥)
    (hx : ∀ n e, ∃ v : ℝ, x n e = (v : EReal)) (e : Fin E) :
    Ideal.div (∑ n, Ideal.exp (sc n - rowMax sc) * x n e) (denom sc)
      = ∑ n, Ideal.div (Ideal.exp (sc n - rowMax sc)) (denom sc) * x n e := by
  obtain ⟨μ, hμ⟩ := rowMax_real hN sc hC hR hsc h0
  have hd := denom_pos hN sc hC hR hsc h0 μ
  have hle : ∀ n ∈ (Finset.univ : Finset (Fin N)), sc n ≤ (μ : EReal) := fun n _ => hμ ▸ le_rowMax sc n
  rw [denom_eq sc hμ, hμ, Ideal.div_coe hd.ne',
    sum_exp_mul_eq Finset.univ sc (fun n => x n e) (fun n => hx n e) hle (EReal.coe_ne_top μ),
    ← EReal.coe_mul, Finset.sum_mul, coe_sum]
  refine Finset.sum_congr rfl (fun n _ => ?_)
  obtain ⟨v, hv⟩ := hx n e
  rw [Ideal.div_coe hd.ne', exp_eq_coe_wt (hle n (Finset.mem_univ n)) (EReal.coe_ne_top μ), hv, EReal.toReal_coe,
    ← EReal.coe_mul, ← EReal.coe_mul]
  congr 1; ring

/-- A masked entry (`⊥`) gets weight zero. -/
theorem div_exp_bot (hN : C * R = N) (sc : Fin N → EReal)
    (hC : 0 < C) (hR : 0 < R)
    (hsc : ∀ n, sc n ≠ ⊤) (h0 : sc (chunk hN ⟨0, hC⟩ ⟨0, hR⟩) ≠ ⊥) (n : Fin N) (hn : sc n = ⊥) :
    Ideal.div (Ideal.exp (sc n - rowMax sc)) (denom sc) = 0 := by
  obtain ⟨μ, hμ⟩ := rowMax_real hN sc hC hR hsc h0
  have hd := denom_pos hN sc hC hR hsc h0 μ
  rw [denom_eq sc hμ, Ideal.div_coe hd.ne', hn, EReal.bot_sub, Ideal.exp_bot, zero_mul]

end Cert.OnlineSoftmax

end
-- ==== Proof.SweepValue.lean ====
/-
  The counted loop's carried state, read as values: before trip `n` the carried maximum, denominator and weighted sum are
  the one-sweep softmax's state after `n` chunks of the bag's masked scores, and every piece stored so far holds the masked
  scores of its rows.

  Row `n` of the block has score `blockScore … n` (the fused hidden layer, gate and projection of that row), masked to
  `-∞` at or beyond the bag's length `v1`. Trip `k` works on rows `1024·k … 1024·k + 1023`.
-/
import proofs.«408275_j80401787781685_3_alg».proof.Proof.KernelIdealLoopFacts
import proofs.«408275_j80401787781685_3_alg».proof.Proof.Payloads
import proofs.«408275_j80401787781685_3_alg».proof.Proof.Payloads2
import proofs.«408275_j80401787781685_3_alg».proof.Proof.OnlineSoftmax
import Idealize.ShloMosaic.Lib.Pipeline.FrameBody
import Idealize.ShloMosaic.Lib.Pipeline.Value

set_option maxRecDepth 16384

noncomputable section

namespace Cert.KernelIdeal.SweepValue

open Idealize.ShloMosaic Idealize.ShloMosaic.TcCoe Idealize.ShloMosaic.ValueIdx Idealize.SL.Sem
open Cert.KernelIdeal Cert.KernelIdeal.Gen Cert.OnlineSoftmax

/-- The score of row `n` of a bag's block `x0` against the fused weights `v2`, fused bias `v6`, projection `v4`, bias `v8`. -/
def blockScore (v2 : Vec Ideal S512x256 .bf16) (v4 : Vec Ideal S128x1 .bf16) (v6 : Vec Ideal S256 .f32) (v8 : Vec Ideal S1 .f32)
    (x0 : Vec Ideal S1x8192x512 .f32) (n : Fin 8192) : EReal :=
  (∑ p : Fin 128, (Ideal.tanh ((∑ e : Fin 512, x0 (ix3 0 n e) * v2 (ix2 e ⟨p.val, by omega⟩)) + v6 (ix1 ⟨p.val, by omega⟩))
      * Ideal.logistic ((∑ e : Fin 512, x0 (ix3 0 n e) * v2 (ix2 e ⟨128 + p.val, by omega⟩)) + v6 (ix1 ⟨128 + p.val, by omega⟩)))
    * v4 (ix2 p 0)) + v8 (ix1 0)

/-- The masked score of row `n`: `-∞` at or beyond the bag's length. -/
def sc (v1 : BitVec 32) (v2 : Vec Ideal S512x256 .bf16) (v4 : Vec Ideal S128x1 .bf16) (v6 : Vec Ideal S256 .f32) (v8 : Vec Ideal S1 .f32)
    (x0 : Vec Ideal S1x8192x512 .f32) (n : Fin 8192) : EReal :=
  if (n.val : ℤ) < v1.toInt then blockScore v2 v4 v6 v8 x0 n else ⊥

/-- Row `n` of the block. -/
def xrow (x0 : Vec Ideal S1x8192x512 .f32) (n : Fin 8192) (e : Fin 512) : EReal := x0 (ix3 0 n e)

theorem hN : 8 * 1024 = 8192 := by norm_num

variable (𝒱 : Variants) (c : Dev nD) (bd : Option 𝒱.V) (i : grid0.Coords) (arg1 : Memref sig .tc .smem S16 .i32) (harg1 : arg1.IsWhole) (arg2 : Memref sig .tc .vmem S1x8192x512 .f32) (harg2 : arg2.IsWhole) (arg3 : Memref sig .tc .vmem S512x256 .bf16) (harg3 : arg3.IsWhole) (arg4 : Memref sig .tc .vmem S256 .f32) (harg4 : arg4.IsWhole) (arg5 : Memref sig .tc .vmem S128x1 .bf16) (harg5 : arg5.IsWhole) (arg6 : Memref sig .tc .vmem S1 .f32) (harg6 : arg6.IsWhole) (arg7 : Memref sig .tc .vmem S1x1x8192 .f32) (harg7 : arg7.IsWhole) (arg8 : Memref sig .tc .vmem S1x1x512 .f32) (harg8 : arg8.IsWhole) (v1 : Elt Ideal .i32) (v2 : Vec Ideal S512x256 .bf16) (v4 : Vec Ideal S128x1 .bf16) (v6 : Vec Ideal S256 .f32) (v8 : Vec Ideal S1 .f32) (X_arg2 : BufTy.Contents (Elt Ideal) arg2.view.ty) (x0 : Vec Ideal S1x8192x512 .f32) (hx0 : View.read (Elt Ideal) arg2.view X_arg2 = x0)
  (G : BufTy.Contents (Elt Ideal) arg7.view.ty)

/-- The state before trip `n`, from the sweep's initial values. -/
abbrev ST (n : ℕ) := st_k0_t1 (F := Ideal) 𝒱 c bd i arg1 harg1 arg2 harg2 arg3 harg3 arg4 harg4 arg5 harg5 arg6 harg6 arg7 harg7 arg8 harg8 v1 v2 v4 v6 v8 X_arg2 G (k0_pay13 (F := Ideal), k0_pay14 (F := Ideal), k0_pay15 (F := Ideal)) n

/-! ### The loop runs eight trips -/

theorem trips_eq : k0_t1_loop.trips = 8 := by decide

/-! ### One trip, opened -/

/-- The rows trip `k` loads. -/
def rows (k : Fin k0_t1_loop.trips) : Vec Ideal S1x1024x512 .f32 :=
  View.readAt (Elt Ideal) arg2.view (Rect.unit (s := S1x8192x512) (k0_off2 k) S1x1024x512.size (k0_off2_inb k)).toLoadRect X_arg2

/-- What trip `k` yields, as the payloads of the carried value and of the rows it loads. -/
theorem tripR_eq (k : Fin k0_t1_loop.trips) (acc : FVec Ideal S1x1 .f32 × FVec Ideal S1x1 .f32 × FVec Ideal S1x512 .f32) (f : BufTy.Contents (Elt Ideal) arg7.view.ty) :
    tripR_k0_t1 (F := Ideal) 𝒱 c bd i arg1 harg1 arg2 harg2 arg3 harg3 arg4 harg4 arg5 harg5 arg6 harg6 arg7 harg7 arg8 harg8 v1 v2 v4 v6 v8 X_arg2 k acc f
      = (k0_pay4 (F := Ideal) v1 v2 v4 v6 v8 0#32 1#32 k acc.1 (rows arg2 X_arg2 k),
         k0_pay7 (F := Ideal) v1 v2 v4 v6 v8 0#32 1#32 k acc.1 acc.2.1 (rows arg2 X_arg2 k),
         k0_pay16 (F := Ideal) (k0_pay1 (rows arg2 X_arg2 k))
           (k0_pay8 (F := Ideal) v1 v2 v4 v6 v8 0#32 1#32 k acc.1 acc.2.2 (rows arg2 X_arg2 k))
           (k0_pay9 (F := Ideal) v1 v2 v4 v6 v8 0#32 1#32 k acc.1 (rows arg2 X_arg2 k))
           (constant S1x512 .f32 0x00000000#32)) := by
  unfold tripR_k0_t1 trip_k0_t1
  dsimp only
  sl_unfold_words
  rw [Pay.pay10_eq, Pay.pay11_eq, Pay.pay12_eq]
  rfl

/-- What trip `k` stores. -/
theorem tripL_eq (k : Fin k0_t1_loop.trips) (acc : FVec Ideal S1x1 .f32 × FVec Ideal S1x1 .f32 × FVec Ideal S1x512 .f32) (f : BufTy.Contents (Elt Ideal) arg7.view.ty) :
    tripL_k0_t1 (F := Ideal) 𝒱 c bd i arg1 harg1 arg2 harg2 arg3 harg3 arg4 harg4 arg5 harg5 arg6 harg6 arg7 harg7 arg8 harg8 v1 v2 v4 v6 v8 X_arg2 k acc f
      = [⟨Rect.unit (s := S1x1x8192) (k0_off3 k) S1x1x1024.size (k0_off3_inb k),
          k0_pay3 (F := Ideal) v1 v2 v4 v6 v8 0#32 1#32 k (rows arg2 X_arg2 k)⟩] := by
  unfold tripL_k0_t1 trip_k0_t1
  dsimp only
  rw [Pay.pay10_eq, Pay.pay11_eq, Pay.pay12_eq]
  rfl

/-! ### The rows a trip loads are the block's rows of its chunk -/

include hx0 in
theorem rows_apply (k : Fin k0_t1_loop.trips) (r : Fin 1024) (e : Fin 512) :
    rows arg2 X_arg2 k (ix3 0 r e) = x0 (ix3 0 (chunk hN ⟨k.val, Pay.trips_lt k⟩ r) e) := by
  unfold rows
  rw [View.readAt_eq_ld, hx0]
  show x0 ((Rect.unit (s := S1x8192x512) (k0_off2 k) S1x1024x512.size (k0_off2_inb k)).idx (ix3 0 r e)) = _
  refine congrArg x0 (funext fun a => Fin.ext ?_)
  have ho := k0_off2_eq k
  match a with
  | ⟨0, _⟩ => show k0_off2 k 0 + 1 * 0 = 0; rw [ho]; rfl
  | ⟨1, _⟩ => show k0_off2 k 1 + 1 * r.val = 1024 * k.val + r.val; rw [ho]; show 1024 * k.val + 1 * r.val = _; omega
  | ⟨2, _⟩ => show k0_off2 k 2 + 1 * e.val = e.val; rw [ho]; show 0 + 1 * e.val = _; omega

include hx0 in
/-- A loaded row's score is the block's score of that row. -/
theorem rowScore_eq (k : Fin k0_t1_loop.trips) (r : Fin 1024) :
    Pay.rowScore v2 v4 v6 v8 (rows arg2 X_arg2 k) r = blockScore v2 v4 v6 v8 x0 (chunk hN ⟨k.val, Pay.trips_lt k⟩ r) := by
  unfold Pay.rowScore blockScore
  simp only [rows_apply arg2 X_arg2 x0 hx0]

include hx0 in
/-- The masked score trip `k` computes for its row `r` is the block's masked score of that row. -/
theorem pay2_eq (k : Fin k0_t1_loop.trips) (r : Fin 1024) :
    k0_pay2 (F := Ideal) v1 v2 v4 v6 v8 0#32 1#32 k (rows arg2 X_arg2 k) (ix2 0 r)
      = sc v1 v2 v4 v6 v8 x0 (chunk hN ⟨k.val, Pay.trips_lt k⟩ r) := by
  rw [Pay.pay2_apply, rowScore_eq arg2 v2 v4 v6 v8 X_arg2 x0 hx0]
  rfl

include hx0 in
/-- One trip is one step of the one-sweep softmax. -/
theorem trip_value (k : Fin k0_t1_loop.trips) (acc : FVec Ideal S1x1 .f32 × FVec Ideal S1x1 .f32 × FVec Ideal S1x512 .f32) (f : BufTy.Contents (Elt Ideal) arg7.view.ty)
    (st : EReal × EReal × (Fin 512 → EReal))
    (h1 : acc.1 (ix2 0 0) = st.1) (h2 : acc.2.1 (ix2 0 0) = st.2.1) (h3 : ∀ e : Fin 512, acc.2.2 (ix2 0 e) = st.2.2 e) :
    (tripR_k0_t1 (F := Ideal) 𝒱 c bd i arg1 harg1 arg2 harg2 arg3 harg3 arg4 harg4 arg5 harg5 arg6 harg6 arg7 harg7 arg8 harg8 v1 v2 v4 v6 v8 X_arg2 k acc f).1 (ix2 0 0)
        = (step (fun r => sc v1 v2 v4 v6 v8 x0 (chunk hN ⟨k.val, Pay.trips_lt k⟩ r)) (fun r => xrow x0 (chunk hN ⟨k.val, Pay.trips_lt k⟩ r)) st).1
    ∧ (tripR_k0_t1 (F := Ideal) 𝒱 c bd i arg1 harg1 arg2 harg2 arg3 harg3 arg4 harg4 arg5 harg5 arg6 harg6 arg7 harg7 arg8 harg8 v1 v2 v4 v6 v8 X_arg2 k acc f).2.1 (ix2 0 0)
        = (step (fun r => sc v1 v2 v4 v6 v8 x0 (chunk hN ⟨k.val, Pay.trips_lt k⟩ r)) (fun r => xrow x0 (chunk hN ⟨k.val, Pay.trips_lt k⟩ r)) st).2.1
    ∧ ∀ e : Fin 512, (tripR_k0_t1 (F := Ideal) 𝒱 c bd i arg1 harg1 arg2 harg2 arg3 harg3 arg4 harg4 arg5 harg5 arg6 harg6 arg7 harg7 arg8 harg8 v1 v2 v4 v6 v8 X_arg2 k acc f).2.2 (ix2 0 e)
        = (step (fun r => sc v1 v2 v4 v6 v8 x0 (chunk hN ⟨k.val, Pay.trips_lt k⟩ r)) (fun r => xrow x0 (chunk hN ⟨k.val, Pay.trips_lt k⟩ r)) st).2.2 e := by
  rw [tripR_eq]
  have p2 := pay2_eq arg2 v1 v2 v4 v6 v8 X_arg2 x0 hx0 k
  refine ⟨?_, ?_, fun e => ?_⟩
  · show k0_pay4 (F := Ideal) v1 v2 v4 v6 v8 0#32 1#32 k acc.1 (rows arg2 X_arg2 k) (ix2 0 0) = _
    rw [Pay.pay4_apply, h1]
    simp only [p2]
    rfl
  · show k0_pay7 (F := Ideal) v1 v2 v4 v6 v8 0#32 1#32 k acc.1 acc.2.1 (rows arg2 X_arg2 k) (ix2 0 0) = _
    rw [Pay.pay7_apply, Pay.pay5_apply]
    simp only [Pay.pay6_apply, Pay.pay4_apply, p2, h1, h2]
    rfl
  · show k0_pay16 (F := Ideal) (k0_pay1 (rows arg2 X_arg2 k))
        (k0_pay8 (F := Ideal) v1 v2 v4 v6 v8 0#32 1#32 k acc.1 acc.2.2 (rows arg2 X_arg2 k))
        (k0_pay9 (F := Ideal) v1 v2 v4 v6 v8 0#32 1#32 k acc.1 (rows arg2 X_arg2 k))
        (constant S1x512 .f32 0x00000000#32) (ix2 0 e) = _
    rw [Pay.pay16_apply, Pay.pay8_apply, Pay.pay5_apply]
    simp only [Pay.pay6_apply, Pay.pay4_apply, p2, h1, h3, rows_apply arg2 X_arg2 x0 hx0]
    rfl

include hx0 in
/-- The carried value before trip `n` is the one-sweep softmax's state after `n` chunks. -/
theorem st_value (n : ℕ) (hn : n ≤ 8) :
    (ST 𝒱 c bd i arg1 harg1 arg2 harg2 arg3 harg3 arg4 harg4 arg5 harg5 arg6 harg6 arg7 harg7 arg8 harg8 v1 v2 v4 v6 v8 X_arg2 G n).1.1 (ix2 0 0) = (sweep hN (sc v1 v2 v4 v6 v8 x0) (xrow x0) n).1
    ∧ (ST 𝒱 c bd i arg1 harg1 arg2 harg2 arg3 harg3 arg4 harg4 arg5 harg5 arg6 harg6 arg7 harg7 arg8 harg8 v1 v2 v4 v6 v8 X_arg2 G n).1.2.1 (ix2 0 0) = (sweep hN (sc v1 v2 v4 v6 v8 x0) (xrow x0) n).2.1
    ∧ ∀ e : Fin 512, (ST 𝒱 c bd i arg1 harg1 arg2 harg2 arg3 harg3 arg4 harg4 arg5 harg5 arg6 harg6 arg7 harg7 arg8 harg8 v1 v2 v4 v6 v8 X_arg2 G n).1.2.2 (ix2 0 e) = (sweep hN (sc v1 v2 v4 v6 v8 x0) (xrow x0) n).2.2 e := by
  induction n with
  | zero => exact ⟨Pay.pay13_apply, Pay.pay14_apply, fun e => Pay.pay15_apply e⟩
  | succ n ih =>
    have ih' := ih (by omega)
    have hlt : n < k0_t1_loop.trips := by rw [trips_eq]; omega
    have hs := st_k0_t1_succ (F := Ideal) 𝒱 c bd i arg1 harg1 arg2 harg2 arg3 harg3 arg4 harg4 arg5 harg5 arg6 harg6 arg7 harg7 arg8 harg8 v1 v2 v4 v6 v8 X_arg2 G (k0_pay13 (F := Ideal), k0_pay14 (F := Ideal), k0_pay15 (F := Ideal)) ⟨n, hlt⟩
    have hsw : sweep hN (sc v1 v2 v4 v6 v8 x0) (xrow x0) (n + 1)
        = step (fun r => sc v1 v2 v4 v6 v8 x0 (chunk hN ⟨n, by omega⟩ r)) (fun r => xrow x0 (chunk hN ⟨n, by omega⟩ r)) (sweep hN (sc v1 v2 v4 v6 v8 x0) (xrow x0) n) := by
      rw [sweep, dif_pos (by omega : n < 8)]
    rw [hsw]
    show (st_k0_t1 (F := Ideal) 𝒱 c bd i arg1 harg1 arg2 harg2 arg3 harg3 arg4 harg4 arg5 harg5 arg6 harg6 arg7 harg7 arg8 harg8 v1 v2 v4 v6 v8 X_arg2 G (k0_pay13 (F := Ideal), k0_pay14 (F := Ideal), k0_pay15 (F := Ideal)) ((⟨n, hlt⟩ : Fin k0_t1_loop.trips).val + 1)).1.1 (ix2 0 0) = _
      ∧ (st_k0_t1 (F := Ideal) 𝒱 c bd i arg1 harg1 arg2 harg2 arg3 harg3 arg4 harg4 arg5 harg5 arg6 harg6 arg7 harg7 arg8 harg8 v1 v2 v4 v6 v8 X_arg2 G (k0_pay13 (F := Ideal), k0_pay14 (F := Ideal), k0_pay15 (F := Ideal)) ((⟨n, hlt⟩ : Fin k0_t1_loop.trips).val + 1)).1.2.1 (ix2 0 0) = _
      ∧ ∀ e : Fin 512, (st_k0_t1 (F := Ideal) 𝒱 c bd i arg1 harg1 arg2 harg2 arg3 harg3 arg4 harg4 arg5 harg5 arg6 harg6 arg7 harg7 arg8 harg8 v1 v2 v4 v6 v8 X_arg2 G (k0_pay13 (F := Ideal), k0_pay14 (F := Ideal), k0_pay15 (F := Ideal)) ((⟨n, hlt⟩ : Fin k0_t1_loop.trips).val + 1)).1.2.2 (ix2 0 e) = _
    rw [hs]
    exact trip_value 𝒱 c bd i arg1 harg1 arg2 harg2 arg3 harg3 arg4 harg4 arg5 harg5 arg6 harg6 arg7 harg7 arg8 harg8 v1 v2 v4 v6 v8 X_arg2 x0 hx0 ⟨n, hlt⟩ _ _ _ ih'.1 ih'.2.1 ih'.2.2

include hx0 in
/-- Every piece stored before trip `n` holds the masked scores of the rows it covers. -/
theorem st_pieces (n : ℕ) (hn : n ≤ 8) :
    ∀ p ∈ (ST 𝒱 c bd i arg1 harg1 arg2 harg2 arg3 harg3 arg4 harg4 arg5 harg5 arg6 harg6 arg7 harg7 arg8 harg8 v1 v2 v4 v6 v8 X_arg2 G n).2, p.2 = fun y => sc v1 v2 v4 v6 v8 x0 ((p.1.emb y) 2) := by
  induction n with
  | zero => intro p hp; exact absurd hp List.not_mem_nil
  | succ n ih =>
    have ih' := ih (by omega)
    have hlt : n < k0_t1_loop.trips := by rw [trips_eq]; omega
    have hs := st_k0_t1_succ (F := Ideal) 𝒱 c bd i arg1 harg1 arg2 harg2 arg3 harg3 arg4 harg4 arg5 harg5 arg6 harg6 arg7 harg7 arg8 harg8 v1 v2 v4 v6 v8 X_arg2 G (k0_pay13 (F := Ideal), k0_pay14 (F := Ideal), k0_pay15 (F := Ideal)) ⟨n, hlt⟩
    show ∀ p ∈ (st_k0_t1 (F := Ideal) 𝒱 c bd i arg1 harg1 arg2 harg2 arg3 harg3 arg4 harg4 arg5 harg5 arg6 harg6 arg7 harg7 arg8 harg8 v1 v2 v4 v6 v8 X_arg2 G (k0_pay13 (F := Ideal), k0_pay14 (F := Ideal), k0_pay15 (F := Ideal)) ((⟨n, hlt⟩ : Fin k0_t1_loop.trips).val + 1)).2, _
    rw [hs]
    intro p hp
    rcases List.mem_append.mp hp with h | h
    · rw [tripL_eq] at h
      obtain rfl := List.mem_singleton.mp h
      funext y
      obtain ⟨a, b, r, rfl⟩ : ∃ (a : Fin 1) (b : Fin 1) (r : Fin 1024), y = ix3 a b r := ⟨y 0, y 1, y 2, eq_ix3 y⟩
      obtain rfl : a = 0 := Subsingleton.elim _ _
      obtain rfl : b = 0 := Subsingleton.elim _ _
      show k0_pay3 (F := Ideal) v1 v2 v4 v6 v8 0#32 1#32 ⟨n, hlt⟩ (rows arg2 X_arg2 ⟨n, hlt⟩) (ix3 0 0 r) = _
      rw [Pay.pay3_apply, pay2_eq arg2 v1 v2 v4 v6 v8 X_arg2 x0 hx0]
      refine congrArg (sc v1 v2 v4 v6 v8 x0) (Fin.ext ?_)
      show 1024 * n + r.val = k0_off3 ⟨n, hlt⟩ 2 + 1 * r.val
      rw [k0_off3_eq]
      show 1024 * n + r.val = 1024 * n + 1 * r.val
      omega
    · exact ih' p h

include hx0 in
/-- So a load of the whole attention block after the sweep reads the masked scores. -/
theorem read_after_sweep (n : Fin 8192) :
    View.readAt (Elt Ideal) arg7.view (Rect.unit (s := S1x1x8192) ![0, 0, 0] S1x1x8192.size inb_S1x1x8192_S1x1x8192_0_0_0).toLoadRect
        (arg7.view.writes (Elt Ideal) G (ST 𝒱 c bd i arg1 harg1 arg2 harg2 arg3 harg3 arg4 harg4 arg5 harg5 arg6 harg6 arg7 harg7 arg8 harg8 v1 v2 v4 v6 v8 X_arg2 G (Scf.trips k0_t1_loop.lb k0_t1_loop.ub k0_t1_loop.st)).2) (ix3 0 0 n)
      = sc v1 v2 v4 v6 v8 x0 n := by
  have hcov := LoopFacts.st_cover (F := Ideal) 𝒱 c bd i arg1 harg1 arg2 harg2 arg3 harg3 arg4 harg4 arg5 harg5 arg6 harg6 arg7 harg7 arg8 harg8 v1 v2 v4 v6 v8 X_arg2 G (k0_pay13 (F := Ideal), k0_pay14 (F := Ideal), k0_pay15 (F := Ideal))
  have hT : Scf.trips k0_t1_loop.lb k0_t1_loop.ub k0_t1_loop.st = 8 := trips_eq
  rw [View.readAt_eq_ld, View.read_writes_eq_canon arg7.view G _ hcov,
    View.ld_unit_zero (funext fun a => by match a with | ⟨0, _⟩ => rfl | ⟨1, _⟩ => rfl | ⟨2, _⟩ => rfl)]
  refine (View.canon_apply_of_pieces (fun y : S1x1x8192.Idx => sc v1 v2 v4 v6 v8 x0 (y 2)) _ ?_ (ix3 0 0 n) (hcov (ix3 0 0 n))).trans rfl
  intro p hp x
  rw [hT] at hp
  rw [st_pieces 𝒱 c bd i arg1 harg1 arg2 harg2 arg3 harg3 arg4 harg4 arg5 harg5 arg6 harg6 arg7 harg7 arg8 harg8 v1 v2 v4 v6 v8 X_arg2 x0 hx0 G 8 le_rfl p hp]

end Cert.KernelIdeal.SweepValue

end
-- ==== Proof.Inputs.lean ====
/-
  What the region finds: each window's block at a grid point, and the prefetched table, in terms of the arguments.

  Window 0's block at point `t` is bag `t` of `x`; windows 1 to 4 are whole arrays the host lines before the region
  wrote: the two weight matrices side by side, the two biases end to end, and the projection and its bias unchanged
  (a change of float format is the identity on the extended reals); the prefetched table is the bag lengths clipped
  to `[0, 8192]`, and for a position below 8192 comparing with the clipped length is comparing with the length.
-/
import proofs.«408275_j80401787781685_3_alg».proof.Proof.Gen.KernelIdeal.Frame.Runs
import Idealize.ShloMosaic.Lib.ValueIdx
import Idealize.ShloMosaic.Lib.Pipeline.Value
import Idealize.ShloMosaic.Lib.StableHlo.Run

set_option maxRecDepth 16384

noncomputable section

namespace Cert.KernelIdeal.Inputs

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The argument arrays, at their literal types. -/
abbrev argX (c : Dev nD) : FVec Ideal S16x8192x512 .f32 := m ((c.tc : Thread nD τ).loc main_arg0)
abbrev argL (c : Dev nD) : IVec S16 32 := m ((c.tc : Thread nD τ).loc main_arg1)
abbrev argWv (c : Dev nD) : FVec Ideal S512x128 .f32 := m ((c.tc : Thread nD τ).loc main_arg2)
abbrev argBv (c : Dev nD) : FVec Ideal S128 .f32 := m ((c.tc : Thread nD τ).loc main_arg3)
abbrev argWu (c : Dev nD) : FVec Ideal S512x128 .f32 := m ((c.tc : Thread nD τ).loc main_arg4)
abbrev argBu (c : Dev nD) : FVec Ideal S128 .f32 := m ((c.tc : Thread nD τ).loc main_arg5)
abbrev argWa (c : Dev nD) : FVec Ideal S128x1 .f32 := m ((c.tc : Thread nD τ).loc main_arg6)
abbrev argBa (c : Dev nD) : FVec Ideal S1 .f32 := m ((c.tc : Thread nD τ).loc main_arg7)

/-- The blocks the body is handed at point `t`, at their literal types. -/
abbrev xblk (hO : Ok m) (c : Dev nD) (t : Fin (cfgM m hO).N) : Vec Ideal S1x8192x512 .f32 := iblk m hO c 0 t
abbrev wblk (hO : Ok m) (c : Dev nD) (t : Fin (cfgM m hO).N) : Vec Ideal S512x256 .bf16 := iblk m hO c 1 t
abbrev bblk (hO : Ok m) (c : Dev nD) (t : Fin (cfgM m hO).N) : Vec Ideal S256 .f32 := iblk m hO c 2 t
abbrev wablk (hO : Ok m) (c : Dev nD) (t : Fin (cfgM m hO).N) : Vec Ideal S128x1 .bf16 := iblk m hO c 3 t
abbrev bablk (hO : Ok m) (c : Dev nD) (t : Fin (cfgM m hO).N) : Vec Ideal S1 .f32 := iblk m hO c 4 t
/-- The prefetched table, at its literal type. -/
abbrev tblL : IVec S16 32 := tbl m 0

/-- The bag a grid point works on. -/
def bag (hO : Ok m) (t : Fin (cfgM m hO).N) : Fin 16 := ⟨t.val, by have := t.isLt; exact this⟩

/-! ### What the host lines before the region wrote -/

theorem V_v2 (c : Dev nD) :
    (V m c main_v2 : S512x256.Idx → EReal)
      = truncf .bf16 (concatenate S512x256 1 [⟨S512x128, argWv m c⟩, ⟨S512x128, argWu m c⟩] concatenates_S512x128_S512x128_S512x256_d1) bitsLt_bf16_f32 := by
  dsimp only [Gen.V, Gen.V0]
  simp only [Gen.hostOps0, Gen.hostOps0_1, Gen.hostOps0_2, List.flatten_cons, List.flatten_nil, List.append_nil, List.cons_append, List.nil_append]
  after_results

theorem V_v3 (c : Dev nD) :
    (V m c main_v3 : S256.Idx → EReal)
      = concatenate S256 0 [⟨S128, argBv m c⟩, ⟨S128, argBu m c⟩] concatenates_S128_S128_S256_d0 := by
  dsimp only [Gen.V, Gen.V0]
  simp only [Gen.hostOps0, Gen.hostOps0_1, Gen.hostOps0_2, List.flatten_cons, List.flatten_nil, List.append_nil, List.cons_append, List.nil_append]
  after_results

theorem V_v4 (c : Dev nD) :
    (V m c main_v4 : S128x1.Idx → EReal) = truncf .bf16 (argWa m c) bitsLt_bf16_f32 := by
  dsimp only [Gen.V, Gen.V0]
  simp only [Gen.hostOps0, Gen.hostOps0_1, Gen.hostOps0_2, List.flatten_cons, List.flatten_nil, List.append_nil, List.cons_append, List.nil_append]
  after_results

theorem V_v0 (c : Dev nD) :
    (V m c main_v0 : S16.Idx → BitVec 32)
      = minsi (broadcastInDim S16 ![] bcast_S_S16 (constantI S_ 32 8192#32))
          (maxsi (broadcastInDim S16 ![] bcast_S_S16 (constantI S_ 32 0#32)) (argL m c)) := by
  dsimp only [Gen.V, Gen.V0]
  simp only [Gen.hostOps0, Gen.hostOps0_1, Gen.hostOps0_2, List.flatten_cons, List.flatten_nil, List.append_nil, List.cons_append, List.nil_append]
  after_results
  simp only [StableHlo.TRef.ofBuf, StableHlo.TRef.toBuf, cast_eq]
  rfl

/-! ### The blocks -/

theorem transform0_eq : ∀ t : Fin grid0.N, cc0_transform_0 (grid0.coords t) = ![t.val, 0, 0] := by decide +kernel

/-- Windows 1 to 4 are whole arrays: their block at any point is the array. -/
theorem wblk_eq (hO : Ok m) (c : Dev nD) (t : Fin (cfgM m hO).N) : wblk m hO c t = V m c main_v2 := by
  funext y
  show V m c main_v2 ((((cfgM m hO).win 1).blk t).view.emb y) = V m c main_v2 y
  refine congrArg (V m c main_v2) ?_
  funext a; apply Fin.ext
  match a with
  | ⟨0, _⟩ => show 0 * 512 + 1 * (y 0).val = (y 0).val; omega
  | ⟨1, _⟩ => show 0 * 256 + 1 * (y 1).val = (y 1).val; omega

theorem bblk_eq (hO : Ok m) (c : Dev nD) (t : Fin (cfgM m hO).N) : bblk m hO c t = V m c main_v3 := by
  funext y
  show V m c main_v3 ((((cfgM m hO).win 2).blk t).view.emb y) = V m c main_v3 y
  refine congrArg (V m c main_v3) ?_
  funext a; apply Fin.ext
  match a with
  | ⟨0, _⟩ => show 0 * 256 + 1 * (y 0).val = (y 0).val; omega

theorem wablk_eq (hO : Ok m) (c : Dev nD) (t : Fin (cfgM m hO).N) : wablk m hO c t = V m c main_v4 := by
  funext y
  show V m c main_v4 ((((cfgM m hO).win 3).blk t).view.emb y) = V m c main_v4 y
  refine congrArg (V m c main_v4) ?_
  funext a; apply Fin.ext
  match a with
  | ⟨0, _⟩ => show 0 * 128 + 1 * (y 0).val = (y 0).val; omega
  | ⟨1, _⟩ => show 0 * 1 + 1 * (y 1).val = (y 1).val; omega

theorem bablk_eq (hO : Ok m) (c : Dev nD) (t : Fin (cfgM m hO).N) : bablk m hO c t = V m c main_arg7 := by
  funext y
  show V m c main_arg7 ((((cfgM m hO).win 4).blk t).view.emb y) = V m c main_arg7 y
  refine congrArg (V m c main_arg7) ?_
  funext a; apply Fin.ext
  match a with
  | ⟨0, _⟩ => show 0 * 1 + 1 * (y 0).val = (y 0).val; omega

/-- Window 0's block at point `t` is bag `t` of `x`. -/
theorem xblk_apply (hO : Ok m) (c : Dev nD) (t : Fin (cfgM m hO).N) (n : Fin 8192) (e : Fin 512) :
    xblk m hO c t (ix3 0 n e) = argX m c (ix3 (bag m hO t) n e) := by
  show V m c main_arg0 ((((cfgM m hO).win 0).blk t).view.emb (ix3 0 n e)) = _
  rw [V_main_arg0]
  refine congrArg (m ((c.tc : Thread nD τ).loc main_arg0)) ?_
  funext a; apply Fin.ext
  have h0 := transform0_eq t
  match a with
  | ⟨0, _⟩ =>
    show cc0_transform_0 (grid0.coords t) 0 * 1 + 1 * 0 = t.val
    rw [h0]; show t.val * 1 + 1 * 0 = t.val; omega
  | ⟨1, _⟩ =>
    show cc0_transform_0 (grid0.coords t) 1 * 8192 + 1 * n.val = n.val
    rw [h0]; show 0 * 8192 + 1 * n.val = n.val; omega
  | ⟨2, _⟩ =>
    show cc0_transform_0 (grid0.coords t) 2 * 512 + 1 * e.val = e.val
    rw [h0]; show 0 * 512 + 1 * e.val = e.val; omega

/-- Window 1 is the two weight matrices side by side. -/
theorem wblk_apply (hO : Ok m) (c : Dev nD) (t : Fin (cfgM m hO).N) (e : Fin 512) (p : Fin 128) :
    wblk m hO c t (ix2 e ⟨p.val, by omega⟩) = argWv m c (ix2 e p)
    ∧ wblk m hO c t (ix2 e ⟨128 + p.val, by omega⟩) = argWu m c (ix2 e p) := by
  rw [wblk_eq, V_v2]
  constructor
  · rw [truncf_apply]
    refine concatenate_pair_apply_left (t := S512x256) (1 : Fin 2) (argWv m c) (argWu m c) _ _ rfl (ix2 e p) ?_
    intro b
    match b with
    | ⟨0, _⟩ => rfl
    | ⟨1, _⟩ => rfl
  · rw [truncf_apply]
    refine concatenate_pair_apply_right (t := S512x256) (1 : Fin 2) (argWv m c) (argWu m c) _ _ rfl rfl (ix2 e p) ?_ ?_
    · intro b hb
      match b with
      | ⟨0, _⟩ => rfl
      | ⟨1, _⟩ => exact absurd rfl hb
    · show p.val + 128 = 128 + p.val
      omega

/-- Window 2 is the two biases end to end. -/
theorem bblk_apply (hO : Ok m) (c : Dev nD) (t : Fin (cfgM m hO).N) (p : Fin 128) :
    bblk m hO c t (ix1 ⟨p.val, by omega⟩) = argBv m c (ix1 p)
    ∧ bblk m hO c t (ix1 ⟨128 + p.val, by omega⟩) = argBu m c (ix1 p) := by
  rw [bblk_eq, V_v3]
  constructor
  · refine concatenate_pair_apply_left (t := S256) (0 : Fin 1) (argBv m c) (argBu m c) _ _ rfl (ix1 p) ?_
    intro b
    match b with
    | ⟨0, _⟩ => rfl
  · refine concatenate_pair_apply_right (t := S256) (0 : Fin 1) (argBv m c) (argBu m c) _ _ rfl rfl (ix1 p) ?_ ?_
    · intro b hb
      match b with
      | ⟨0, _⟩ => exact absurd rfl hb
    · show p.val + 128 = 128 + p.val
      omega

/-- Window 3 is the projection. -/
theorem wablk_apply (hO : Ok m) (c : Dev nD) (t : Fin (cfgM m hO).N) (p : Fin 128) :
    wablk m hO c t (ix2 p 0) = argWa m c (ix2 p 0) := by
  rw [wablk_eq, V_v4, truncf_apply]

/-- Window 4 is the projection's bias. -/
theorem bablk_apply (hO : Ok m) (c : Dev nD) (t : Fin (cfgM m hO).N) :
    bablk m hO c t (ix1 0) = argBa m c (ix1 0) := by
  rw [bablk_eq, V_main_arg7]

/-- Below 8192, a position is under the clipped bag length exactly when it is under the bag length. -/
theorem tbl_valid (b : Fin 16) (n : ℕ) (hn : n < 8192) :
    ((n : ℤ) < (tblL m (ix1 b)).toInt) ↔ ((n : ℤ) < (argL m 0 (ix1 b)).toInt) := by
  rw [show tblL m = (V m 0 main_v0 : S16.Idx → BitVec 32) from rfl, V_v0]
  show (n : ℤ) < (IntOp.minsi 8192#32 (IntOp.maxsi 0#32 (argL m 0 (ix1 b)))).toInt ↔ _
  generalize argL m 0 (ix1 b) = L
  have h8 : (8192#32 : BitVec 32).toInt = 8192 := by decide
  have h0 : (0#32 : BitVec 32).toInt = 0 := by decide
  unfold IntOp.minsi IntOp.maxsi
  by_cases h1 : L.slt 0#32 = true
  · rw [if_pos h1]
    have h1' := BitVec.slt_iff_toInt_lt.mp h1
    by_cases h2 : (8192#32 : BitVec 32).slt 0#32 = true
    · rw [if_pos h2]; have := BitVec.slt_iff_toInt_lt.mp h2; omega
    · rw [if_neg h2]; omega
  · rw [if_neg h1]
    have h1' : ¬ L.toInt < (0#32 : BitVec 32).toInt := fun h => h1 (BitVec.slt_iff_toInt_lt.mpr h)
    by_cases h2 : (8192#32 : BitVec 32).slt L = true
    · rw [if_pos h2]; have := BitVec.slt_iff_toInt_lt.mp h2; omega
    · rw [if_neg h2]

end Cert.KernelIdeal.Inputs

end
-- ==== Proof.Spec.lean ====
/-
  The two results as functions of the eight argument arrays, index by index, on the extended reals.

  For bag `b` and instance `n`: the gated-attention score is
  `score b n = ∑ p, tanh (x[b,n,:]·Wv[:,p] + bv[p]) · logistic (x[b,n,:]·Wu[:,p] + bu[p]) · Wa[p,0] + ba[0]`;
  instances at or beyond the bag's length are masked to `⊥ = -∞`; `A[b,n,0]` is the softmax of the masked scores over
  `n`, and `pooled[b,0,e] = ∑ n, A[b,n,0] · x[b,n,e]`.
-/
import Idealize.ShloMosaic.PureOps.Ideal
import Idealize.ShloMosaic.Lib.ValueIdx
import proofs.«408275_j80401787781685_3_alg».proof.Proof.OnlineSoftmax

noncomputable section

namespace Cert.Spec

open Idealize.ShloMosaic Idealize.ShloMosaic.ValueIdx Cert.OnlineSoftmax

abbrev SX : Shape := ⟨3, ![16, 8192, 512]⟩
abbrev SL : Shape := ⟨1, ![16]⟩
abbrev SW : Shape := ⟨2, ![512, 128]⟩
abbrev SB : Shape := ⟨1, ![128]⟩
abbrev SWa : Shape := ⟨2, ![128, 1]⟩
abbrev SBa : Shape := ⟨1, ![1]⟩
abbrev SA : Shape := ⟨3, ![16, 8192, 1]⟩
abbrev SP : Shape := ⟨3, ![16, 1, 512]⟩

variable (x : SX.Idx → EReal) (L : SL.Idx → BitVec 32) (Wv : SW.Idx → EReal) (bv : SB.Idx → EReal)
  (Wu : SW.Idx → EReal) (bu : SB.Idx → EReal) (Wa : SWa.Idx → EReal) (ba : SBa.Idx → EReal)

/-- A hidden pre-activation: row `n` of bag `b` against column `p` of a weight matrix, plus the bias. -/
def hid (W : SW.Idx → EReal) (bias : SB.Idx → EReal) (b : Fin 16) (n : Fin 8192) (p : Fin 128) : EReal :=
  (∑ e : Fin 512, x (ix3 b n e) * W (ix2 e p)) + bias (ix1 p)

/-- The gated-attention score of instance `n` of bag `b`. -/
def score (b : Fin 16) (n : Fin 8192) : EReal :=
  (∑ p : Fin 128, (Ideal.tanh (hid x Wv bv b n p) * Ideal.logistic (hid x Wu bu b n p)) * Wa (ix2 p 0)) + ba (ix1 0)

/-- Instance `n` lies inside bag `b` (signed comparison with the bag's length). -/
def valid (b : Fin 16) (n : Fin 8192) : Prop := (n.val : ℤ) < (L (ix1 b)).toInt

instance (b : Fin 16) (n : Fin 8192) : Decidable (valid L b n) := by unfold valid; infer_instance

/-- The masked score: `-∞` outside the bag. -/
def mscore (b : Fin 16) (n : Fin 8192) : EReal := if valid L b n then score x Wv bv Wu bu Wa ba b n else ⊥

/-- The softmax weight of instance `n` in bag `b`. -/
def weight (b : Fin 16) (n : Fin 8192) : EReal :=
  Ideal.div (Ideal.exp (mscore x L Wv bv Wu bu Wa ba b n - rowMax (mscore x L Wv bv Wu bu Wa ba b)))
    (denom (mscore x L Wv bv Wu bu Wa ba b))

/-- The attention result `A : f32[16, 8192, 1]`. -/
def attn (i : SA.Idx) : EReal := weight x L Wv bv Wu bu Wa ba (i 0) (i 1)

/-- The pooled result `f32[16, 1, 512]`. -/
def pooled (i : SP.Idx) : EReal := ∑ n : Fin 8192, weight x L Wv bv Wu bu Wa ba (i 0) n * x (ix3 (i 0) n (i 2))

end Cert.Spec

end
-- ==== Proof.SpecFacts.lean ====
/-
  Under the precondition the scores are real numbers: sums, products, `tanh` and `logistic` of reals are real. So a
  masked score is never `+∞`, and the first instance of a bag of length at least one is not masked.
-/
import proofs.«408275_j80401787781685_3_alg».proof.Proof.Spec

noncomputable section

namespace Cert.Spec

open Idealize.ShloMosaic Idealize.ShloMosaic.ValueIdx Cert.OnlineSoftmax

variable (x : SX.Idx → EReal) (L : SL.Idx → BitVec 32) (Wv : SW.Idx → EReal) (bv : SB.Idx → EReal)
  (Wu : SW.Idx → EReal) (bu : SB.Idx → EReal) (Wa : SWa.Idx → EReal) (ba : SBa.Idx → EReal)

/-- A product of two real numbers is a real number … -/
theorem mul_real {a c : EReal} (ha : ∃ r : ℝ, a = (r : EReal)) (hc : ∃ r : ℝ, c = (r : EReal)) : ∃ r : ℝ, a * c = (r : EReal) := by
  obtain ⟨r, rfl⟩ := ha
  obtain ⟨s, rfl⟩ := hc
  exact ⟨r * s, (EReal.coe_mul r s).symm⟩

/-- … a sum of two likewise … -/
theorem add_real {a c : EReal} (ha : ∃ r : ℝ, a = (r : EReal)) (hc : ∃ r : ℝ, c = (r : EReal)) : ∃ r : ℝ, a + c = (r : EReal) := by
  obtain ⟨r, rfl⟩ := ha
  obtain ⟨s, rfl⟩ := hc
  exact ⟨r + s, (EReal.coe_add r s).symm⟩

/-- … and a finite sum. -/
theorem sum_real {ι : Type*} (s : Finset ι) (f : ι → EReal) (hf : ∀ i ∈ s, ∃ r : ℝ, f i = (r : EReal)) :
    ∃ r : ℝ, ∑ i ∈ s, f i = (r : EReal) := by
  choose! g hg using hf
  exact ⟨∑ i ∈ s, g i, by rw [coe_sum]; exact Finset.sum_congr rfl hg⟩

/-- With real arguments a hidden pre-activation is a real number. -/
theorem hid_real (W : SW.Idx → EReal) (bias : SB.Idx → EReal) (hx : ∀ i, ∃ r : ℝ, x i = (r : EReal))
    (hW : ∀ i, ∃ r : ℝ, W i = (r : EReal)) (hb : ∀ i, ∃ r : ℝ, bias i = (r : EReal)) (b : Fin 16) (n : Fin 8192) (p : Fin 128) :
    ∃ r : ℝ, hid x W bias b n p = (r : EReal) := by
  unfold hid
  exact add_real (sum_real _ _ fun e _ => mul_real (hx _) (hW _)) (hb _)

/-- With real arguments every score is a real number. -/
theorem score_real (hx : ∀ i, ∃ r : ℝ, x i = (r : EReal)) (hWv : ∀ i, ∃ r : ℝ, Wv i = (r : EReal)) (hbv : ∀ i, ∃ r : ℝ, bv i = (r : EReal))
    (hWu : ∀ i, ∃ r : ℝ, Wu i = (r : EReal)) (hbu : ∀ i, ∃ r : ℝ, bu i = (r : EReal)) (hWa : ∀ i, ∃ r : ℝ, Wa i = (r : EReal))
    (hba : ∀ i, ∃ r : ℝ, ba i = (r : EReal)) (b : Fin 16) (n : Fin 8192) :
    ∃ r : ℝ, score x Wv bv Wu bu Wa ba b n = (r : EReal) := by
  unfold score
  refine add_real (sum_real _ _ fun p _ => mul_real (mul_real ?_ ?_) (hWa _)) (hba _)
  · obtain ⟨r, hr⟩ := hid_real x Wv bv hx hWv hbv b n p
    rw [hr]; exact ⟨_, Ideal.tanh_coe r⟩
  · obtain ⟨r, hr⟩ := hid_real x Wu bu hx hWu hbu b n p
    rw [hr]; exact ⟨_, Ideal.logistic_coe r⟩

/-- A masked score is never `+∞`. -/
theorem mscore_ne_top (hx : ∀ i, ∃ r : ℝ, x i = (r : EReal)) (hWv : ∀ i, ∃ r : ℝ, Wv i = (r : EReal)) (hbv : ∀ i, ∃ r : ℝ, bv i = (r : EReal))
    (hWu : ∀ i, ∃ r : ℝ, Wu i = (r : EReal)) (hbu : ∀ i, ∃ r : ℝ, bu i = (r : EReal)) (hWa : ∀ i, ∃ r : ℝ, Wa i = (r : EReal))
    (hba : ∀ i, ∃ r : ℝ, ba i = (r : EReal)) (b : Fin 16) (n : Fin 8192) :
    mscore x L Wv bv Wu bu Wa ba b n ≠ ⊤ := by
  unfold mscore
  split
  · obtain ⟨r, hr⟩ := score_real x Wv bv Wu bu Wa ba hx hWv hbv hWu hbu hWa hba b n
    rw [hr]; exact EReal.coe_ne_top r
  · exact bot_ne_top

/-- In a bag of length at least one the first instance is not masked. -/
theorem mscore_zero_ne_bot (hx : ∀ i, ∃ r : ℝ, x i = (r : EReal)) (hWv : ∀ i, ∃ r : ℝ, Wv i = (r : EReal)) (hbv : ∀ i, ∃ r : ℝ, bv i = (r : EReal))
    (hWu : ∀ i, ∃ r : ℝ, Wu i = (r : EReal)) (hbu : ∀ i, ∃ r : ℝ, bu i = (r : EReal)) (hWa : ∀ i, ∃ r : ℝ, Wa i = (r : EReal))
    (hba : ∀ i, ∃ r : ℝ, ba i = (r : EReal)) (b : Fin 16) (hL : 1 ≤ (L (ix1 b)).toInt) (n : Fin 8192) (hn : n.val = 0) :
    mscore x L Wv bv Wu bu Wa ba b n ≠ ⊥ := by
  have hv : valid L b n := by unfold valid; rw [hn]; omega
  unfold mscore
  rw [if_pos hv]
  obtain ⟨r, hr⟩ := score_real x Wv bv Wu bu Wa ba hx hWv hbv hWu hbu hWa hba b n
  rw [hr]; exact EReal.coe_ne_bot r

end Cert.Spec

end
-- ==== Proof.Bridge.lean ====
/-
  The block-level masked scores are the specification's: at grid point `t`, with the blocks and the table the region
  finds, row `n`'s masked score is `mscore` of bag `t` at instance `n`, and row `n` of the block is row `n` of bag `t`.
-/
import proofs.«408275_j80401787781685_3_alg».proof.Proof.SweepValue
import proofs.«408275_j80401787781685_3_alg».proof.Proof.Inputs
import proofs.«408275_j80401787781685_3_alg».proof.Proof.Spec

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen Cert.KernelIdeal.Inputs

variable (m : (ℓ : Loc nD τ sig) → Buf (Elt Ideal) ℓ)

/-- The block's masked score of row `n` is the specification's masked score of instance `n` of bag `t`. -/
theorem sc_eq (hO : Ok m) (c : Dev nD) (t : Fin (cfgM m hO).N) (n : Fin 8192) :
    Cert.KernelIdeal.SweepValue.sc (tblL m (ix1 (bag m hO t))) (wblk m hO c t) (wablk m hO c t) (bblk m hO c t) (bablk m hO c t) (xblk m hO c t) n
      = Cert.Spec.mscore (argX m c) (argL m c) (argWv m c) (argBv m c) (argWu m c) (argBu m c) (argWa m c) (argBa m c) (bag m hO t) n := by
  obtain rfl : c = 0 := Subsingleton.elim _ _
  unfold Cert.KernelIdeal.SweepValue.sc Cert.Spec.mscore
  refine if_congr (tbl_valid m (bag m hO t) n.val n.isLt) ?_ rfl
  unfold Cert.KernelIdeal.SweepValue.blockScore Cert.Spec.score Cert.Spec.hid
  refine congrArg₂ (· + ·) (Finset.sum_congr rfl fun p _ => ?_) (bablk_apply m hO 0 t)
  refine congrArg₂ (· * ·) (congrArg₂ (· * ·) (congrArg Ideal.tanh ?_) (congrArg Ideal.logistic ?_)) (wablk_apply m hO 0 t p)
  · refine congrArg₂ (· + ·) (Finset.sum_congr rfl fun e _ => ?_) (bblk_apply m hO 0 t p).1
    rw [xblk_apply, (wblk_apply m hO 0 t e p).1]
  · refine congrArg₂ (· + ·) (Finset.sum_congr rfl fun e _ => ?_) (bblk_apply m hO 0 t p).2
    rw [xblk_apply, (wblk_apply m hO 0 t e p).2]

/-- Row `n` of the block is row `n` of bag `t`. -/
theorem xrow_eq (hO : Ok m) (c : Dev nD) (t : Fin (cfgM m hO).N) (n : Fin 8192) (e : Fin 512) :
    Cert.KernelIdeal.SweepValue.xrow (xblk m hO c t) n e = argX m c (ix3 (bag m hO t) n e) := by
  unfold Cert.KernelIdeal.SweepValue.xrow
  exact xblk_apply m hO c t n e

end Cert.KernelIdeal.Bridge

end
-- ==== Proof.KernelValue.lean ====
/-
  What the kernel leaves in its two output blocks at a grid point, as values: the attention block of bag `t` is the
  specification's softmax weights of that bag, the pooled block the weighted sum of the bag's rows.

  The body's last store into the attention block is the normalised, masked weights computed from the scores the sweep
  stored there and from the sweep's final maximum and denominator; the pooled block is the sweep's final weighted sum
  over its final denominator. The sweep's state is the one-sweep softmax's (SweepValue), whose final values are the
  row's maximum, denominator and weighted sums (OnlineSoftmax); the blocks and the table are the arguments (Inputs).
-/
import proofs.«408275_j80401787781685_3_alg».proof.Proof.KernelIdealFrame
import proofs.«408275_j80401787781685_3_alg».proof.Proof.SweepValue
import proofs.«408275_j80401787781685_3_alg».proof.Proof.Inputs
import proofs.«408275_j80401787781685_3_alg».proof.Proof.Spec
import proofs.«408275_j80401787781685_3_alg».proof.Proof.SpecFacts
import proofs.«408275_j80401787781685_3_alg».proof.Proof.Bridge

set_option maxRecDepth 16384

noncomputable section

namespace Cert.KernelIdeal.KernelValue

open Idealize.ShloMosaic Idealize.ShloMosaic.TcCoe Idealize.ShloMosaic.ValueIdx Idealize.SL.Sem
open Cert.KernelIdeal Cert.KernelIdeal.Gen Cert.KernelIdeal.Inputs Cert.OnlineSoftmax

variable (m : (ℓ : Loc nD τ sig) → Buf (Elt Ideal) ℓ)

/-- What the precondition gives: real entries, bag lengths at least one. -/
structure Good : Prop where
  x_real : ∀ c i, ∃ r : ℝ, argX m c i = (r : EReal)
  wv_real : ∀ c i, ∃ r : ℝ, argWv m c i = (r : EReal)
  bv_real : ∀ c i, ∃ r : ℝ, argBv m c i = (r : EReal)
  wu_real : ∀ c i, ∃ r : ℝ, argWu m c i = (r : EReal)
  bu_real : ∀ c i, ∃ r : ℝ, argBu m c i = (r : EReal)
  wa_real : ∀ c i, ∃ r : ℝ, argWa m c i = (r : EReal)
  ba_real : ∀ c i, ∃ r : ℝ, argBa m c i = (r : EReal)
  len_pos : ∀ c (b : Fin 16), 1 ≤ (argL m c (ix1 b)).toInt

/-- The specification's attention result at the arguments on core `c`. -/
abbrev attnOf (c : Dev nD) : FVec Ideal S16x8192x1 .f32 :=
  Cert.Spec.attn (argX m c) (argL m c) (argWv m c) (argBv m c) (argWu m c) (argBu m c) (argWa m c) (argBa m c)

/-- The specification's pooled result at the arguments on core `c`. -/
abbrev pooledOf (c : Dev nD) : FVec Ideal S16x1x512 .f32 :=
  Cert.Spec.pooled (argX m c) (argL m c) (argWv m c) (argBv m c) (argWu m c) (argBu m c) (argWa m c) (argBa m c)

/-! ### The body's final stores, opened -/

/-- The bag-length word the body loads from the prefetched table. -/
def lenWord (c : Dev nD) (i : grid0.Coords) (xt0 : TbBuf0 (F := Ideal) c tbM0_0) : Elt Ideal .i32 :=
  View.readAt (Elt Ideal) tbM0_0.view (Rect.unit (s := S16) (k0_off1 i) S1.size (k0_off1_inb i)).toLoadRect xt0
    (Shape.Idx.first (s := (Rect.unit (s := S16) (k0_off1 i) S1.size (k0_off1_inb i)).shape) (show 0 < S1.numel by decide))

/-- A load of a whole staging buffer reads the block it holds. -/
theorem whole_load {S : Shape} {e : EltTy} (M : Memref sig .tc .vmem S e) (h : M.IsWhole) (x : S.Idx → Elt Ideal e)
    {off : Fin S.rank → ℕ} (hz : off = fun _ => 0) (inb : ∀ a, off a + S.size a ≤ S.size a) :
    View.readAt (Elt Ideal) M.view (Rect.unit off S.size inb).toLoadRect (h.unread x) = x := by
  rw [View.readAt_eq_ld, h.read_unread, View.ld_unit_zero hz]

theorem hz1 : (![0] : Fin 1 → ℕ) = fun _ => 0 := funext fun a => by match a with | ⟨0, _⟩ => rfl
theorem hz2 : (![0, 0] : Fin 2 → ℕ) = fun _ => 0 := funext fun a => by match a with | ⟨0, _⟩ => rfl | ⟨1, _⟩ => rfl
theorem hz3 : (![0, 0, 0] : Fin 3 → ℕ) = fun _ => 0 := funext fun a => by match a with | ⟨0, _⟩ => rfl | ⟨1, _⟩ => rfl | ⟨2, _⟩ => rfl

/-- The pooled block the body leaves is the quotient payload of the sweep's final state. -/
theorem out6_open (c : Dev nD) (i : grid0.Coords) (arg2 : Memref sig .tc .vmem S1x8192x512 .f32) (harg2 : arg2.IsWhole) (arg3 : Memref sig .tc .vmem S512x256 .bf16) (harg3 : arg3.IsWhole) (arg4 : Memref sig .tc .vmem S256 .f32) (harg4 : arg4.IsWhole) (arg5 : Memref sig .tc .vmem S128x1 .bf16) (harg5 : arg5.IsWhole) (arg6 : Memref sig .tc .vmem S1 .f32) (harg6 : arg6.IsWhole) (arg7 : Memref sig .tc .vmem S1x1x8192 .f32) (harg7 : arg7.IsWhole) (arg8 : Memref sig .tc .vmem S1x1x512 .f32) (harg8 : arg8.IsWhole) (x0 : Vec Ideal S1x8192x512 .f32) (x1 : Vec Ideal S512x256 .bf16) (x2 : Vec Ideal S256 .f32) (x3 : Vec Ideal S128x1 .bf16) (x4 : Vec Ideal S1 .f32) (xt0 : TbBuf0 (F := Ideal) c tbM0_0) :
    GenP.out0_A_6 (F := Ideal) c i arg2 harg2 arg3 harg3 arg4 harg4 arg5 harg5 arg6 harg6 arg7 harg7 arg8 harg8 x0 x1 x2 x3 x4 xt0
      = k0_pay17 (F := Ideal) (SweepValue.ST Variants.none c none i tbM0_0 htbM0_0 arg2 harg2 arg3 harg3 arg4 harg4 arg5 harg5 arg6 harg6 arg7 harg7 arg8 harg8 (lenWord c i xt0) x1 x3 x2 x4 (harg2.unread x0) arg7.view.junk (Scf.trips k0_t1_loop.lb k0_t1_loop.ub k0_t1_loop.st)).1.2.1 (SweepValue.ST Variants.none c none i tbM0_0 htbM0_0 arg2 harg2 arg3 harg3 arg4 harg4 arg5 harg5 arg6 harg6 arg7 harg7 arg8 harg8 (lenWord c i xt0) x1 x3 x2 x4 (harg2.unread x0) arg7.view.junk (Scf.trips k0_t1_loop.lb k0_t1_loop.ub k0_t1_loop.st)).1.2.2 := by
  unfold GenP.out0_A_6
  rw [View.read_writes_eq_canon _ _ _ (GenP.cover0_A_6 (F := Ideal) c i arg2 harg2 arg3 harg3 arg4 harg4 arg5 harg5 arg6 harg6 arg7 harg7 arg8 harg8 x0 x1 x2 x3 x4 xt0)]
  unfold GenP.kernelRun0_A
  dsimp only
  rw [View.canon_unit_zero (S := S1x1x512) hz3]
  rw [whole_load arg3 harg3 x1 hz2, whole_load arg5 harg5 x3 hz2, whole_load arg4 harg4 x2 hz1, whole_load arg6 harg6 x4 hz1]
  rfl

/-- The attention block the body leaves is the normalising payload of the sweep's final state and of the stored scores. -/
theorem out5_open (c : Dev nD) (i : grid0.Coords) (arg2 : Memref sig .tc .vmem S1x8192x512 .f32) (harg2 : arg2.IsWhole) (arg3 : Memref sig .tc .vmem S512x256 .bf16) (harg3 : arg3.IsWhole) (arg4 : Memref sig .tc .vmem S256 .f32) (harg4 : arg4.IsWhole) (arg5 : Memref sig .tc .vmem S128x1 .bf16) (harg5 : arg5.IsWhole) (arg6 : Memref sig .tc .vmem S1 .f32) (harg6 : arg6.IsWhole) (arg7 : Memref sig .tc .vmem S1x1x8192 .f32) (harg7 : arg7.IsWhole) (arg8 : Memref sig .tc .vmem S1x1x512 .f32) (harg8 : arg8.IsWhole) (x0 : Vec Ideal S1x8192x512 .f32) (x1 : Vec Ideal S512x256 .bf16) (x2 : Vec Ideal S256 .f32) (x3 : Vec Ideal S128x1 .bf16) (x4 : Vec Ideal S1 .f32) (xt0 : TbBuf0 (F := Ideal) c tbM0_0) :
    GenP.out0_A_5 (F := Ideal) c i arg2 harg2 arg3 harg3 arg4 harg4 arg5 harg5 arg6 harg6 arg7 harg7 arg8 harg8 x0 x1 x2 x3 x4 xt0
      = k0_pay18 (F := Ideal) (lenWord c i xt0) (SweepValue.ST Variants.none c none i tbM0_0 htbM0_0 arg2 harg2 arg3 harg3 arg4 harg4 arg5 harg5 arg6 harg6 arg7 harg7 arg8 harg8 (lenWord c i xt0) x1 x3 x2 x4 (harg2.unread x0) arg7.view.junk (Scf.trips k0_t1_loop.lb k0_t1_loop.ub k0_t1_loop.st)).1.1 (SweepValue.ST Variants.none c none i tbM0_0 htbM0_0 arg2 harg2 arg3 harg3 arg4 harg4 arg5 harg5 arg6 harg6 arg7 harg7 arg8 harg8 (lenWord c i xt0) x1 x3 x2 x4 (harg2.unread x0) arg7.view.junk (Scf.trips k0_t1_loop.lb k0_t1_loop.ub k0_t1_loop.st)).1.2.1
          (View.readAt (Elt Ideal) arg7.view (Rect.unit (s := S1x1x8192) ![0, 0, 0] S1x1x8192.size inb_S1x1x8192_S1x1x8192_0_0_0).toLoadRect
            (arg7.view.writes (Elt Ideal) arg7.view.junk (SweepValue.ST Variants.none c none i tbM0_0 htbM0_0 arg2 harg2 arg3 harg3 arg4 harg4 arg5 harg5 arg6 harg6 arg7 harg7 arg8 harg8 (lenWord c i xt0) x1 x3 x2 x4 (harg2.unread x0) arg7.view.junk (Scf.trips k0_t1_loop.lb k0_t1_loop.ub k0_t1_loop.st)).2)) := by
  unfold GenP.out0_A_5
  rw [View.read_writes_eq_canon _ _ _ (GenP.cover0_A_5 (F := Ideal) c i arg2 harg2 arg3 harg3 arg4 harg4 arg5 harg5 arg6 harg6 arg7 harg7 arg8 harg8 x0 x1 x2 x3 x4 xt0)]
  unfold GenP.kernelRun0_A
  dsimp only
  rw [View.canon_unit_zero (S := S1x1x8192) hz3]
  rw [whole_load arg3 harg3 x1 hz2, whole_load arg5 harg5 x3 hz2, whole_load arg4 harg4 x2 hz1, whole_load arg6 harg6 x4 hz1]
  rfl

/-! ### The two blocks from the sweep's final state -/

theorem out6_gen (c : Dev nD) (i : grid0.Coords) (arg2 : Memref sig .tc .vmem S1x8192x512 .f32) (harg2 : arg2.IsWhole) (arg3 : Memref sig .tc .vmem S512x256 .bf16) (harg3 : arg3.IsWhole) (arg4 : Memref sig .tc .vmem S256 .f32) (harg4 : arg4.IsWhole) (arg5 : Memref sig .tc .vmem S128x1 .bf16) (harg5 : arg5.IsWhole) (arg6 : Memref sig .tc .vmem S1 .f32) (harg6 : arg6.IsWhole) (arg7 : Memref sig .tc .vmem S1x1x8192 .f32) (harg7 : arg7.IsWhole) (arg8 : Memref sig .tc .vmem S1x1x512 .f32) (harg8 : arg8.IsWhole) (x0 : Vec Ideal S1x8192x512 .f32) (x1 : Vec Ideal S512x256 .bf16) (x2 : Vec Ideal S256 .f32) (x3 : Vec Ideal S128x1 .bf16) (x4 : Vec Ideal S1 .f32) (xt0 : TbBuf0 (F := Ideal) c tbM0_0) (e : Fin 512) :
    GenP.out0_A_6 (F := Ideal) c i arg2 harg2 arg3 harg3 arg4 harg4 arg5 harg5 arg6 harg6 arg7 harg7 arg8 harg8 x0 x1 x2 x3 x4 xt0 (ix3 0 0 e)
      = Ideal.div ((sweep SweepValue.hN (SweepValue.sc (lenWord c i xt0) x1 x3 x2 x4 x0) (SweepValue.xrow x0) 8).2.2 e) ((sweep SweepValue.hN (SweepValue.sc (lenWord c i xt0) x1 x3 x2 x4 x0) (SweepValue.xrow x0) 8).2.1) := by
  have hv := SweepValue.st_value Variants.none c none i tbM0_0 htbM0_0 arg2 harg2 arg3 harg3 arg4 harg4 arg5 harg5 arg6 harg6 arg7 harg7 arg8 harg8 (lenWord c i xt0) x1 x3 x2 x4
    (harg2.unread x0) x0 (harg2.read_unread x0) arg7.view.junk 8 le_rfl
  rw [out6_open, show Scf.trips k0_t1_loop.lb k0_t1_loop.ub k0_t1_loop.st = 8 from SweepValue.trips_eq, Pay.pay17_apply,
    hv.2.2 e, hv.2.1]

theorem out5_gen (c : Dev nD) (i : grid0.Coords) (arg2 : Memref sig .tc .vmem S1x8192x512 .f32) (harg2 : arg2.IsWhole) (arg3 : Memref sig .tc .vmem S512x256 .bf16) (harg3 : arg3.IsWhole) (arg4 : Memref sig .tc .vmem S256 .f32) (harg4 : arg4.IsWhole) (arg5 : Memref sig .tc .vmem S128x1 .bf16) (harg5 : arg5.IsWhole) (arg6 : Memref sig .tc .vmem S1 .f32) (harg6 : arg6.IsWhole) (arg7 : Memref sig .tc .vmem S1x1x8192 .f32) (harg7 : arg7.IsWhole) (arg8 : Memref sig .tc .vmem S1x1x512 .f32) (harg8 : arg8.IsWhole) (x0 : Vec Ideal S1x8192x512 .f32) (x1 : Vec Ideal S512x256 .bf16) (x2 : Vec Ideal S256 .f32) (x3 : Vec Ideal S128x1 .bf16) (x4 : Vec Ideal S1 .f32) (xt0 : TbBuf0 (F := Ideal) c tbM0_0) (n : Fin 8192) :
    GenP.out0_A_5 (F := Ideal) c i arg2 harg2 arg3 harg3 arg4 harg4 arg5 harg5 arg6 harg6 arg7 harg7 arg8 harg8 x0 x1 x2 x3 x4 xt0 (ix3 0 0 n)
      = if (n.val : ℤ) < (lenWord c i xt0).toInt then
          Ideal.div (Ideal.exp ((SweepValue.sc (lenWord c i xt0) x1 x3 x2 x4 x0) n - (sweep SweepValue.hN (SweepValue.sc (lenWord c i xt0) x1 x3 x2 x4 x0) (SweepValue.xrow x0) 8).1)) ((sweep SweepValue.hN (SweepValue.sc (lenWord c i xt0) x1 x3 x2 x4 x0) (SweepValue.xrow x0) 8).2.1)
        else 0 := by
  have hv := SweepValue.st_value Variants.none c none i tbM0_0 htbM0_0 arg2 harg2 arg3 harg3 arg4 harg4 arg5 harg5 arg6 harg6 arg7 harg7 arg8 harg8 (lenWord c i xt0) x1 x3 x2 x4
    (harg2.unread x0) x0 (harg2.read_unread x0) arg7.view.junk 8 le_rfl
  have hr := SweepValue.read_after_sweep Variants.none c none i tbM0_0 htbM0_0 arg2 harg2 arg3 harg3 arg4 harg4 arg5 harg5 arg6 harg6 arg7 harg7 arg8 harg8 (lenWord c i xt0) x1 x3 x2 x4
    (harg2.unread x0) x0 (harg2.read_unread x0) arg7.view.junk n
  rw [out5_open, Pay.pay18_apply, hr, show Scf.trips k0_t1_loop.lb k0_t1_loop.ub k0_t1_loop.st = 8 from SweepValue.trips_eq,
    hv.1, hv.2.1]

/-! ### The one-sweep softmax's final values, as the specification spells them -/

section Math

variable (s : Fin 8192 → EReal) (x : Fin 8192 → Fin 512 → EReal)
  (hs : ∀ n, s n ≠ ⊤) (h0 : s (chunk SweepValue.hN ⟨0, by norm_num⟩ ⟨0, by norm_num⟩) ≠ ⊥)
  (hx : ∀ n e, ∃ v : ℝ, x n e = (v : EReal))

include hs h0 hx in
theorem pooled_math (e : Fin 512) :
    Ideal.div ((sweep SweepValue.hN s x 8).2.2 e) ((sweep SweepValue.hN s x 8).2.1)
      = ∑ n, Ideal.div (Ideal.exp (s n - rowMax s)) (denom s) * x n e := by
  obtain ⟨-, h2, h3⟩ := sweep_final SweepValue.hN s x (by norm_num) (by norm_num) hs h0 hx
  rw [h3 e, h2]
  exact div_weighted_sum SweepValue.hN s x (by norm_num) (by norm_num) hs h0 hx e

include hs h0 hx in
theorem attn_math (n : Fin 8192) (p : Prop) [Decidable p] (hp : ¬p → s n = ⊥) :
    (if p then Ideal.div (Ideal.exp (s n - (sweep SweepValue.hN s x 8).1)) ((sweep SweepValue.hN s x 8).2.1) else 0)
      = Ideal.div (Ideal.exp (s n - rowMax s)) (denom s) := by
  obtain ⟨h1, h2, -⟩ := sweep_final SweepValue.hN s x (by norm_num) (by norm_num) hs h0 hx
  rw [h1, h2]
  by_cases h : p
  · rw [if_pos h]
  · rw [if_neg h]
    exact (div_exp_bot SweepValue.hN s (by norm_num) (by norm_num) hs h0 n (hp h)).symm

end Math

/-! ### The table word and the two output blocks -/

theorem coords0 : ∀ t : Fin grid0.N, ((grid0.coords t) 0).val = t.val := by decide

/-- The word the body loads at point `t` is the clipped length of bag `t`. -/
theorem lenWord_eq (hO : Ok m) (c : Dev nD) (t : Fin (cfgM m hO).N) :
    lenWord c (grid0.coords t) (tbl m 0) = tblL m (ix1 (bag m hO t)) := by
  unfold lenWord
  show tblL m ((Rect.unit (s := S16) (k0_off1 (grid0.coords t)) S1.size (k0_off1_inb (grid0.coords t))).idx (Shape.Idx.first _)) = _
  refine congrArg (tblL m) (funext fun a => Fin.ext ?_)
  match a with
  | ⟨0, _⟩ =>
    show k0_off1 (grid0.coords t) 0 + 1 * 0 = t.val
    rw [k0_off1_eq]
    show ((grid0.coords t) 0).val + 1 * 0 = t.val
    rw [coords0]
    rfl

section Final

variable (hG : Good m) (hO : Ok m) (c : Dev nD) (t : Fin (cfgM m hO).N)

theorem sc_fun : (SweepValue.sc (tblL m (ix1 (bag m hO t))) (wblk m hO c t) (wablk m hO c t) (bblk m hO c t) (bablk m hO c t) (xblk m hO c t)) = Cert.Spec.mscore (argX m c) (argL m c) (argWv m c) (argBv m c) (argWu m c) (argBu m c) (argWa m c) (argBa m c) (bag m hO t) :=
  funext (Bridge.sc_eq m hO c t)

theorem xrow_fun : (SweepValue.xrow (xblk m hO c t)) = fun n e => argX m c (ix3 (bag m hO t) n e) :=
  funext fun n => funext fun e => Bridge.xrow_eq m hO c t n e

include hG in
theorem ms_ne_top (n : Fin 8192) : Cert.Spec.mscore (argX m c) (argL m c) (argWv m c) (argBv m c) (argWu m c) (argBu m c) (argWa m c) (argBa m c) (bag m hO t) n ≠ ⊤ :=
  Cert.Spec.mscore_ne_top (argX m c) (argL m c) (argWv m c) (argBv m c) (argWu m c) (argBu m c) (argWa m c) (argBa m c) (hG.x_real c) (hG.wv_real c) (hG.bv_real c) (hG.wu_real c) (hG.bu_real c) (hG.wa_real c) (hG.ba_real c) (bag m hO t) n

include hG in
theorem ms_first : Cert.Spec.mscore (argX m c) (argL m c) (argWv m c) (argBv m c) (argWu m c) (argBu m c) (argWa m c) (argBa m c) (bag m hO t) (chunk SweepValue.hN ⟨0, by norm_num⟩ ⟨0, by norm_num⟩) ≠ ⊥ :=
  Cert.Spec.mscore_zero_ne_bot (argX m c) (argL m c) (argWv m c) (argBv m c) (argWu m c) (argBu m c) (argWa m c) (argBa m c) (hG.x_real c) (hG.wv_real c) (hG.bv_real c) (hG.wu_real c) (hG.bu_real c) (hG.wa_real c) (hG.ba_real c) (bag m hO t) (hG.len_pos c (bag m hO t)) _ rfl

end Final

/-- The attention block after point `t`. -/
theorem out5_apply (hG : Good m) (hO : Ok m) (c : Dev nD) (t : Fin (cfgM m hO).N) (n : Fin 8192) :
    ((GenP.outsAt0 m hO c t).1 : Vec Ideal S1x1x8192 .f32) (ix3 0 0 n) = attnOf m c (ix3 (bag m hO t) n 0) := by
  unfold GenP.outsAt0
  dsimp only
  rw [out5_gen c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (iblk m hO c 0 t) (iblk m hO c 1 t) (iblk m hO c 2 t) (iblk m hO c 3 t) (iblk m hO c 4 t) (tbl m 0) n, lenWord_eq m hO c t]
  show (if (n.val : ℤ) < (tblL m (ix1 (bag m hO t))).toInt then
      Ideal.div (Ideal.exp ((SweepValue.sc (tblL m (ix1 (bag m hO t))) (wblk m hO c t) (wablk m hO c t) (bblk m hO c t) (bablk m hO c t) (xblk m hO c t)) n - (sweep SweepValue.hN (SweepValue.sc (tblL m (ix1 (bag m hO t))) (wblk m hO c t) (wablk m hO c t) (bblk m hO c t) (bablk m hO c t) (xblk m hO c t)) (SweepValue.xrow (xblk m hO c t)) 8).1)) ((sweep SweepValue.hN (SweepValue.sc (tblL m (ix1 (bag m hO t))) (wblk m hO c t) (wablk m hO c t) (bblk m hO c t) (bablk m hO c t) (xblk m hO c t)) (SweepValue.xrow (xblk m hO c t)) 8).2.1) else 0) = _
  have hmask : ¬ ((n.val : ℤ) < (tblL m (ix1 (bag m hO t))).toInt) → (SweepValue.sc (tblL m (ix1 (bag m hO t))) (wblk m hO c t) (wablk m hO c t) (bblk m hO c t) (bablk m hO c t) (xblk m hO c t)) n = ⊥ := fun h => if_neg h
  rw [sc_fun m hO c t] at hmask
  rw [sc_fun m hO c t, xrow_fun m hO c t]
  rw [attn_math _ _ (ms_ne_top m hG hO c t) (ms_first m hG hO c t) (fun n e => hG.x_real c _) n _ hmask]
  rfl

/-- The pooled block after point `t`. -/
theorem out6_apply (hG : Good m) (hO : Ok m) (c : Dev nD) (t : Fin (cfgM m hO).N) (e : Fin 512) :
    ((GenP.outsAt0 m hO c t).2 : Vec Ideal S1x1x512 .f32) (ix3 0 0 e) = pooledOf m c (ix3 (bag m hO t) 0 e) := by
  unfold GenP.outsAt0
  dsimp only
  rw [out6_gen c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (iblk m hO c 0 t) (iblk m hO c 1 t) (iblk m hO c 2 t) (iblk m hO c 3 t) (iblk m hO c 4 t) (tbl m 0) e, lenWord_eq m hO c t]
  show Ideal.div ((sweep SweepValue.hN (SweepValue.sc (tblL m (ix1 (bag m hO t))) (wblk m hO c t) (wablk m hO c t) (bblk m hO c t) (bablk m hO c t) (xblk m hO c t)) (SweepValue.xrow (xblk m hO c t)) 8).2.2 e) ((sweep SweepValue.hN (SweepValue.sc (tblL m (ix1 (bag m hO t))) (wblk m hO c t) (wablk m hO c t) (bblk m hO c t) (bablk m hO c t) (xblk m hO c t)) (SweepValue.xrow (xblk m hO c t)) 8).2.1) = _
  rw [sc_fun m hO c t, xrow_fun m hO c t]
  rw [pooled_math _ _ (ms_ne_top m hG hO c t) (ms_first m hG hO c t) (fun n e => hG.x_real c _) e]
  rfl

end Cert.KernelIdeal.KernelValue

end
-- ==== Proof.KernelRun.lean ====
/-
  From the blocks to the arrays: if after every grid point `t` the attention block holds row `t` of an array `A` and the
  pooled block row `t` of an array `Pd`, then the program ends with its first result (the attention array reshaped from
  [16, 1, 8192] to [16, 8192, 1] by the host line after the region) at `A`, its second at `Pd`, and its arguments unchanged.

  Grid point `t` flushes its two blocks to rows `t` of the two result arrays; the sixteen points cover both arrays; the
  reshape moves entry (b, 0, n) to (b, n, 0).
-/
import proofs.«408275_j80401787781685_3_alg».proof.Proof.KernelIdealFrame
import proofs.«408275_j80401787781685_3_alg».proof.Proof.Inputs
import Idealize.ShloMosaic.Lib.Pipeline.Value
import Idealize.ShloMosaic.Lib.StableHlo.Run

set_option maxRecDepth 16384

noncomputable section

namespace Cert.KernelIdeal.KernelRun

open Idealize.ShloMosaic Idealize.ShloMosaic.TcCoe Idealize.ShloMosaic.ValueIdx Idealize.SL.Sem
open Cert.KernelIdeal Cert.KernelIdeal.Gen Cert.KernelIdeal.Inputs

variable (m : (ℓ : Loc nD τ sig) → Buf (Elt Ideal) ℓ) (ρ : Dev nD → PrngReg)

/-! ### The output windows' index maps -/

theorem transform5_eq : ∀ t : Fin grid0.N, cc0_transform_5 (grid0.coords t) = ![t.val, 0, 0] := by decide +kernel
theorem transform6_eq : ∀ t : Fin grid0.N, cc0_transform_6 (grid0.coords t) = ![t.val, 0, 0] := by decide +kernel

/-! ### The attention array -/

/-- The attention array laid out as the region writes it: entry `(b, 0, n)` is entry `(b, n, 0)`. -/
def att (A : Dev nD → FVec Ideal S16x8192x1 .f32) (c : Dev nD) : FVec Ideal S16x1x8192 .f32 :=
  fun j => A c (ix3 (j 0) (j 2) 0)

theorem out5_apply (hO : Ok m) (A : Dev nD → FVec Ideal S16x8192x1 .f32)
    (h5 : ∀ (c : Dev nD) (t : Fin (cfgM m hO).N) (n : Fin 8192),
      ((GenP.outsAt0 m hO c t).1 : Vec Ideal S1x1x8192 .f32) (ix3 0 0 n) = A c (ix3 (bag m hO t) n 0))
    (c : Dev nD) (t : Fin (cfgM m hO).N) (y : S1x1x8192.Idx) :
    ((GenP.outsAt0 m hO c t).1 : Vec Ideal S1x1x8192 .f32) y = A c (ix3 (bag m hO t) (y 2) 0) := by
  have hy : y = ix3 (0 : Fin 1) (0 : Fin 1) (y 2) := by
    funext a
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl
  exact (congrArg ((GenP.outsAt0 m hO c t).1 : Vec Ideal S1x1x8192 .f32) hy).trans (h5 c t (y 2))

theorem flushed5_eq (hO : Ok m) (A : Dev nD → FVec Ideal S16x8192x1 .f32)
    (h5 : ∀ (c : Dev nD) (t : Fin (cfgM m hO).N) (n : Fin 8192),
      ((GenP.outsAt0 m hO c t).1 : Vec Ideal S1x1x8192 .f32) (ix3 0 0 n) = A c (ix3 (bag m hO t) n 0))
    (c : Dev nD) (t : Fin (cfgM m hO).N) :
    (GenP.dats m hO 0 c).flushed 5 t = (((cfgM m hO).win 5).blk t).view.read (Elt Ideal) (att A c) := by
  show ((cfgM m hO).win 5).cut ((cfgM m hO).grid.coords t) ((GenP.dats m hO 0 c).after 5 t) = _
  rw [GenP.after0_5]
  refine funext fun (y : S1x1x8192.Idx) => ?_
  show ((GenP.outsAt0 m hO c t).1 : Vec Ideal S1x1x8192 .f32) y = att A c ((((cfgM m hO).win 5).blk t).view.emb y)
  rw [out5_apply m hO A h5 c t y]
  unfold att
  refine congrArg (A c) ?_
  have h0 := transform5_eq t
  have hy0 : (y 0).val = 0 := by have h : (y 0).val < 1 := (y 0).isLt; omega
  funext a; apply Fin.ext
  match a with
  | ⟨0, _⟩ =>
    show t.val = cc0_transform_5 (grid0.coords t) 0 * 1 + 1 * (y 0).val
    rw [h0]; show t.val = t.val * 1 + 1 * (y 0).val; omega
  | ⟨1, _⟩ =>
    show (y 2).val = cc0_transform_5 (grid0.coords t) 2 * 8192 + 1 * (y 2).val
    rw [h0]; show (y 2).val = 0 * 8192 + 1 * (y 2).val; omega
  | ⟨2, _⟩ => rfl

theorem N_eq (hO : Ok m) : (cfgM m hO).N = 16 := N_0

theorem point_of (hO : Ok m) (b : ℕ) (hb : b < 16) : ∃ t : Fin (cfgM m hO).N, t.val = b :=
  ⟨⟨b, lt_of_lt_of_eq hb (N_eq m hO).symm⟩, rfl⟩

theorem inb5 (t : Fin grid0.N) (a : Fin 3) :
    cc0_transform_5 (grid0.coords t) a * S1x1x8192.size a + S1x1x8192.size a ≤ S16x1x8192.size a := by
  rw [← Nat.succ_mul]; exact hinb0_5 (grid0.coords t) a

theorem cover5 (hO : Ok m) (i : S16x1x8192.Idx) :
    ∃ t : Fin (cfgM m hO).N, ((cfgM m hO).win 5).flush t = true ∧ i ∈ (((cfgM m hO).win 5).blk t).view.set := by
  have hi0 : (i 0).val < 16 := (i 0).isLt
  have hi1 : (i 1).val < 1 := (i 1).isLt
  have hi2 : (i 2).val < 8192 := (i 2).isLt
  obtain ⟨t, ht⟩ := point_of m hO (i 0).val hi0
  refine ⟨t, flush0_5 (adm m hO) t, ?_⟩
  have h0 := transform5_eq t
  show i ∈ ((View.whole main_v5_0).slice (Rect.unit (s := main_v5_0.ty.shape)
    (fun a => cc0_transform_5 (grid0.coords t) a * S1x1x8192.size a) S1x1x8192.size (inb5 t))).set
  rw [View.set_slice_whole, Rect.mem_set_unit]
  intro a
  match a with
  | ⟨0, _⟩ =>
    show cc0_transform_5 (grid0.coords t) 0 * 1 ≤ (i 0).val ∧ (i 0).val < cc0_transform_5 (grid0.coords t) 0 * 1 + 1
    rw [h0]; show t.val * 1 ≤ (i 0).val ∧ (i 0).val < t.val * 1 + 1; omega
  | ⟨1, _⟩ =>
    show cc0_transform_5 (grid0.coords t) 1 * 1 ≤ (i 1).val ∧ (i 1).val < cc0_transform_5 (grid0.coords t) 1 * 1 + 1
    rw [h0]; show 0 * 1 ≤ (i 1).val ∧ (i 1).val < 0 * 1 + 1; omega
  | ⟨2, _⟩ =>
    show cc0_transform_5 (grid0.coords t) 2 * 8192 ≤ (i 2).val ∧ (i 2).val < cc0_transform_5 (grid0.coords t) 2 * 8192 + 8192
    rw [h0]; show 0 * 8192 ≤ (i 2).val ∧ (i 2).val < 0 * 8192 + 8192; omega

theorem final5 (hO : Ok m) (A : Dev nD → FVec Ideal S16x8192x1 .f32)
    (h5 : ∀ (c : Dev nD) (t : Fin (cfgM m hO).N) (n : Fin 8192),
      ((GenP.outsAt0 m hO c t).1 : Vec Ideal S1x1x8192 .f32) (ix3 0 0 n) = A c (ix3 (bag m hO t) n 0))
    (c : Dev nD) : (GenP.dats m hO 0 c).arrAt 5 (cfgM m hO).N = att A c :=
  (GenP.dats m hO 0 c).arrAt_eq_of_cover 5 (att A c) (fun t _ => flushed5_eq m hO A h5 c t) (cover5 m hO)

/-! ### The pooled array -/

theorem out6_apply (hO : Ok m) (Pd : Dev nD → FVec Ideal S16x1x512 .f32)
    (h6 : ∀ (c : Dev nD) (t : Fin (cfgM m hO).N) (e : Fin 512),
      ((GenP.outsAt0 m hO c t).2 : Vec Ideal S1x1x512 .f32) (ix3 0 0 e) = Pd c (ix3 (bag m hO t) 0 e))
    (c : Dev nD) (t : Fin (cfgM m hO).N) (y : S1x1x512.Idx) :
    ((GenP.outsAt0 m hO c t).2 : Vec Ideal S1x1x512 .f32) y = Pd c (ix3 (bag m hO t) 0 (y 2)) := by
  have hy : y = ix3 (0 : Fin 1) (0 : Fin 1) (y 2) := by
    funext a
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl
  exact (congrArg ((GenP.outsAt0 m hO c t).2 : Vec Ideal S1x1x512 .f32) hy).trans (h6 c t (y 2))

theorem flushed6_eq (hO : Ok m) (Pd : Dev nD → FVec Ideal S16x1x512 .f32)
    (h6 : ∀ (c : Dev nD) (t : Fin (cfgM m hO).N) (e : Fin 512),
      ((GenP.outsAt0 m hO c t).2 : Vec Ideal S1x1x512 .f32) (ix3 0 0 e) = Pd c (ix3 (bag m hO t) 0 e))
    (c : Dev nD) (t : Fin (cfgM m hO).N) :
    (GenP.dats m hO 0 c).flushed 6 t = (((cfgM m hO).win 6).blk t).view.read (Elt Ideal) (Pd c) := by
  show ((cfgM m hO).win 6).cut ((cfgM m hO).grid.coords t) ((GenP.dats m hO 0 c).after 6 t) = _
  rw [GenP.after0_6]
  refine funext fun (y : S1x1x512.Idx) => ?_
  show ((GenP.outsAt0 m hO c t).2 : Vec Ideal S1x1x512 .f32) y = Pd c ((((cfgM m hO).win 6).blk t).view.emb y)
  rw [out6_apply m hO Pd h6 c t y]
  refine congrArg (Pd c) ?_
  have h0 := transform6_eq t
  have hy0 : (y 0).val = 0 := by have h : (y 0).val < 1 := (y 0).isLt; omega
  have hy1 : (y 1).val = 0 := by have h : (y 1).val < 1 := (y 1).isLt; omega
  funext a; apply Fin.ext
  match a with
  | ⟨0, _⟩ =>
    show t.val = cc0_transform_6 (grid0.coords t) 0 * 1 + 1 * (y 0).val
    rw [h0]; show t.val = t.val * 1 + 1 * (y 0).val; omega
  | ⟨1, _⟩ =>
    show 0 = cc0_transform_6 (grid0.coords t) 1 * 1 + 1 * (y 1).val
    rw [h0]; show 0 = 0 * 1 + 1 * (y 1).val; omega
  | ⟨2, _⟩ =>
    show (y 2).val = cc0_transform_6 (grid0.coords t) 2 * 512 + 1 * (y 2).val
    rw [h0]; show (y 2).val = 0 * 512 + 1 * (y 2).val; omega

theorem inb6 (t : Fin grid0.N) (a : Fin 3) :
    cc0_transform_6 (grid0.coords t) a * S1x1x512.size a + S1x1x512.size a ≤ S16x1x512.size a := by
  rw [← Nat.succ_mul]; exact hinb0_6 (grid0.coords t) a

theorem cover6 (hO : Ok m) (i : S16x1x512.Idx) :
    ∃ t : Fin (cfgM m hO).N, ((cfgM m hO).win 6).flush t = true ∧ i ∈ (((cfgM m hO).win 6).blk t).view.set := by
  have hi0 : (i 0).val < 16 := (i 0).isLt
  have hi1 : (i 1).val < 1 := (i 1).isLt
  have hi2 : (i 2).val < 512 := (i 2).isLt
  obtain ⟨t, ht⟩ := point_of m hO (i 0).val hi0
  refine ⟨t, flush0_6 (adm m hO) t, ?_⟩
  have h0 := transform6_eq t
  show i ∈ ((View.whole main_v5_1).slice (Rect.unit (s := main_v5_1.ty.shape)
    (fun a => cc0_transform_6 (grid0.coords t) a * S1x1x512.size a) S1x1x512.size (inb6 t))).set
  rw [View.set_slice_whole, Rect.mem_set_unit]
  intro a
  match a with
  | ⟨0, _⟩ =>
    show cc0_transform_6 (grid0.coords t) 0 * 1 ≤ (i 0).val ∧ (i 0).val < cc0_transform_6 (grid0.coords t) 0 * 1 + 1
    rw [h0]; show t.val * 1 ≤ (i 0).val ∧ (i 0).val < t.val * 1 + 1; omega
  | ⟨1, _⟩ =>
    show cc0_transform_6 (grid0.coords t) 1 * 1 ≤ (i 1).val ∧ (i 1).val < cc0_transform_6 (grid0.coords t) 1 * 1 + 1
    rw [h0]; show 0 * 1 ≤ (i 1).val ∧ (i 1).val < 0 * 1 + 1; omega
  | ⟨2, _⟩ =>
    show cc0_transform_6 (grid0.coords t) 2 * 512 ≤ (i 2).val ∧ (i 2).val < cc0_transform_6 (grid0.coords t) 2 * 512 + 512
    rw [h0]; show 0 * 512 ≤ (i 2).val ∧ (i 2).val < 0 * 512 + 512; omega

theorem final6 (hO : Ok m) (Pd : Dev nD → FVec Ideal S16x1x512 .f32)
    (h6 : ∀ (c : Dev nD) (t : Fin (cfgM m hO).N) (e : Fin 512),
      ((GenP.outsAt0 m hO c t).2 : Vec Ideal S1x1x512 .f32) (ix3 0 0 e) = Pd c (ix3 (bag m hO t) 0 e))
    (c : Dev nD) : (GenP.dats m hO 0 c).arrAt 6 (cfgM m hO).N = Pd c :=
  (GenP.dats m hO 0 c).arrAt_eq_of_cover 6 (Pd c) (fun t _ => flushed6_eq m hO Pd h6 c t) (cover6 m hO)

/-! ### The host line after the region -/

theorem tail_v6 (hO : Ok m) (A : Dev nD → FVec Ideal S16x8192x1 .f32)
    (h5 : ∀ (c : Dev nD) (t : Fin (cfgM m hO).N) (n : Fin 8192),
      ((GenP.outsAt0 m hO c t).1 : Vec Ideal S1x1x8192 .f32) (ix3 0 0 n) = A c (ix3 (bag m hO t) n 0))
    (c : Dev nD) :
    Pipeline.afterTail pcfgs (fun _ => adm m hO) (GenP.dats m hO) 0 (V0 m) [hostOps1] c main_v6 = A c := by
  unfold Pipeline.afterTail
  simp only [hostOps1, List.flatten_cons, List.flatten_nil, List.append_nil]
  after_results
  have hw : Pipeline.withArrays (Pipeline.pin pcfgs (fun _ => adm m hO) 0).spec c (V0 m c)
      (fun w => (GenP.dats m hO 0 c).arrAt w (Pipeline.pin pcfgs (fun _ => adm m hO) 0).N) (Proc.devRef .tc main_v5_0)
        = att A c :=
    (Pipeline.withArrays_arr spec0 winFacts0.arr_inj c _ _ 5).trans (final5 m hO A h5 c)
  rw [hw]
  refine funext fun (j : S16x8192x1.Idx) => ?_
  show shapeCast S16x8192x1 (att A c) shapeCasts_S16x1x8192_S16x8192x1 j = A c j
  have hj2 : (j 2).val = 0 := by have h : (j 2).val < 1 := (j 2).isLt; omega
  refine (shapeCast_apply (att A c) _ j (ix3 (j 0) 0 (j 1)) ?_).trans ?_
  · rw [Shape.rowMajor_val_three, Shape.rowMajor_val_three]
    show ((j 0).val * 1 + 0) * 8192 + (j 1).val = ((j 0).val * 8192 + (j 1).val) * 1 + (j 2).val
    omega
  · unfold att
    refine congrArg (A c) ?_
    funext a
    match a with
    | ⟨0, _⟩ => rfl
    | ⟨1, _⟩ => rfl
    | ⟨2, _⟩ => exact Fin.ext hj2.symm

/-- The run, with both result arrays named, from what the blocks hold after each point. -/
theorem run_of (hO : Ok m) (A : Dev nD → FVec Ideal S16x8192x1 .f32) (Pd : Dev nD → FVec Ideal S16x1x512 .f32)
    (h5 : ∀ (c : Dev nD) (t : Fin (cfgM m hO).N) (n : Fin 8192),
      ((GenP.outsAt0 m hO c t).1 : Vec Ideal S1x1x8192 .f32) (ix3 0 0 n) = A c (ix3 (bag m hO t) n 0))
    (h6 : ∀ (c : Dev nD) (t : Fin (cfgM m hO).N) (e : Fin 512),
      ((GenP.outsAt0 m hO c t).2 : Vec Ideal S1x1x512 .f32) (ix3 0 0 e) = Pd c (ix3 (bag m hO t) 0 e)) :
    θ_run defs (onTc (τ := τ) (main (F := Ideal))) ⟨m, fun _ => 0, ρ⟩ (fun r => ∀ c : Dev nD,
      r.2.mem ((c.tc : Thread nD τ).loc main_v6) = A c
      ∧ r.2.mem ((c.tc : Thread nD τ).loc main_v5_1) = Pd c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  have hrun : θ_run defs (onTc (τ := τ) (main (F := Ideal))) ⟨m, fun _ => 0, ρ⟩
      (Pipeline.FramePost (Pipeline.pin pcfgs fun _ => adm m hO) (GenP.dats m hO) 0
        (Pipeline.afterTail pcfgs (fun _ => adm m hO) (GenP.dats m hO) 0 (V0 m) [hostOps1])) := GenP.run_main m ρ hO
  exact (θ_run defs _ _).mono (fun _ h c =>
    ⟨((h c).2 main_v6 (by decide : main_v6 ∈ Pipeline.restRefs sig spec0)).trans (tail_v6 m hO A h5 c),
      ((h c).1 6).trans (final6 m hO Pd h6 c),
      ((h c).1 0).trans (((GenP.dats m hO 0 c).arrAt_in 0 rfl _).trans ((GenP.A_eq m hO c 0).trans (V_main_arg0 m c))),
      ((h c).2 main_arg1 (by decide : main_arg1 ∈ Pipeline.restRefs sig spec0)).trans (W_main_arg1 m hO (GenP.dats m hO) c),
      ((h c).2 main_arg2 (by decide : main_arg2 ∈ Pipeline.restRefs sig spec0)).trans (W_main_arg2 m hO (GenP.dats m hO) c),
      ((h c).2 main_arg3 (by decide : main_arg3 ∈ Pipeline.restRefs sig spec0)).trans (W_main_arg3 m hO (GenP.dats m hO) c),
      ((h c).2 main_arg4 (by decide : main_arg4 ∈ Pipeline.restRefs sig spec0)).trans (W_main_arg4 m hO (GenP.dats m hO) c),
      ((h c).2 main_arg5 (by decide : main_arg5 ∈ Pipeline.restRefs sig spec0)).trans (W_main_arg5 m hO (GenP.dats m hO) c),
      ((h c).2 main_arg6 (by decide : main_arg6 ∈ Pipeline.restRefs sig spec0)).trans (W_main_arg6 m hO (GenP.dats m hO) c),
      ((h c).1 4).trans (((GenP.dats m hO 0 c).arrAt_in 4 rfl _).trans ((GenP.A_eq m hO c 4).trans (V_main_arg7 m c)))⟩) hrun

end Cert.KernelIdeal.KernelRun

end
-- ==== Proof.RefValue.lean ====
/-
  The reference's two results, read index by index, are the specification's `attn` and `pooled`.

  The reference computes the hidden pre-activations by two contractions over the 512 features, the gate as
  `1 / (1 + exp (-u))` (which is the logistic function), the score by a contraction over the 128 hidden units, masks by a
  signed comparison of the instance's position with the bag's length, and takes the softmax over the instances as
  `exp (s - max) / ∑ exp (s - max)`; the pooled result contracts the weights with the rows over the instances.
-/
import proofs.«408275_j80401787781685_3_alg».proof.Proof.Gen.ReferenceIdeal.Run
import proofs.«408275_j80401787781685_3_alg».proof.Proof.Gen.ReferenceIdeal.Read
import proofs.«408275_j80401787781685_3_alg».proof.Proof.Spec
import Idealize.ShloMosaic.Lib.IdealHost
import Idealize.ShloMosaic.Lib.Affine
import Idealize.ShloMosaic.PureOps.Reduce

noncomputable section

namespace Cert.ReferenceIdeal.RefValue

open Cert.ReferenceIdeal Cert.ReferenceIdeal.Read Idealize.ShloMosaic Idealize.ShloMosaic.ValueIdx

variable (x0 : (⟨S16x8192x512, .f32⟩ : BufTy).Contents (Elt Ideal)) (x1 : (⟨S16, .i32⟩ : BufTy).Contents (Elt Ideal))
  (x2 : (⟨S512x128, .f32⟩ : BufTy).Contents (Elt Ideal)) (x3 : (⟨S128, .f32⟩ : BufTy).Contents (Elt Ideal))
  (x4 : (⟨S512x128, .f32⟩ : BufTy).Contents (Elt Ideal)) (x5 : (⟨S128, .f32⟩ : BufTy).Contents (Elt Ideal))
  (x6 : (⟨S128x1, .f32⟩ : BufTy).Contents (Elt Ideal)) (x7 : (⟨S1, .f32⟩ : BufTy).Contents (Elt Ideal))

/-! ### Index equations -/

theorem lidx0 (b : Fin 16) (n : Fin 8192) (p : Fin 128) (k : Fin 512) :
    lidx_main_v0 (ix3 b n p) k = ix3 b n k :=
  funext fun a => Fin.ext (by match a with | ⟨0, _⟩ => rfl | ⟨1, _⟩ => rfl | ⟨2, _⟩ => rfl)

theorem ridx0 (b : Fin 16) (n : Fin 8192) (p : Fin 128) (k : Fin 512) :
    ridx_main_v0 (ix3 b n p) k = ix2 k p :=
  funext fun a => Fin.ext (by match a with | ⟨0, _⟩ => rfl | ⟨1, _⟩ => rfl)

theorem bidx12 (b : Fin 16) (n : Fin 8192) (p : Fin 128) :
    idx_main_v1 (idx_main_v2 (ix3 b n p)) = ix1 p :=
  funext fun a => Fin.ext (by match a with | ⟨0, _⟩ => rfl)

/-- The first hidden pre-activation. -/
theorem v3_eq (b : Fin 16) (n : Fin 8192) (p : Fin 128) :
    val_main_v3 (F := Ideal) x0 x2 x3 (ix3 b n p) = Cert.Spec.hid x0 x2 x3 b n p := by
  rw [val_main_v3_apply, val_main_v0_apply, val_main_v2_apply, val_main_v1_apply, bidx12]
  simp only [lidx0, ridx0]
  rfl

/-- The second hidden pre-activation. -/
theorem v8_eq (b : Fin 16) (n : Fin 8192) (p : Fin 128) :
    val_main_v8 (F := Ideal) x0 x4 x5 (ix3 b n p) = Cert.Spec.hid x0 x4 x5 b n p := by
  rw [val_main_v8_apply, val_main_v5_apply, val_main_v7_apply, val_main_v6_apply]
  rw [show idx_main_v6 (idx_main_v7 (ix3 b n p)) = ix1 p from bidx12 b n p]
  simp only [show ∀ k, lidx_main_v5 (ix3 b n p) k = ix3 b n k from lidx0 b n p,
    show ∀ k, ridx_main_v5 (ix3 b n p) k = ix2 k p from ridx0 b n p]
  rfl

/-- The gate is the logistic function of the second pre-activation. -/
theorem v14_eq (b : Fin 16) (n : Fin 8192) (p : Fin 128) :
    val_main_v14 (F := Ideal) x0 x4 x5 (ix3 b n p) = Ideal.logistic (Cert.Spec.hid x0 x4 x5 b n p) := by
  rw [val_main_v14_apply, val_main_v13_apply, val_main_cst_0_apply, val_main_v12_apply, val_main_v11_apply,
    val_main_cst_apply, val_main_v10_apply, val_main_v9_apply, v8_eq]
  simp only [Ideal.hostDivf_def, Ideal.ofBits_def, Ideal.ofBits_one_f32, Ideal.addf_def, Ideal.hostUnary_exp_def,
    Ideal.hostNegf_def, Ideal.negf_def]
  rfl

/-- The gated hidden unit. -/
theorem v15_eq (b : Fin 16) (n : Fin 8192) (p : Fin 128) :
    val_main_v15 (F := Ideal) x0 x2 x3 x4 x5 (ix3 b n p)
      = Ideal.tanh (Cert.Spec.hid x0 x2 x3 b n p) * Ideal.logistic (Cert.Spec.hid x0 x4 x5 b n p) := by
  rw [val_main_v15_apply, val_main_v4_apply, v3_eq, v14_eq]
  rfl

theorem lidx16 (b : Fin 16) (n : Fin 8192) (z : Fin 1) (k : Fin 128) :
    lidx_main_v16 (ix3 b n z) k = ix3 b n k :=
  funext fun a => Fin.ext (by match a with | ⟨0, _⟩ => rfl | ⟨1, _⟩ => rfl | ⟨2, _⟩ => rfl)

theorem ridx16 (b : Fin 16) (n : Fin 8192) (k : Fin 128) :
    ridx_main_v16 (ix3 b n (0 : Fin 1)) k = ix2 k (0 : Fin 1) :=
  funext fun a => Fin.ext (by match a with | ⟨0, _⟩ => rfl | ⟨1, _⟩ => rfl)

theorem bidx1718 (b : Fin 16) (n : Fin 8192) (z : Fin 1) :
    idx_main_v17 (idx_main_v18 (ix3 b n z)) = ix1 (0 : Fin 1) :=
  funext fun a => Fin.ext (by match a with | ⟨0, _⟩ => rfl)

/-- The score. -/
theorem v19_eq (b : Fin 16) (n : Fin 8192) :
    val_main_v19 (F := Ideal) x0 x2 x3 x4 x5 x6 x7 (ix3 b n (0 : Fin 1)) = Cert.Spec.score x0 x2 x3 x4 x5 x6 x7 b n := by
  rw [val_main_v19_apply, val_main_v16_apply, val_main_v18_apply, val_main_v17_apply, bidx1718]
  simp only [lidx16, ridx16, v15_eq]
  rfl

theorem bidx2224 (b : Fin 16) (n : Fin 8192) (z : Fin 1) :
    idx_main_v22 (idx_main_v24 (ix3 b n z)) = ix1 b :=
  funext fun a => Fin.ext (by match a with | ⟨0, _⟩ => rfl)

/-- A position below 8192, as a 32-bit word read signed, is itself. -/
theorem toInt_ofNat_pos (n : Fin 8192) : (BitVec.ofNat 32 n.val).toInt = (n.val : ℤ) := by
  have h := n.isLt
  rw [BitVec.toInt_eq_toNat_cond, BitVec.toNat_ofNat]
  have e : n.val % 2 ^ 32 = n.val := Nat.mod_eq_of_lt (by omega)
  rw [e, if_pos (by omega)]

/-- The mask bit is set exactly at the positions inside the bag. -/
theorem v25_iff (b : Fin 16) (n : Fin 8192) :
    val_main_v25 (F := Ideal) x1 (ix3 b n (0 : Fin 1)) = 1#1 ↔ Cert.Spec.valid x1 b n := by
  rw [val_main_v25_apply, val_main_v23_apply, val_main_v21_apply, val_main_v20_apply, val_main_v24_apply,
    val_main_v22_apply, bidx2224, IntOp.cmpi_slt]
  show (BitVec.ofNat 32 n.val).toInt < (x1 (ix1 b)).toInt ↔ _
  rw [toInt_ofNat_pos]
  rfl

/-- The bit pattern of minus infinity. -/
theorem ofBits_neg_inf : Ideal.ofBits .f32 0xFF800000#32 = (⊥ : EReal) := by
  simp [Ideal.ofBits, Ideal.ieee]

/-- The masked score. -/
theorem v26_eq (b : Fin 16) (n : Fin 8192) :
    val_main_v26 (F := Ideal) x0 x1 x2 x3 x4 x5 x6 x7 (ix3 b n (0 : Fin 1))
      = Cert.Spec.mscore x0 x1 x2 x3 x4 x5 x6 x7 b n := by
  rw [val_main_v26_apply, val_main_call0_v1_apply, val_main_call0_v0_apply, val_main_cst_1_apply, v19_eq]
  unfold Cert.Spec.mscore
  by_cases hv : Cert.Spec.valid x1 b n
  · rw [if_pos hv, (v25_iff x1 b n).mpr hv, select_one]
  · rw [if_neg hv, eq_zero_of_ne_one (fun h => hv ((v25_iff x1 b n).mp h)), select_zero]
    exact ofBits_neg_inf

/-- Dropping the instance axis of a `[16, 8192, 1]` array leaves a `[16, 1]` array. -/
theorem red1 : S16x8192x1.Reduces [1] S16x1 := by decide

/-- The reduced index with position `k` put back on the instance axis. -/
theorem lift1 (b : Fin 16) (z : Fin 1) (k : Fin (S16x8192x1.size 1)) :
    red1.lift (ix2 b z) k = ix3 b (⟨k.val, k.isLt⟩ : Fin 8192) z := by
  funext c; apply Fin.ext
  match c with | ⟨0, _⟩ => rfl | ⟨1, _⟩ => rfl | ⟨2, _⟩ => rfl

/-- The maximum-reduce over the instances, from minus infinity, is the row's maximum. -/
theorem v27_eq (b : Fin 16) :
    val_main_v27 (F := Ideal) x0 x1 x2 x3 x4 x5 x6 x7 (ix2 b (0 : Fin 1))
      = Cert.OnlineSoftmax.rowMax (Cert.Spec.mscore x0 x1 x2 x3 x4 x5 x6 x7 b) := by
  unfold val_main_v27
  rw [Host.reduce_eq_fold_single FloatOps.maximumf _ _ _ red1 _]
  have hf : (val_main_v26 (F := Ideal) x0 x1 x2 x3 x4 x5 x6 x7 ∘ red1.lift (ix2 b (0 : Fin 1)))
      = fun k : Fin 8192 => Cert.Spec.mscore x0 x1 x2 x3 x4 x5 x6 x7 b k := funext fun k => by
    show val_main_v26 (F := Ideal) x0 x1 x2 x3 x4 x5 x6 x7 (red1.lift (ix2 b (0 : Fin 1)) k) = _
    rw [lift1]
    exact v26_eq x0 x1 x2 x3 x4 x5 x6 x7 b _
  rw [hf, val_main_cst_2_apply]
  show Finset.fold max (Ideal.ofBits .f32 0xFF800000#32) _ _ = _
  rw [ofBits_neg_inf]
  rfl

/-- The maximum against minus infinity changes nothing. -/
theorem v29_eq (b : Fin 16) :
    val_main_v29 (F := Ideal) x0 x1 x2 x3 x4 x5 x6 x7 (ix2 b (0 : Fin 1))
      = Cert.OnlineSoftmax.rowMax (Cert.Spec.mscore x0 x1 x2 x3 x4 x5 x6 x7 b) := by
  rw [val_main_v29_apply, val_main_v28_apply, val_main_cst_3_apply, v27_eq]
  simp only [Ideal.maximumf_def, Ideal.ofBits_def, ofBits_neg_inf]
  exact max_eq_right bot_le

theorem bidx3031 (b : Fin 16) (n : Fin 8192) (z : Fin 1) :
    idx_main_v30 (idx_main_v31 (ix3 b n z)) = ix2 b (0 : Fin 1) :=
  funext fun a => Fin.ext (by match a with | ⟨0, _⟩ => rfl | ⟨1, _⟩ => rfl)

/-- The exponential of the masked score less the row's maximum. -/
theorem v33_eq (b : Fin 16) (n : Fin 8192) :
    val_main_v33 (F := Ideal) x0 x1 x2 x3 x4 x5 x6 x7 (ix3 b n (0 : Fin 1))
      = Ideal.exp (Cert.Spec.mscore x0 x1 x2 x3 x4 x5 x6 x7 b n
          - Cert.OnlineSoftmax.rowMax (Cert.Spec.mscore x0 x1 x2 x3 x4 x5 x6 x7 b)) := by
  rw [val_main_v33_apply, val_main_v32_apply, val_main_v31_apply, val_main_v30_apply, bidx3031, v29_eq, v26_eq]
  rfl

theorem idx34 (b : Fin 16) (k : Fin 8192) :
    idx_main_v34 (ix2 b (0 : Fin 1)) k = ix3 b k (0 : Fin 1) :=
  funext fun a => Fin.ext (by match a with | ⟨0, _⟩ => rfl | ⟨1, _⟩ => rfl | ⟨2, _⟩ => rfl)

/-- The sum of the exponentials over the instances is the softmax denominator. -/
theorem v34_eq (b : Fin 16) :
    val_main_v34 (F := Ideal) x0 x1 x2 x3 x4 x5 x6 x7 (ix2 b (0 : Fin 1))
      = Cert.OnlineSoftmax.denom (Cert.Spec.mscore x0 x1 x2 x3 x4 x5 x6 x7 b) := by
  rw [val_main_v34_apply, val_main_cst_4_apply]
  simp only [idx34, v33_eq, Ideal.ofBits_def, Ideal.ofBits_zero_f32, zero_add]
  rfl

theorem bidx3536 (b : Fin 16) (n : Fin 8192) (z : Fin 1) :
    idx_main_v35 (idx_main_v36 (ix3 b n z)) = ix2 b (0 : Fin 1) :=
  funext fun a => Fin.ext (by match a with | ⟨0, _⟩ => rfl | ⟨1, _⟩ => rfl)

/-- The quotient is the softmax weight. -/
theorem v37_eq (b : Fin 16) (n : Fin 8192) :
    val_main_v37 (F := Ideal) x0 x1 x2 x3 x4 x5 x6 x7 (ix3 b n (0 : Fin 1))
      = Cert.Spec.weight x0 x1 x2 x3 x4 x5 x6 x7 b n := by
  rw [val_main_v37_apply, val_main_v36_apply, val_main_v35_apply, bidx3536, v34_eq, v33_eq]
  rfl

/-- The reference's first result is the attention weights. -/
theorem attn_eq : val_main_v37 (F := Ideal) x0 x1 x2 x3 x4 x5 x6 x7 = Cert.Spec.attn x0 x1 x2 x3 x4 x5 x6 x7 := by
  funext i
  obtain ⟨b, n, z, rfl⟩ : ∃ (b : Fin 16) (n : Fin 8192) (z : Fin 1), i = ix3 b n z := ⟨i 0, i 1, i 2, eq_ix3 i⟩
  obtain rfl : z = 0 := Subsingleton.elim _ _
  exact v37_eq x0 x1 x2 x3 x4 x5 x6 x7 b n

theorem lidx38 (b : Fin 16) (e : Fin 512) (k : Fin 8192) :
    lidx_main_v38 (ix3 b (0 : Fin 1) e) k = ix3 b k (0 : Fin 1) :=
  funext fun a => Fin.ext (by match a with | ⟨0, _⟩ => rfl | ⟨1, _⟩ => rfl | ⟨2, _⟩ => rfl)

theorem ridx38 (b : Fin 16) (e : Fin 512) (k : Fin 8192) :
    ridx_main_v38 (ix3 b (0 : Fin 1) e) k = ix3 b k e :=
  funext fun a => Fin.ext (by match a with | ⟨0, _⟩ => rfl | ⟨1, _⟩ => rfl | ⟨2, _⟩ => rfl)

/-- The reference's second result is the pooled rows. -/
theorem pooled_eq : val_main_v38 (F := Ideal) x0 x1 x2 x3 x4 x5 x6 x7 = Cert.Spec.pooled x0 x1 x2 x3 x4 x5 x6 x7 := by
  funext i
  obtain ⟨b, z, e, rfl⟩ : ∃ (b : Fin 16) (z : Fin 1) (e : Fin 512), i = ix3 b z e := ⟨i 0, i 1, i 2, eq_ix3 i⟩
  obtain rfl : z = 0 := Subsingleton.elim _ _
  rw [val_main_v38_apply]
  simp only [lidx38, ridx38, v37_eq]
  rfl

end Cert.ReferenceIdeal.RefValue

end
-- ==== Proof.PreFacts.lean ====
/-
  What the precondition says of the arguments: every float entry is a real number, and every bag length is at least one.

  The printed precondition is a conjunction of eight reductions: for each float argument, `all (|x| < +∞)`, and for the
  bag lengths `all (len ≥ 1)` (signed). On the extended reals `|x| < +∞` holds exactly of the real numbers.
-/
import proofs.«408275_j80401787781685_3_alg».proof.Pre_finite_inputs
import proofs.«408275_j80401787781685_3_alg».proof.Proof.Gen.Pre_finite_inputs
import Idealize.ShloMosaic.PureOps.Ideal.Laws
import Idealize.ShloMosaic.Lib.ValueIdx
import Idealize.ShloMosaic.Lib.ReduceAll

noncomputable section

namespace Cert.PreFacts

open Idealize.ShloMosaic Idealize.ShloMosaic.ValueIdx Cert.Pre_finite_inputs

/-- The scalar shape has one index. -/
instance : Subsingleton S_.Idx := ⟨fun _ _ => funext fun d => d.elim0⟩

/-- On the extended reals `|x| < +∞` holds exactly of the real numbers. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | top => exact absurd h (by simp [Ideal.cmp])
  | coe r => exact ⟨r, rfl⟩

/-- `all (|x| < +∞)` that came out true: every entry of `x` is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ix0 = 1#1) (i : s.Idx) : ∃ r : ℝ, x i = (r : EReal) :=
  real_of_abs_lt (x i) (Host.reduce_andi_all _ _ hr hu ix0 e i)

/-- From the precondition, the arguments' entries are real and the bag lengths positive. -/
theorem of_pre [Cert.Pre_finite_inputs.Facts]
    (a0 : FVec Ideal S16x8192x512 .f32) (a1 : IVec S16 32) (a2 : FVec Ideal S512x128 .f32) (a3 : FVec Ideal S128 .f32)
    (a4 : FVec Ideal S512x128 .f32) (a5 : FVec Ideal S128 .f32) (a6 : FVec Ideal S128x1 .f32) (a7 : FVec Ideal S1 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal)) ∧ (∀ b : Fin 16, 1 ≤ (a1 (ix1 b)).toInt) := by
  have h0 := congrFun h ix0
  dsimp only [fn, fn_part1, fn_part2] at h0
  obtain ⟨h33, h36⟩ := IntOp.andi_eq_one.1 h0
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  refine ⟨all_real a0 _ _ _ h3, all_real a2 _ _ _ h7, all_real a3 _ _ _ h12, all_real a4 _ _ _ h17,
    all_real a5 _ _ _ h22, all_real a6 _ _ _ h27, all_real a7 _ _ _ h32, fun b => ?_⟩
  have hb := IntOp.cmpi_sge.1 (Host.reduce_andi_all _ _ _ _ ix0 h36 (ix1 b))
  exact hb

end Cert.PreFacts

end
-- ==== Proof.lean ====
/-
  The certificate's claims, assembled.

  Both programs compute, for each of the sixteen bags, the gated-attention scores of its instances, mask the instances at
  or beyond the bag's length with `-∞`, take the softmax over the instances and pool the rows with the softmax weights.
  The kernel does it in one sweep over eight chunks of 1024 instances with a running maximum, denominator and weighted
  sum, and normalises the stored scores at the end; the reference does it with whole-array operations. Under the
  precondition (real entries, bag lengths at least one) both end at the specification's `attn` and `pooled`.
  The three frames: the two kernels' from their frame modules (the prefetched table's side condition is empty here, no
  index map reads the table), the reference's from its run. The one ledger entry: the mask's fill is named `-∞`.
-/
import proofs.«408275_j80401787781685_3_alg».proof.Defs
import proofs.«408275_j80401787781685_3_alg».proof.Proof.Gen.Kernel
import proofs.«408275_j80401787781685_3_alg».proof.Proof.Gen.KernelIdeal
import proofs.«408275_j80401787781685_3_alg».proof.Proof.Gen.ReferenceIdeal
import proofs.«408275_j80401787781685_3_alg».proof.Proof.Gen.Pre_finite_inputs
import proofs.«408275_j80401787781685_3_alg».proof.Proof.Gen.ReferenceIdeal.Run
import proofs.«408275_j80401787781685_3_alg».proof.Proof.Gen.ReferenceIdeal.Read
import proofs.«408275_j80401787781685_3_alg».proof.Proof.KernelFrame
import proofs.«408275_j80401787781685_3_alg».proof.Proof.KernelIdealFrame
import proofs.«408275_j80401787781685_3_alg».proof.Proof.KernelValue
import proofs.«408275_j80401787781685_3_alg».proof.Proof.KernelRun
import proofs.«408275_j80401787781685_3_alg».proof.Proof.RefValue
import proofs.«408275_j80401787781685_3_alg».proof.Proof.PreFacts
import Idealize.ShloMosaic.Adequacy
import Idealize.ShloMosaic.Init

noncomputable section

namespace Cert.Proof

open Idealize.ShloMosaic Idealize.ShloMosaic.TcCoe Idealize.SL.Sem

/-- The prefetched table's side condition is empty: no index map reads the table. -/
theorem ok_kernel (m : (ℓ : Loc Cert.Kernel.nD Cert.Kernel.τ Cert.Kernel.sig) → Buf (Elt Bits) ℓ) : Cert.Kernel.Gen.Ok m := by
  show Cert.Kernel.ok0 _
  unfold Cert.Kernel.ok0
  trivial

theorem ok_kernelIdeal (m : (ℓ : Loc Cert.KernelIdeal.nD Cert.KernelIdeal.τ Cert.KernelIdeal.sig) → Buf (Elt Ideal) ℓ) : Cert.KernelIdeal.Gen.Ok m := by
  show Cert.KernelIdeal.ok0 _
  unfold Cert.KernelIdeal.ok0
  trivial

theorem frame_p : Cert.frame_Kernel (hKernel := Cert.Kernel.Gen.facts) (hPre_finite_inputs := Cert.Pre_finite_inputs.Gen.facts) :=
  fun m ρ _ => Cert.Kernel.GenP.frame m ρ (ok_kernel m)

theorem frame_pi : Cert.frame_KernelIdeal (hKernelIdeal := Cert.KernelIdeal.Gen.facts) (hPre_finite_inputs := Cert.Pre_finite_inputs.Gen.facts) :=
  fun m ρ _ => Cert.KernelIdeal.GenP.frame m ρ (ok_kernelIdeal m)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- The ledger's one entry: the table gives the mask's fill the value `-∞`. -/
theorem preserves : Cert.preserves_Kernel_KernelIdeal :=
  IdealRules.named_const.statement Cert.KernelIdeal.κ "neg_big" .f32 0xFF333332#32 ⊥ rfl

/-- The precondition read back: real entries and bag lengths at least one. -/
theorem good_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) : Cert.KernelIdeal.KernelValue.Good m := by
  have key := fun c => Cert.PreFacts.of_pre _ _ _ _ _ _ _ _ (h c)
  exact ⟨fun c => (key c).1, fun c => (key c).2.1, fun c => (key c).2.2.1, fun c => (key c).2.2.2.1,
    fun c => (key c).2.2.2.2.1, fun c => (key c).2.2.2.2.2.1, fun c => (key c).2.2.2.2.2.2.1,
    fun c => (key c).2.2.2.2.2.2.2⟩

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hG := good_of_pre m hpre
  refine ⟨fun c => Cert.KernelIdeal.KernelValue.attnOf m c, fun c => Cert.KernelIdeal.KernelValue.pooledOf m c,
    Cert.KernelIdeal.KernelRun.run_of m ρ (ok_kernelIdeal m) _ _
      (fun c t n => Cert.KernelIdeal.KernelValue.out5_apply m hG (ok_kernelIdeal m) c t n)
      (fun c t e => Cert.KernelIdeal.KernelValue.out6_apply m hG (ok_kernelIdeal m) c t e), ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v37_eq, Cert.ReferenceIdeal.RefValue.attn_eq]
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]
  · rw [(h c).2.1, Cert.ReferenceIdeal.Read.val_main_v38_eq, Cert.ReferenceIdeal.RefValue.pooled_eq]
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
